-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9_1)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_1) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x50000 : Shape := ⟨2, ![512, 50000]⟩
abbrev S512 : Shape := ⟨1, ![512]⟩
abbrev S1x512x1024 : Shape := ⟨3, ![1, 512, 1024]⟩
abbrev S3072x50000 : Shape := ⟨2, ![3072, 50000]⟩
abbrev S3072x1024 : Shape := ⟨2, ![3072, 1024]⟩
abbrev S3072 : Shape := ⟨1, ![3072]⟩
abbrev S50000x1024 : Shape := ⟨2, ![50000, 1024]⟩
abbrev S50000 : Shape := ⟨1, ![50000]⟩
abbrev S_ : Shape := ⟨0, ![]⟩

class Facts : Prop where
  bcast_S_S512x50000 : S_.BroadcastsInDim S512x50000 (![] : Fin 0 → Fin S512x50000.rank)
  reducesTo_S512x50000_S_d0_1 : S512x50000.ReducesTo [0, 1] S_
  h_S_ : 0 < S_.numel
  bcast_S_S1x512x1024 : S_.BroadcastsInDim S1x512x1024 (![] : Fin 0 → Fin S1x512x1024.rank)
  reducesTo_S1x512x1024_S_d0_1_2 : S1x512x1024.ReducesTo [0, 1, 2] S_
  bcast_S_S3072x50000 : S_.BroadcastsInDim S3072x50000 (![] : Fin 0 → Fin S3072x50000.rank)
  reducesTo_S3072x50000_S_d0_1 : S3072x50000.ReducesTo [0, 1] S_
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S50000x1024 : S_.BroadcastsInDim S50000x1024 (![] : Fin 0 → Fin S50000x1024.rank)
  reducesTo_S50000x1024_S_d0_1 : S50000x1024.ReducesTo [0, 1] S_
  bcast_S_S50000 : S_.BroadcastsInDim S50000 (![] : Fin 0 → Fin S50000.rank)
  reducesTo_S50000_S_d0 : S50000.ReducesTo [0] S_
  bcast_S_S512 : S_.BroadcastsInDim S512 (![] : Fin 0 → Fin S512.rank)
  reducesTo_S512_S_d0 : S512.ReducesTo [0] S_

variable [Facts]

def fn_part2 {F : FTy → Type} [FloatOps F] (main_arg1 : IVec S512 32) (main_arg8 : FVec F S50000 .f32) (main_v33 : IVec S_ 1) : IVec S_ 1 :=
  let main_v34 : FVec F S50000 .f32 := Host.absf main_arg8
  let main_cst_12 : FVec F S_ .f32 := constant S_ .f32 0x7F800000#32
  let main_v35 : FVec F S50000 .f32 := broadcastInDim S50000 ![] bcast_S_S50000 main_cst_12
  let main_v36 : IVec S50000 1 := cmpf .olt main_v34 main_v35
  let main_c_13 : IVec S_ 1 := constantI S_ 1 1#1
  let main_v37 : IVec S_ 1 := (fun x v => Host.reduce IntOp.andi x v reducesTo_S50000_S_d0 h_S_) main_v36 main_c_13
  let main_v38 : IVec S_ 1 := andi main_v33 main_v37
  let main_c_14 : IVec S_ 32 := constantI S_ 32 0#32
  let main_v39 : IVec S512 32 := broadcastInDim S512 ![] bcast_S_S512 main_c_14
  let main_v40 : IVec S512 1 := cmpi .sge main_arg1 main_v39
  let main_c_15 : IVec S_ 1 := constantI S_ 1 1#1
  let main_v41 : IVec S_ 1 := (fun x v => Host.reduce IntOp.andi x v reducesTo_S512_S_d0 h_S_) main_v40 main_c_15
  let main_v42 : IVec S_ 1 := andi main_v38 main_v41
  let main_c_16 : IVec S_ 32 := constantI S_ 32 50000#32
  let main_v43 : IVec S512 32 := broadcastInDim S512 ![] bcast_S_S512 main_c_16
  let main_v44 : IVec S512 1 := cmpi .slt main_arg1 main_v43
  let main_c_17 : IVec S_ 1 := constantI S_ 1 1#1
  let main_v45 : IVec S_ 1 := (fun x v => Host.reduce IntOp.andi x v reducesTo_S512_S_d0 h_S_) main_v44 main_c_17
  let main_v46 : IVec S_ 1 := andi main_v42 main_v45
  main_v46

def fn_part1 {F : FTy → Type} [FloatOps F] (main_arg1 : IVec S512 32) (main_arg5 : FVec F S3072 .f32) (main_arg6 : FVec F S3072 .f32) (main_arg7 : FVec F S50000x1024 .f32) (main_arg8 : FVec F S50000 .f32) (main_v13 : IVec S_ 1) (main_v16 : IVec S3072x1024 1) : IVec S_ 1 :=
  let main_c_5 : IVec S_ 1 := constantI S_ 1 1#1
  let main_v17 : IVec S_ 1 := (fun x v => Host.reduce IntOp.andi x v reducesTo_S3072x1024_S_d0_1 h_S_) main_v16 main_c_5
  let main_v18 : IVec S_ 1 := andi main_v13 main_v17
  let main_v19 : FVec F S3072 .f32 := Host.absf main_arg5
  let main_cst_6 : FVec F S_ .f32 := constant S_ .f32 0x7F800000#32
  let main_v20 : FVec F S3072 .f32 := broadcastInDim S3072 ![] bcast_S_S3072 main_cst_6
  let main_v21 : IVec S3072 1 := cmpf .olt main_v19 main_v20
  let main_c_7 : IVec S_ 1 := constantI S_ 1 1#1
  let main_v22 : IVec S_ 1 := (fun x v => Host.reduce IntOp.andi x v reducesTo_S3072_S_d0 h_S_) main_v21 main_c_7
  let main_v23 : IVec S_ 1 := andi main_v18 main_v22
  let main_v24 : FVec F S3072 .f32 := Host.absf main_arg6
  let main_cst_8 : FVec F S_ .f32 := constant S_ .f32 0x7F800000#32
  let main_v25 : FVec F S3072 .f32 := broadcastInDim S3072 ![] bcast_S_S3072 main_cst_8
  let main_v26 : IVec S3072 1 := cmpf .olt main_v24 main_v25
  let main_c_9 : IVec S_ 1 := constantI S_ 1 1#1
  let main_v27 : IVec S_ 1 := (fun x v => Host.reduce IntOp.andi x v reducesTo_S3072_S_d0 h_S_) main_v26 main_c_9
  let main_v28 : IVec S_ 1 := andi main_v23 main_v27
  let main_v29 : FVec F S50000x1024 .f32 := Host.absf main_arg7
  let main_cst_10 : FVec F S_ .f32 := constant S_ .f32 0x7F800000#32
  let main_v30 : FVec F S50000x1024 .f32 := broadcastInDim S50000x1024 ![] bcast_S_S50000x1024 main_cst_10
  let main_v31 : IVec S50000x1024 1 := cmpf .olt main_v29 main_v30
  let main_c_11 : IVec S_ 1 := constantI S_ 1 1#1
  let main_v32 : IVec S_ 1 := (fun x v => Host.reduce IntOp.andi x v reducesTo_S50000x1024_S_d0_1 h_S_) main_v31 main_c_11
  let main_v33 : IVec S_ 1 := andi main_v28 main_v32
  fn_part2 (F := F) main_arg1 main_arg8 main_v33

def fn {F : FTy → Type} [FloatOps F] (main_arg0 : FVec F S512x50000 .f32) (main_arg1 : IVec S512 32) (main_arg2 : FVec F S1x512x1024 .f32) (main_arg3 : FVec F S3072x50000 .f32) (main_arg4 : FVec F S3072x1024 .f32) (main_arg5 : FVec F S3072 .f32) (main_arg6 : FVec F S3072 .f32) (main_arg7 : FVec F S50000x1024 .f32) (main_arg8 : FVec F S50000 .f32) : IVec S_ 1 :=
  let main_v0 : FVec F S512x50000 .f32 := Host.absf main_arg0
  let main_cst : FVec F S_ .f32 := constant S_ .f32 0x7F800000#32
  let main_v1 : FVec F S512x50000 .f32 := broadcastInDim S512x50000 ![] bcast_S_S512x50000 main_cst
  let main_v2 : IVec S512x50000 1 := cmpf .olt main_v0 main_v1
  let main_c : IVec S_ 1 := constantI S_ 1 1#1
  let main_v3 : IVec S_ 1 := (fun x v => Host.reduce IntOp.andi x v reducesTo_S512x50000_S_d0_1 h_S_) main_v2 main_c
  let main_v4 : FVec F S1x512x1024 .f32 := Host.absf main_arg2
  let main_cst_0 : FVec F S_ .f32 := constant S_ .f32 0x7F800000#32
  let main_v5 : FVec F S1x512x1024 .f32 := broadcastInDim S1x512x1024 ![] bcast_S_S1x512x1024 main_cst_0
  let main_v6 : IVec S1x512x1024 1 := cmpf .olt main_v4 main_v5
  let main_c_1 : IVec S_ 1 := constantI S_ 1 1#1
  let main_v7 : IVec S_ 1 := (fun x v => Host.reduce IntOp.andi x v reducesTo_S1x512x1024_S_d0_1_2 h_S_) main_v6 main_c_1
  let main_v8 : IVec S_ 1 := andi main_v3 main_v7
  let main_v9 : FVec F S3072x50000 .f32 := Host.absf main_arg3
  let main_cst_2 : FVec F S_ .f32 := constant S_ .f32 0x7F800000#32
  let main_v10 : FVec F S3072x50000 .f32 := broadcastInDim S3072x50000 ![] bcast_S_S3072x50000 main_cst_2
  let main_v11 : IVec S3072x50000 1 := cmpf .olt main_v9 main_v10
  let main_c_3 : IVec S_ 1 := constantI S_ 1 1#1
  let main_v12 : IVec S_ 1 := (fun x v => Host.reduce IntOp.andi x v reducesTo_S3072x50000_S_d0_1 h_S_) main_v11 main_c_3
  let main_v13 : IVec S_ 1 := andi main_v8 main_v12
  let main_v14 : FVec F S3072x1024 .f32 := Host.absf main_arg4
  let main_cst_4 : FVec F S_ .f32 := constant S_ .f32 0x7F800000#32
  let main_v15 : FVec F S3072x1024 .f32 := broadcastInDim S3072x1024 ![] bcast_S_S3072x1024 main_cst_4
  let main_v16 : IVec S3072x1024 1 := cmpf .olt main_v14 main_v15
  fn_part1 (F := F) main_arg1 main_arg5 main_arg6 main_arg7 main_arg8 main_v13 main_v16
-- ==== Kernel.lean ====
abbrev S512x50000 : Shape := ⟨2, ![512, 50000]⟩
abbrev S512 : Shape := ⟨1, ![512]⟩
abbrev S1x512x1024 : Shape := ⟨3, ![1, 512, 1024]⟩
abbrev S3072x50000 : Shape := ⟨2, ![3072, 50000]⟩
abbrev S3072x1024 : Shape := ⟨2, ![3072, 1024]⟩
abbrev S3072 : Shape := ⟨1, ![3072]⟩
abbrev S50000x1024 : Shape := ⟨2, ![50000, 1024]⟩
abbrev S50000 : Shape := ⟨1, ![50000]⟩
abbrev S512x1024 : Shape := ⟨2, ![512, 1024]⟩
abbrev S1x3072 : Shape := ⟨2, ![1, 3072]⟩
abbrev S2x512x3072 : Shape := ⟨3, ![2, 512, 3072]⟩
abbrev S512x640 : Shape := ⟨2, ![512, 640]⟩
abbrev S3072x640 : Shape := ⟨2, ![3072, 640]⟩
abbrev S1x512x3072 : Shape := ⟨3, ![1, 512, 3072]⟩
abbrev S512x3072 : Shape := ⟨2, ![512, 3072]⟩
abbrev S512x80 : Shape := ⟨2, ![512, 80]⟩
abbrev S3072x80 : Shape := ⟨2, ![3072, 80]⟩
abbrev S_ : Shape := ⟨0, ![]⟩
abbrev S512x1 : Shape := ⟨2, ![512, 1]⟩
abbrev S1 : Shape := ⟨1, ![1]⟩
abbrev S1x1 : Shape := ⟨2, ![1, 1]⟩
abbrev S1x512 : Shape := ⟨2, ![1, 512]⟩
abbrev S512x512 : Shape := ⟨2, ![512, 512]⟩
abbrev S2x64x3072 : Shape := ⟨3, ![2, 64, 3072]⟩
abbrev S64x1024 : Shape := ⟨2, ![64, 1024]⟩
abbrev S64x80 : Shape := ⟨2, ![64, 80]⟩
abbrev S64x512 : Shape := ⟨2, ![64, 512]⟩
abbrev S64x3072 : Shape := ⟨2, ![64, 3072]⟩
abbrev S1x64x3072 : Shape := ⟨3, ![1, 64, 3072]⟩

abbrev nBuf : Space → Nat
  | .hbm => 64
  | .vmem => 22
  | .smem => 0
  | _ => 0

abbrev bufTy : (tb : Table) → Fin (tcTables nBuf tb) → BufTy
  | .hbm, ⟨0, _⟩ => ⟨S512x50000, .f32⟩
  | .hbm, ⟨1, _⟩ => ⟨S512, .i32⟩
  | .hbm, ⟨2, _⟩ => ⟨S1x512x1024, .f32⟩
  | .hbm, ⟨3, _⟩ => ⟨S3072x50000, .f32⟩
  | .hbm, ⟨4, _⟩ => ⟨S3072x1024, .f32⟩
  | .hbm, ⟨5, _⟩ => ⟨S3072, .f32⟩
  | .hbm, ⟨6, _⟩ => ⟨S3072, .f32⟩
  | .hbm, ⟨7, _⟩ => ⟨S50000x1024, .f32⟩
  | .hbm, ⟨8, _⟩ => ⟨S50000, .f32⟩
  | .hbm, ⟨9, _⟩ => ⟨S512x1024, .f32⟩
  | .hbm, ⟨10, _⟩ => ⟨S1x3072, .f32⟩
  | .hbm, ⟨11, _⟩ => ⟨S2x512x3072, .f32⟩
  | .hbm, ⟨12, _⟩ => ⟨S512x80, .f32⟩
  | .hbm, ⟨13, _⟩ => ⟨S3072x80, .f32⟩
  | .hbm, ⟨14, _⟩ => ⟨S_, .i32⟩
  | .hbm, ⟨15, _⟩ => ⟨S512, .i32⟩
  | .hbm, ⟨16, _⟩ => ⟨S512, .i1⟩
  | .hbm, ⟨17, _⟩ => ⟨S_, .i32⟩
  | .hbm, ⟨18, _⟩ => ⟨S512, .i32⟩
  | .hbm, ⟨19, _⟩ => ⟨S512, .i32⟩
  | .hbm, ⟨20, _⟩ => ⟨S512, .i32⟩
  | .hbm, ⟨21, _⟩ => ⟨S512x1, .i32⟩
  | .hbm, ⟨22, _⟩ => ⟨S1, .i32⟩
  | .hbm, ⟨23, _⟩ => ⟨S_, .i32⟩
  | .hbm, ⟨24, _⟩ => ⟨S512x1, .i32⟩
  | .hbm, ⟨25, _⟩ => ⟨S512x1, .i1⟩
  | .hbm, ⟨26, _⟩ => ⟨S1x1, .i32⟩
  | .hbm, ⟨27, _⟩ => ⟨S512x1, .i32⟩
  | .hbm, ⟨28, _⟩ => ⟨S512x1, .i1⟩
  | .hbm, ⟨29, _⟩ => ⟨S512x1, .i1⟩
  | .hbm, ⟨30, _⟩ => ⟨S_, .i1⟩
  | .hbm, ⟨31, _⟩ => ⟨S512, .i1⟩
  | .hbm, ⟨32, _⟩ => ⟨S512x1024, .f32⟩
  | .hbm, ⟨33, _⟩ => ⟨S512x1024, .i1⟩
  | .hbm, ⟨34, _⟩ => ⟨S_, .f32⟩
  | .hbm, ⟨35, _⟩ => ⟨S512x1024, .f32⟩
  | .hbm, ⟨36, _⟩ => ⟨S512x1024, .f32⟩
  | .hbm, ⟨37, _⟩ => ⟨S_, .i32⟩
  | .hbm, ⟨38, _⟩ => ⟨S512, .i32⟩
  | .hbm, ⟨39, _⟩ => ⟨S512, .i1⟩
  | .hbm, ⟨40, _⟩ => ⟨S_, .i32⟩
  | .hbm, ⟨41, _⟩ => ⟨S512, .i32⟩
  | .hbm, ⟨42, _⟩ => ⟨S512, .i32⟩
  | .hbm, ⟨43, _⟩ => ⟨S512, .i32⟩
  | .hbm, ⟨44, _⟩ => ⟨S512x1, .i32⟩
  | .hbm, ⟨45, _⟩ => ⟨S1, .i32⟩
  | .hbm, ⟨46, _⟩ => ⟨S_, .i32⟩
  | .hbm, ⟨47, _⟩ => ⟨S512x1, .i32⟩
  | .hbm, ⟨48, _⟩ => ⟨S512x1, .i1⟩
  | .hbm, ⟨49, _⟩ => ⟨S1x1, .i32⟩
  | .hbm, ⟨50, _⟩ => ⟨S512x1, .i32⟩
  | .hbm, ⟨51, _⟩ => ⟨S512x1, .i1⟩
  | .hbm, ⟨52, _⟩ => ⟨S512x1, .i1⟩
  | .hbm, ⟨53, _⟩ => ⟨S_, .i1⟩
  | .hbm, ⟨54, _⟩ => ⟨S512, .i1⟩
  | .hbm, ⟨55, _⟩ => ⟨S512, .f32⟩
  | .hbm, ⟨56, _⟩ => ⟨S_, .f32⟩
  | .hbm, ⟨57, _⟩ => ⟨S512, .f32⟩
  | .hbm, ⟨58, _⟩ => ⟨S512, .f32⟩
  | .hbm, ⟨59, _⟩ => ⟨S1x3072, .f32⟩
  | .hbm, ⟨60, _⟩ => ⟨S1x512, .f32⟩
  | .hbm, ⟨61, _⟩ => ⟨S512x1024, .f32⟩
  | .hbm, ⟨62, _⟩ => ⟨S512x512, .f32⟩
  | .hbm, ⟨63, _⟩ => ⟨S1x512x1024, .f32⟩
  | .local _ .vmem, ⟨0, _⟩ => ⟨S512x640, .f32⟩
  | .local _ .vmem, ⟨1, _⟩ => ⟨S512x640, .f32⟩
  | .local _ .vmem, ⟨2, _⟩ => ⟨S3072x640, .f32⟩
  | .local _ .vmem, ⟨3, _⟩ => ⟨S3072x640, .f32⟩
  | .local _ .vmem, ⟨4, _⟩ => ⟨S1x3072, .f32⟩
  | .local _ .vmem, ⟨5, _⟩ => ⟨S1x512x3072, .f32⟩
  | .local _ .vmem, ⟨6, _⟩ => ⟨S1x512x3072, .f32⟩
  | .local _ .vmem, ⟨7, _⟩ => ⟨S2x64x3072, .f32⟩
  | .local _ .vmem, ⟨8, _⟩ => ⟨S2x64x3072, .f32⟩
  | .local _ .vmem, ⟨9, _⟩ => ⟨S64x1024, .f32⟩
  | .local _ .vmem, ⟨10, _⟩ => ⟨S64x1024, .f32⟩
  | .local _ .vmem, ⟨11, _⟩ => ⟨S64x80, .f32⟩
  | .local _ .vmem, ⟨12, _⟩ => ⟨S64x80, .f32⟩
  | .local _ .vmem, ⟨13, _⟩ => ⟨S3072x80, .f32⟩
  | .local _ .vmem, ⟨14, _⟩ => ⟨S3072x1024, .f32⟩
  | .local _ .vmem, ⟨15, _⟩ => ⟨S1x3072, .f32⟩
  | .local _ .vmem, ⟨16, _⟩ => ⟨S512x1024, .f32⟩
  | .local _ .vmem, ⟨17, _⟩ => ⟨S1x512, .f32⟩
  | .local _ .vmem, ⟨18, _⟩ => ⟨S64x1024, .f32⟩
  | .local _ .vmem, ⟨19, _⟩ => ⟨S64x1024, .f32⟩
  | .local _ .vmem, ⟨20, _⟩ => ⟨S64x512, .f32⟩
  | .local _ .vmem, ⟨21, _⟩ => ⟨S64x512, .f32⟩
  | _, _ => ⟨S512x50000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v5 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_c_1 : Ref sig .tc := ⟨.hbm, 45, rfl⟩
abbrev main_call1_c_2 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_3 : Ref sig .tc := ⟨.hbm, 53, rfl⟩
abbrev main_call1_v12 : Ref sig .tc := ⟨.hbm, 54, rfl⟩
abbrev main_call1_v13 : Ref sig .tc := ⟨.hbm, 55, rfl⟩
abbrev main_call1_cst : Ref sig .tc := ⟨.hbm, 56, rfl⟩
abbrev main_call1_v14 : Ref sig .tc := ⟨.hbm, 57, rfl⟩
abbrev main_v6 : Ref sig .tc := ⟨.hbm, 58, rfl⟩
abbrev main_v7 : Ref sig .tc := ⟨.hbm, 59, rfl⟩
abbrev main_v8 : Ref sig .tc := ⟨.hbm, 60, rfl⟩
abbrev main_v9_0 : Ref sig .tc := ⟨.hbm, 61, rfl⟩
abbrev main_v9_1 : Ref sig .tc := ⟨.hbm, 62, rfl⟩
abbrev main_v10 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg8_1 : Ref sig .tc := ⟨.vmem, 19, rfl⟩
abbrev cc1_stg9_0 : Ref sig .tc := ⟨.vmem, 20, rfl⟩
abbrev cc1_stg9_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem8_1 : DmaSem sig := 19
abbrev cc1_sem9_0 : DmaSem sig := 20
abbrev cc1_sem9_1 : DmaSem sig := 21

abbrev nD : Nat := 1
abbrev τ : Topo := Topo.v7x

variable {F : FTy → Type} [FloatOps F]

abbrev grid0 : Pipeline.Grid := ⟨2, ![2, 39], ![false, false]⟩

def cc0_transform_0 (i : grid0.Coords) : Fin 2 → Nat :=
  let arg0 : BitVec 32 := BitVec.ofNat 32 (i 0).val
  let arg1 : BitVec 32 := BitVec.ofNat 32 (i 1).val
  let c39_i32 : BitVec 32 := 39#32
  let v0 : BitVec 32 := Scalar.muli arg0 c39_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c39_i32 : BitVec 32 := 39#32
  let v0 : BitVec 32 := Scalar.muli arg0 c39_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3072x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2x64x3072 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S64x80 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S3072x80 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S3072x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x3072 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S512x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S64x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S64x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  shapeCasts_S1x512x1024_S512x1024 : S1x512x1024.ShapeCasts S512x1024
  shapeCasts_S3072_S1x3072 : S3072.ShapeCasts S1x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  inb_S1x512x3072_S1x512x3072_0_0_0 : ∀ a, (![0, 0, 0] : Fin 3 → Nat) a + S1x512x3072.size a ≤ S1x512x3072.size a
  h_S1x512x3072 : 0 < S1x512x3072.numel
  shapeCasts_S1x512x3072_S512x3072 : S1x512x3072.ShapeCasts S512x3072
  shapeCasts_S512x3072_S1x512x3072 : S512x3072.ShapeCasts S1x512x3072
  inb_S512x640_S512x640_0_0 : ∀ a, (![0, 0] : Fin 2 → Nat) a + S512x640.size a ≤ S512x640.size a
  h_S512x640 : 0 < S512x640.numel
  bitsLt_bf16_f32 : FTy.bits .bf16 < FTy.bits .f32
  inb_S3072x640_S3072x640_0_0 : ∀ a, (![0, 0] : Fin 2 → Nat) a + S3072x640.size a ≤ S3072x640.size a
  h_S3072x640 : 0 < S3072x640.numel
  slices_S512x50000_S512x80_0_49920 : S512x50000.Slices ![0, 49920] S512x80
  slices_S3072x50000_S3072x80_0_49920 : S3072x50000.Slices ![0, 49920] S3072x80
  bcast_S_S512 : S_.BroadcastsInDim S512 (![] : Fin 0 → Fin S512.rank)
  bcast_S512_S512x1_0 : S512.BroadcastsInDim S512x1 (![0] : Fin 1 → Fin S512x1.rank)
  bcast_S_S512x1 : S_.BroadcastsInDim S512x1 (![] : Fin 0 → Fin S512x1.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  reducesTo_S512x1_S512_d1 : S512x1.ReducesTo [1] S512
  h_S_ : 0 < S_.numel
  bcast_S512_S512x1024_0 : S512.BroadcastsInDim S512x1024 (![0] : Fin 1 → Fin S512x1024.rank)
  bcast_S_S512x1024 : S_.BroadcastsInDim S512x1024 (![] : Fin 0 → Fin S512x1024.rank)
  shapeCasts_S512_S1x512 : S512.ShapeCasts S1x512
  inb_S64x80_S64x80_0_0 : ∀ a, (![0, 0] : Fin 2 → Nat) a + S64x80.size a ≤ S64x80.size a
  h_S64x80 : 0 < S64x80.numel
  shapeCasts_S64x80_S64x80 : S64x80.ShapeCasts S64x80
  inb_S3072x80_S3072x80_0_0 : ∀ a, (![0, 0] : Fin 2 → Nat) a + S3072x80.size a ≤ S3072x80.size a
  h_S3072x80 : 0 < S3072x80.numel
  shapeCasts_S3072x80_S3072x80 : S3072x80.ShapeCasts S3072x80
  inb_S2x64x3072_S1x64x3072_0_0_0 : ∀ a, (![0, 0, 0] : Fin 3 → Nat) a + S1x64x3072.size a ≤ S2x64x3072.size a
  h_S1x64x3072 : 0 < S1x64x3072.numel
  shapeCasts_S1x64x3072_S64x3072 : S1x64x3072.ShapeCasts S64x3072
  inb_S2x64x3072_S1x64x3072_1_0_0 : ∀ a, (![1, 0, 0] : Fin 3 → Nat) a + S1x64x3072.size a ≤ S2x64x3072.size a
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S3072x1024_S3072x1024_0_0 : ∀ a, (![0, 0] : Fin 2 → Nat) a + S3072x1024.size a ≤ S3072x1024.size a
  h_S3072x1024 : 0 < S3072x1024.numel
  broadcasts_S1x3072_S64x3072 : S1x3072.Broadcasts S64x3072
  slices_S64x3072_o0_0_S64x1024 : S64x3072.Slices ![0, 0] S64x1024
  slices_S64x3072_o0_1024_S64x1024 : S64x3072.Slices ![0, 1024] S64x1024
  slices_S64x3072_o0_2048_S64x1024 : S64x3072.Slices ![0, 2048] S64x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S64x512 : S1x512.Broadcasts S64x512
  inb_S64x512_S64x512_0_0 : ∀ a, (![0, 0] : Fin 2 → Nat) a + S64x512.size a ≤ S64x512.size a
  h_S64x512 : 0 < S64x512.numel
  bcast_S512x1024_S1x512x1024_1_2 : S512x1024.BroadcastsInDim S1x512x1024 (![1, 2] : Fin 2 → Fin S1x512x1024.rank)
  dot_S512x640_S3072x640_S512x3072_1_1_0_0_n_n_wf : DotDims.WF S512x640 S3072x640 S512x3072 [1] [1] [0] [0] [] []
  gather_S50000x1024_S512x1_S512x1024_1_0_n_n_0_1_11024_wf : GatherDims.WF S50000x1024 S512x1 S512x1024 [1] [0] [] [0] [] 1 ![1, 1024]
  gather_S50000_S512x1_S512_n_0_n_n_0_1_1_wf : GatherDims.WF S50000 S512x1 S512 [] [0] [] [0] [] 1 ![1]
  dot_S64x80_S3072x80_S64x3072_1_1_0_0_n_n_wf : DotDims.WF S64x80 S3072x80 S64x3072 [1] [1] [0] [0] [] []
  dot_S64x1024_S3072x1024_S64x3072_1_1_0_0_n_n_wf : DotDims.WF S64x1024 S3072x1024 S64x3072 [1] [1] [0] [0] [] []
  dot_S64x1024_S512x1024_S64x512_1_1_0_0_n_n_wf : DotDims.WF S64x1024 S512x1024 S64x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S512x640.size a < S512x50000.size a
  hwx0_0 : ∀ i : grid0.Coords, EltTy.bits .f32 = 32 ∨ (Rect.unit (s := S512x50000) (fun a => cc0_transform_0 i a * S512x640.size a) (fun a => (Pipeline.Clip.of (cc0_transform_0 i a) (S512x640.size a) (S512x50000.size a)).extent (S512x640.size a)) fun a => Pipeline.Clip.inb (Pipeline.Clip.ok_of (hstart0_0 i a))).WholeWords (EltTy.packing .f32)
  hwxs0_0 : ∀ i : grid0.Coords, EltTy.bits .f32 = 32 ∨ (Rect.unit (s := S512x640) (fun _ => 0) (fun a => (Pipeline.Clip.of (cc0_transform_0 i a) (S512x640.size a) (S512x50000.size a)).extent (S512x640.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S3072x640.size a < S3072x50000.size a
  hwx0_1 : ∀ i : grid0.Coords, EltTy.bits .f32 = 32 ∨ (Rect.unit (s := S3072x50000) (fun a => cc0_transform_1 i a * S3072x640.size a) (fun a => (Pipeline.Clip.of (cc0_transform_1 i a) (S3072x640.size a) (S3072x50000.size a)).extent (S3072x640.size a)) fun a => Pipeline.Clip.inb (Pipeline.Clip.ok_of (hstart0_1 i a))).WholeWords (EltTy.packing .f32)
  hwxs0_1 : ∀ i : grid0.Coords, EltTy.bits .f32 = 32 ∨ (Rect.unit (s := S3072x640) (fun _ => 0) (fun a => (Pipeline.Clip.of (cc0_transform_1 i a) (S3072x640.size a) (S3072x50000.size a)).extent (S3072x640.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x3072.size a ≤ S2x512x3072.size a
  hwx0_3 : ∀ i : grid0.Coords, EltTy.bits .f32 = 32 ∨ (Rect.block (s := S2x512x3072) S1x512x3072.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2x64x3072.size a ≤ S2x512x3072.size a
  hwx1_0 : ∀ i : grid1.Coords, EltTy.bits .f32 = 32 ∨ (Rect.block (s := S2x512x3072) S2x64x3072.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x1024.size a ≤ S512x1024.size a
  hwx1_1 : ∀ i : grid1.Coords, EltTy.bits .f32 = 32 ∨ (Rect.block (s := S512x1024) S64x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S64x80.size a ≤ S512x80.size a
  hwx1_2 : ∀ i : grid1.Coords, EltTy.bits .f32 = 32 ∨ (Rect.block (s := S512x80) S64x80.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3072x80.size a ≤ S3072x80.size a
  hwx1_3 : ∀ i : grid1.Coords, EltTy.bits .f32 = 32 ∨ (Rect.block (s := S3072x80) S3072x80.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S3072x1024.size a ≤ S3072x1024.size a
  hwx1_4 : ∀ i : grid1.Coords, EltTy.bits .f32 = 32 ∨ (Rect.block (s := S3072x1024) S3072x1024.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x3072.size a ≤ S1x3072.size a
  hwx1_5 : ∀ i : grid1.Coords, EltTy.bits .f32 = 32 ∨ (Rect.block (s := S1x3072) S1x3072.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S512x1024.size a ≤ S512x1024.size a
  hwx1_6 : ∀ i : grid1.Coords, EltTy.bits .f32 = 32 ∨ (Rect.block (s := S512x1024) S512x1024.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x512.size a ≤ S1x512.size a
  hwx1_7 : ∀ i : grid1.Coords, EltTy.bits .f32 = 32 ∨ (Rect.block (s := S1x512) S1x512.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S64x1024.size a ≤ S512x1024.size a
  hwx1_8 : ∀ i : grid1.Coords, EltTy.bits .f32 = 32 ∨ (Rect.block (s := S512x1024) S64x1024.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S64x512.size a ≤ S512x512.size a
  hwx1_9 : ∀ i : grid1.Coords, EltTy.bits .f32 = 32 ∨ (Rect.block (s := S512x512) S64x512.size (cc1_transform_9 i) (hinb1_9 i)).WholeWords (EltTy.packing .f32)

variable [Facts₀]

def dot_S512x640_S3072x640_S512x3072_1_1_0_0_n_n : DotDims S512x640 S3072x640 S512x3072 where
  lhsContracting := [1]
  rhsContracting := [1]
  lhsNonContracting := [0]
  rhsNonContracting := [0]
  lhsBatch := []
  rhsBatch := []
  wf := dot_S512x640_S3072x640_S512x3072_1_1_0_0_n_n_wf
def gather_S50000x1024_S512x1_S512x1024_1_0_n_n_0_1_11024 : GatherDims S50000x1024 S512x1 S512x1024 where
  offsetDims := [1]
  collapsedSliceDims := [0]
  operandBatchingDims := []
  startIndicesBatchingDims := []
  startIndexMap := [0]
  indexVectorDim := 1
  sliceSizes := ![1, 1024]
  wf := gather_S50000x1024_S512x1_S512x1024_1_0_n_n_0_1_11024_wf
def gather_S50000_S512x1_S512_n_0_n_n_0_1_1 : GatherDims S50000 S512x1 S512 where
  offsetDims := []
  collapsedSliceDims := [0]
  operandBatchingDims := []
  startIndicesBatchingDims := []
  startIndexMap := [0]
  indexVectorDim := 1
  sliceSizes := ![1]
  wf := gather_S50000_S512x1_S512_n_0_n_n_0_1_1_wf
def dot_S64x80_S3072x80_S64x3072_1_1_0_0_n_n : DotDims S64x80 S3072x80 S64x3072 where
  lhsContracting := [1]
  rhsContracting := [1]
  lhsNonContracting := [0]
  rhsNonContracting := [0]
  lhsBatch := []
  rhsBatch := []
  wf := dot_S64x80_S3072x80_S64x3072_1_1_0_0_n_n_wf
def dot_S64x1024_S3072x1024_S64x3072_1_1_0_0_n_n : DotDims S64x1024 S3072x1024 S64x3072 where
  lhsContracting := [1]
  rhsContracting := [1]
  lhsNonContracting := [0]
  rhsNonContracting := [0]
  lhsBatch := []
  rhsBatch := []
  wf := dot_S64x1024_S3072x1024_S64x3072_1_1_0_0_n_n_wf
def dot_S64x1024_S512x1024_S64x512_1_1_0_0_n_n : DotDims S64x1024 S512x1024 S64x512 where
  lhsContracting := [1]
  rhsContracting := [1]
  lhsNonContracting := [0]
  rhsNonContracting := [0]
  lhsBatch := []
  rhsBatch := []
  wf := dot_S64x1024_S512x1024_S64x512_1_1_0_0_n_n_wf

abbrev win0_0 : Pipeline.Window sig grid0 :=
  Pipeline.Window.ofSpecClip (Memref.whole main_arg0) S512x640.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg3) S3072x640.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v1) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x512x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2) S2x64x3072.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S64x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S64x80.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S3072x80.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S3072x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S1x3072.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v5) S512x1024.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v8) S1x512.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v9_0) S64x1024.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v9_1) S64x512.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S512x50000 : Shape := ⟨2, ![512, 50000]⟩
abbrev S512 : Shape := ⟨1, ![512]⟩
abbrev S1x512x1024 : Shape := ⟨3, ![1, 512, 1024]⟩
abbrev S3072x50000 : Shape := ⟨2, ![3072, 50000]⟩
abbrev S3072x1024 : Shape := ⟨2, ![3072, 1024]⟩
abbrev S3072 : Shape := ⟨1, ![3072]⟩
abbrev S50000x1024 : Shape := ⟨2, ![50000, 1024]⟩
abbrev S50000 : Shape := ⟨1, ![50000]⟩
abbrev S512x1024 : Shape := ⟨2, ![512, 1024]⟩
abbrev S50000x3072 : Shape := ⟨2, ![50000, 3072]⟩
abbrev S512x3072 : Shape := ⟨2, ![512, 3072]⟩
abbrev S1x3072 : Shape := ⟨2, ![1, 3072]⟩
abbrev S1024x3072 : Shape := ⟨2, ![1024, 3072]⟩
abbrev S_ : Shape := ⟨0, ![]⟩
abbrev S1024x50000 : Shape := ⟨2, ![1024, 50000]⟩
abbrev S1x50000 : Shape := ⟨2, ![1, 50000]⟩
abbrev S512x1 : Shape := ⟨2, ![512, 1]⟩
abbrev S512x512 : Shape := ⟨2, ![512, 512]⟩

abbrev nBuf : Space → Nat
  | .hbm => 69
  | .vmem => 0
  | .smem => 0
  | _ => 0

abbrev bufTy : (tb : Table) → Fin (tcTables nBuf tb) → BufTy
  | .hbm, ⟨0, _⟩ => ⟨S512x50000, .f32⟩
  | .hbm, ⟨1, _⟩ => ⟨S512, .i32⟩
  | .hbm, ⟨2, _⟩ => ⟨S1x512x1024, .f32⟩
  | .hbm, ⟨3, _⟩ => ⟨S3072x50000, .f32⟩
  | .hbm, ⟨4, _⟩ => ⟨S3072x1024, .f32⟩
  | .hbm, ⟨5, _⟩ => ⟨S3072, .f32⟩
  | .hbm, ⟨6, _⟩ => ⟨S3072, .f32⟩
  | .hbm, ⟨7, _⟩ => ⟨S50000x1024, .f32⟩
  | .hbm, ⟨8, _⟩ => ⟨S50000, .f32⟩
  | .hbm, ⟨9, _⟩ => ⟨S512x1024, .f32⟩
  | .hbm, ⟨10, _⟩ => ⟨S50000x3072, .f32⟩
  | .hbm, ⟨11, _⟩ => ⟨S512x3072, .f32⟩
  | .hbm, ⟨12, _⟩ => ⟨S1x3072, .f32⟩
  | .hbm, ⟨13, _⟩ => ⟨S512x3072, .f32⟩
  | .hbm, ⟨14, _⟩ => ⟨S512x3072, .f32⟩
  | .hbm, ⟨15, _⟩ => ⟨S1024x3072, .f32⟩
  | .hbm, ⟨16, _⟩ => ⟨S512x3072, .f32⟩
  | .hbm, ⟨17, _⟩ => ⟨S1x3072, .f32⟩
  | .hbm, ⟨18, _⟩ => ⟨S512x3072, .f32⟩
  | .hbm, ⟨19, _⟩ => ⟨S512x3072, .f32⟩
  | .hbm, ⟨20, _⟩ => ⟨S512x1024, .f32⟩
  | .hbm, ⟨21, _⟩ => ⟨S512x1024, .f32⟩
  | .hbm, ⟨22, _⟩ => ⟨S512x1024, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S512x1024, .f32⟩
  | .hbm, ⟨27, _⟩ => ⟨S512x1024, .f32⟩
  | .hbm, ⟨28, _⟩ => ⟨S512x1024, .f32⟩
  | .hbm, ⟨29, _⟩ => ⟨S_, .f32⟩
  | .hbm, ⟨30, _⟩ => ⟨S512x1024, .f32⟩
  | .hbm, ⟨31, _⟩ => ⟨S512x1024, .f32⟩
  | .hbm, ⟨32, _⟩ => ⟨S_, .f32⟩
  | .hbm, ⟨33, _⟩ => ⟨S512x1024, .f32⟩
  | .hbm, ⟨34, _⟩ => ⟨S512x1024, .f32⟩
  | .hbm, ⟨35, _⟩ => ⟨S512x1024, .f32⟩
  | .hbm, ⟨36, _⟩ => ⟨S512x1024, .f32⟩
  | .hbm, ⟨37, _⟩ => ⟨S512x1024, .f32⟩
  | .hbm, ⟨38, _⟩ => ⟨S_, .f32⟩
  | .hbm, ⟨39, _⟩ => ⟨S512x1024, .f32⟩
  | .hbm, ⟨40, _⟩ => ⟨S512x1024, .f32⟩
  | .hbm, ⟨41, _⟩ => ⟨S_, .f32⟩
  | .hbm, ⟨42, _⟩ => ⟨S512x1024, .f32⟩
  | .hbm, ⟨43, _⟩ => ⟨S512x1024, .f32⟩
  | .hbm, ⟨44, _⟩ => ⟨S512x1024, .f32⟩
  | .hbm, ⟨45, _⟩ => ⟨S512x1024, .f32⟩
  | .hbm, ⟨46, _⟩ => ⟨S512x1024, .f32⟩
  | .hbm, ⟨47, _⟩ => ⟨S_, .f32⟩
  | .hbm, ⟨48, _⟩ => ⟨S512x1024, .f32⟩
  | .hbm, ⟨49, _⟩ => ⟨S512x1024, .f32⟩
  | .hbm, ⟨50, _⟩ => ⟨S512x1024, .f32⟩
  | .hbm, ⟨51, _⟩ => ⟨S512x1024, .f32⟩
  | .hbm, ⟨52, _⟩ => ⟨S512x1024, .f32⟩
  | .hbm, ⟨53, _⟩ => ⟨S1024x50000, .f32⟩
  | .hbm, ⟨54, _⟩ => ⟨S512x50000, .f32⟩
  | .hbm, ⟨55, _⟩ => ⟨S1x50000, .f32⟩
  | .hbm, ⟨56, _⟩ => ⟨S512x50000, .f32⟩
  | .hbm, ⟨57, _⟩ => ⟨S512x50000, .f32⟩
  | .hbm, ⟨58, _⟩ => ⟨S512x50000, .f32⟩
  | .hbm, ⟨59, _⟩ => ⟨S_, .i32⟩
  | .hbm, ⟨60, _⟩ => ⟨S512, .i32⟩
  | .hbm, ⟨61, _⟩ => ⟨S512, .i1⟩
  | .hbm, ⟨62, _⟩ => ⟨S_, .i32⟩
  | .hbm, ⟨63, _⟩ => ⟨S512, .i32⟩
  | .hbm, ⟨64, _⟩ => ⟨S512, .i32⟩
  | .hbm, ⟨65, _⟩ => ⟨S512, .i32⟩
  | .hbm, ⟨66, _⟩ => ⟨S512x1, .i32⟩
  | .hbm, ⟨67, _⟩ => ⟨S512x512, .f32⟩
  | .hbm, ⟨68, _⟩ => ⟨S1x512x1024, .f32⟩
  | _, _ => ⟨S512x50000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst : Ref sig .tc := ⟨.hbm, 29, rfl⟩
abbrev main_v20 : Ref sig .tc := ⟨.hbm, 30, rfl⟩
abbrev main_v21 : Ref sig .tc := ⟨.hbm, 31, rfl⟩
abbrev main_cst_0 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_1 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_3 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_c : Ref sig .tc := ⟨.hbm, 59, rfl⟩
abbrev main_v45 : Ref sig .tc := ⟨.hbm, 60, rfl⟩
abbrev main_v46 : Ref sig .tc := ⟨.hbm, 61, rfl⟩
abbrev main_c_4 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩

abbrev nD : Nat := 1
abbrev τ : Topo := Topo.v7x

variable {F : FTy → Type} [FloatOps F]

class Facts₀ : Prop where
  shapeCasts_S1x512x1024_S512x1024 : S1x512x1024.ShapeCasts S512x1024
  transposes_S3072x50000_S50000x3072_1_0 : S3072x50000.Transposes [1, 0] S50000x3072
  bcast_S3072_S1x3072_1 : S3072.BroadcastsInDim S1x3072 (![1] : Fin 1 → Fin S1x3072.rank)
  bcast_S1x3072_S512x3072_0_1 : S1x3072.BroadcastsInDim S512x3072 (![0, 1] : Fin 2 → Fin S512x3072.rank)
  transposes_S3072x1024_S1024x3072_1_0 : S3072x1024.Transposes [1, 0] S1024x3072
  slices_S512x3072_S512x1024_0_0 : S512x3072.Slices ![0, 0] S512x1024
  slices_S512x3072_S512x1024_0_1024 : S512x3072.Slices ![0, 1024] S512x1024
  slices_S512x3072_S512x1024_0_2048 : S512x3072.Slices ![0, 2048] S512x1024
  bcast_S_S512x1024 : S_.BroadcastsInDim S512x1024 (![] : Fin 0 → Fin S512x1024.rank)
  transposes_S50000x1024_S1024x50000_1_0 : S50000x1024.Transposes [1, 0] S1024x50000
  bcast_S50000_S1x50000_1 : S50000.BroadcastsInDim S1x50000 (![1] : Fin 1 → Fin S1x50000.rank)
  bcast_S1x50000_S512x50000_0_1 : S1x50000.BroadcastsInDim S512x50000 (![0, 1] : Fin 2 → Fin S512x50000.rank)
  bcast_S_S512 : S_.BroadcastsInDim S512 (![] : Fin 0 → Fin S512.rank)
  bcast_S512_S512x1_0 : S512.BroadcastsInDim S512x1 (![0] : Fin 1 → Fin S512x1.rank)
  bcast_S512x1024_S1x512x1024_1_2 : S512x1024.BroadcastsInDim S1x512x1024 (![1, 2] : Fin 2 → Fin S1x512x1024.rank)
  dot_S512x50000_S50000x3072_S512x3072_1_0_0_1_n_n_wf : DotDims.WF S512x50000 S50000x3072 S512x3072 [1] [0] [0] [1] [] []
  dot_S512x1024_S1024x3072_S512x3072_1_0_0_1_n_n_wf : DotDims.WF S512x1024 S1024x3072 S512x3072 [1] [0] [0] [1] [] []
  dot_S512x1024_S1024x50000_S512x50000_1_0_0_1_n_n_wf : DotDims.WF S512x1024 S1024x50000 S512x50000 [1] [0] [0] [1] [] []
  gather_S512x50000_S512x1_S512x512_0_1_n_n_1_1_5121_wf : GatherDims.WF S512x50000 S512x1 S512x512 [0] [1] [] [1] [] 1 ![512, 1]

variable [Facts₀]

def dot_S512x50000_S50000x3072_S512x3072_1_0_0_1_n_n : DotDims S512x50000 S50000x3072 S512x3072 where
  lhsContracting := [1]
  rhsContracting := [0]
  lhsNonContracting := [0]
  rhsNonContracting := [1]
  lhsBatch := []
  rhsBatch := []
  wf := dot_S512x50000_S50000x3072_S512x3072_1_0_0_1_n_n_wf
def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S512x1024_S1024x50000_S512x50000_1_0_0_1_n_n : DotDims S512x1024 S1024x50000 S512x50000 where
  lhsContracting := [1]
  rhsContracting := [0]
  lhsNonContracting := [0]
  rhsNonContracting := [1]
  lhsBatch := []
  rhsBatch := []
  wf := dot_S512x1024_S1024x50000_S512x50000_1_0_0_1_n_n_wf
def gather_S512x50000_S512x1_S512x512_0_1_n_n_1_1_5121 : GatherDims S512x50000 S512x1 S512x512 where
  offsetDims := [0]
  collapsedSliceDims := [1]
  operandBatchingDims := []
  startIndicesBatchingDims := []
  startIndexMap := [1]
  indexVectorDim := 1
  sliceSizes := ![512, 1]
  wf := gather_S512x50000_S512x1_S512x512_0_1_n_n_1_1_5121_wf

class Facts : Prop extends Facts₀ where

variable [Facts]
-- ==== Proof.KRegion0.lean ====
/-
  The first kernel region (the blocked product `x Wᵀ` in two halves), at any float family: its proof data and its body
  obligation, stated at a parameter `V`, the buffers' contents when the region is entered.

  The grid is 2 × 39. At point `(n, k)` the body reads block `39 n + k` (640 columns) of `x` and of `W`, and the bias
  row; the output block `n` (512 × 3072) stays in its buffer for the 39 points of a half: at `k = 0` it is set to the
  bias (first half) or to zero (second half), and at every point the product of the two input blocks is added to it.
  The output block is written back after the half's last point. The two input windows' blocks do not tile the
  50000 columns (640 does not divide 50000), but the 78 blocks the grid visits end at column 49920: none of them is cut.
-/
import proofs.«418008_j22720376995892_3_alg».proof.Proof.Gen.Kernel.Launch
import proofs.«418008_j22720376995892_3_alg».proof.Proof.Gen.Kernel.Skeleton
import proofs.«418008_j22720376995892_3_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The `x` block (512 × 640), the `W` block (3072 × 640) and the bias row (1 × 3072) the body reads at point `t`, as
    vectors of the staging buffers' shapes. The two clipped windows' blocks are whole at every point of the grid, so the
    filler is never read. -/
def xb0 (c : Dev nD) (t : Fin cfg0.N) : Vec F S512x640 .f32 :=
  win0_0.fill (grid0.coords t) (fun _ => Scalar.ofBits .f32 0#32) (iblk0 V c 0 t)
def wb0 (c : Dev nD) (t : Fin cfg0.N) : Vec F S3072x640 .f32 :=
  win0_1.fill (grid0.coords t) (fun _ => Scalar.ofBits .f32 0#32) (iblk0 V c 1 t)
def bb0 (c : Dev nD) (t : Fin cfg0.N) : Vec F S1x3072 .f32 := iblk0 V c 2 t

/-- No visited block of the two clipped windows is cut. -/
theorem clip0_0 : ∀ (t : Fin cfg0.N) a, (cfg0.win 0).clip (cfg0.grid.coords t) a = none :=
  (by decide +kernel : ∀ (t : Fin grid0.N) a, win0_0.clip (grid0.coords t) a = none)
theorem clip0_1 : ∀ (t : Fin cfg0.N) a, (cfg0.win 1).clip (cfg0.grid.coords t) a = none :=
  (by decide +kernel : ∀ (t : Fin grid0.N) a, win0_1.clip (grid0.coords t) a = none)

/-! ## What the output buffer holds after each point -/

/-- THE ACCUMULATION. The output window's staging buffer after the body at position `n`: at the first point of a half
    (`n % 39 = 0`) the product added to the start value (the bias row broadcast, or zero); at a later point the product added
    to what the point before left. -/
def acc0 (c : Dev nD) : (n : ℕ) → n < cfg0.N → Vec F S1x512x3072 .f32
  | 0, hn => k0_pay2 (xb0 V c ⟨0, hn⟩) (wb0 V c ⟨0, hn⟩) (k0_pay1 (grid0.coords ⟨0, hn⟩) (bb0 V c ⟨0, hn⟩))
  | n + 1, hn =>
    if (n + 1) % 39 = 0 then
      k0_pay2 (xb0 V c ⟨n + 1, hn⟩) (wb0 V c ⟨n + 1, hn⟩) (k0_pay1 (grid0.coords ⟨n + 1, hn⟩) (bb0 V c ⟨n + 1, hn⟩))
    else
      k0_pay2 (xb0 V c ⟨n + 1, hn⟩) (wb0 V c ⟨n + 1, hn⟩) (acc0 c n (Nat.lt_of_succ_lt hn))

theorem acc0_first (c : Dev nD) (t : Fin cfg0.N) (h : t.val % 39 = 0) :
    acc0 V c t.val t.isLt = k0_pay2 (xb0 V c t) (wb0 V c t) (k0_pay1 (grid0.coords t) (bb0 V c t)) := by
  obtain ⟨n, hn⟩ := t
  cases n with
  | zero => exact rfl
  | succ n => exact (if_pos h).trans rfl

theorem acc0_later (c : Dev nD) (t : Fin cfg0.N) (h : ¬t.val % 39 = 0) :
    acc0 V c t.val t.isLt = k0_pay2 (xb0 V c t) (wb0 V c t) (acc0 V c (t.val - 1) (Nat.lt_of_le_of_lt (Nat.sub_le _ _) t.isLt)) := by
  obtain ⟨n, hn⟩ := t
  cases n with
  | zero => exact absurd (Nat.zero_mod _) h
  | succ n => exact (if_neg h).trans rfl

/-! ## The pipeline's proof data -/

/-- The proof data of pipeline 0 on core `c`: the arrays as the region finds them; after the body at point `t` each
    input's buffer at its block and the output's at `acc0`; the class's invariant (the scoped rest and the generator
    register, untouched); nothing owed; full shares. -/
def dat0 (c : Dev nD) : Dat τ (Elt F) Unit ℕ (UR sig nD τ) ℕ cfg0 c where
  A w := V c (Pipeline.arrRef spec0 w)
  after w t := match w with
    | ⟨0, _⟩ => xb0 V c t
    | ⟨1, _⟩ => wb0 V c t
    | ⟨2, _⟩ => bb0 V c t
    | ⟨3, _⟩ => acc0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = xb0 V c t := by dsimp only [dat0]
theorem after0_1 (c : Dev nD) (t : Fin cfg0.N) : (dat0 V c).after 1 t = wb0 V c t := by dsimp only [dat0]
theorem after0_2 (c : Dev nD) (t : Fin cfg0.N) : (dat0 V c).after 2 t = bb0 V c t := by dsimp only [dat0]
theorem after0_3 (c : Dev nD) (t : Fin cfg0.N) : (dat0 V c).after 3 t = acc0 V c t.val t.isLt := by dsimp only [dat0]

/-! ## The body's branch condition -/

/-- The condition of the body's conditional: the second grid coordinate is zero. -/
abbrev cond0 (i : grid0.Coords) : Prop := (Scalar.cmpi .ne (Scalar.extui (Scalar.cmpi .eq (BitVec.ofNat 32 (i 1).val) 0#32)) 0#32) = 1#1

/-- It holds at the first point of each half. -/
theorem hcond0 : ∀ t : Fin cfg0.N, cond0 (grid0.coords t) ↔ t.val % 39 = 0 :=
  (by decide +kernel : ∀ t : Fin grid0.N, cond0 (grid0.coords t) ↔ t.val % 39 = 0)

/-! ## The body on any whole staging memrefs, one statement per case -/

set_option maxHeartbeats 1000000 in
/-- AT THE FIRST POINT OF A HALF (the condition holds). From the three inputs' buffers at `x0`, `x1`, `x2` and the output's at
    anything, the body runs to the inputs' buffers as they were and the output's at the product of `x0` and `x1` added to
    the start value made from `x2`: it stores the start value, reads it back, and stores the sum. -/
theorem runA0 (c : Dev nD) (i : grid0.Coords)
    (arg2 : Memref sig .tc .vmem S512x640 .f32) (harg2 : arg2.IsWhole)
    (arg3 : Memref sig .tc .vmem S3072x640 .f32) (harg3 : arg3.IsWhole)
    (arg4 : Memref sig .tc .vmem S1x3072 .f32) (harg4 : arg4.IsWhole)
    (arg5 : Memref sig .tc .vmem S1x512x3072 .f32) (harg5 : arg5.IsWhole)
    (hc0 : cond0 i)
    (x0 : Vec F S512x640 .f32) (x1 : Vec F S3072x640 .f32) (x2 : Vec F S1x3072 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k0_pay2 x0 x1 (k0_pay1 i x2))) -∗ K ⟨⟩))
      ⊢ wp frame (wpE (defs₀ (F := F)) Variants.none c none) E (cc0__gi_main_kernel i arg2 harg2 arg3 harg3 arg4 harg4 arg5 harg5) K := by
  simp only [cc0__gi_main_kernel_eq_skeleton]; unfold cc0__gi_main_kernel_skel
  unfold owns
  iintro ⟨⟨%f0, %hf0, H0⟩, ⟨%f1, %hf1, H1⟩, ⟨%f2, %hf2, H2⟩, ⟨%d3, %f3, -, H3⟩, Hk⟩
  obtain rfl := harg2.eq_unread hf0; obtain rfl := harg3.eq_unread hf1; obtain rfl := harg4.eq_unread hf2
  sl_exec (disch := first | exact hc0)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact H3
  ipureintro
  -- every access is the whole buffer at offset zero: the last store's payload is what the buffer reads, the load between
  -- the two stores reads the first store's payload, and the loads of the inputs read their contents
  have hz : (![0, 0, 0] : Fin 3 → Nat) = fun _ => 0 := funext fun a => by fin_cases a <;> rfl
  have hz2 : (![0, 0] : Fin 2 → Nat) = fun _ => 0 := funext fun a => by fin_cases a <;> rfl
  rw [View.read_writes_eq_canon _ _ _ (fun y => ⟨_, List.mem_cons_self .., View.mem_set_unit_zero hz inb_S1x512x3072_S1x512x3072_0_0_0 y⟩),
    View.canon_cons_unit_zero (S := S1x512x3072) hz]
  sl_unfold_words
  rw [View.readCov_unit_zero (S := S1x512x3072) _ hz]
  simp only [View.readAt_eq_ld, hf0, hf1, hf2, View.ld_unit_zero (S := S512x640) hz2, View.ld_unit_zero (S := S3072x640) hz2,
    View.ld_unit_zero (S := S1x3072) hz2]

set_option maxHeartbeats 1000000 in
/-- AT A LATER POINT (the condition fails). From the inputs' buffers at `x0`, `x1`, `x2` and the output's at `xo`, the body
    runs to the inputs' buffers as they were and the output's at the product of `x0` and `x1` added to `xo`. -/
theorem runB0 (c : Dev nD) (i : grid0.Coords)
    (arg2 : Memref sig .tc .vmem S512x640 .f32) (harg2 : arg2.IsWhole)
    (arg3 : Memref sig .tc .vmem S3072x640 .f32) (harg3 : arg3.IsWhole)
    (arg4 : Memref sig .tc .vmem S1x3072 .f32) (harg4 : arg4.IsWhole)
    (arg5 : Memref sig .tc .vmem S1x512x3072 .f32) (harg5 : arg5.IsWhole)
    (hc0 : ¬cond0 i)
    (x0 : Vec F S512x640 .f32) (x1 : Vec F S3072x640 .f32) (x2 : Vec F S1x3072 .f32) (xo : Vec F S1x512x3072 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo
        ∗ (iprop(owns (c : Thread nD τ) arg2 fullShare x0 ∗ owns (c : Thread nD τ) arg3 fullShare x1 ∗ owns (c : Thread nD τ) arg4 fullShare x2
            ∗ owns (c : Thread nD τ) arg5 fullShare (k0_pay2 x0 x1 xo)) -∗ K ⟨⟩))
      ⊢ wp frame (wpE (defs₀ (F := F)) Variants.none c none) E (cc0__gi_main_kernel i arg2 harg2 arg3 harg3 arg4 harg4 arg5 harg5) K := by
  simp only [cc0__gi_main_kernel_eq_skeleton]; unfold cc0__gi_main_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1; obtain rfl := harg4.eq_unread hf2
  obtain rfl := harg5.eq_unread hf3
  sl_exec (disch := first | exact hc0)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact H3
  ipureintro
  -- the one store's payload is what the buffer reads; each load reads its buffer's contents
  have hz : (![0, 0, 0] : Fin 3 → Nat) = fun _ => 0 := funext fun a => by fin_cases a <;> rfl
  have hz2 : (![0, 0] : Fin 2 → Nat) = fun _ => 0 := funext fun a => by fin_cases a <;> rfl
  rw [View.read_writes_eq_canon _ _ _ (fun y => ⟨_, List.mem_cons_self .., View.mem_set_unit_zero hz inb_S1x512x3072_S1x512x3072_0_0_0 y⟩),
    View.canon_cons_unit_zero (S := S1x512x3072) hz]
  simp only [View.readAt_eq_ld, hf0, hf1, hf3, View.ld_unit_zero (S := S512x640) hz2, View.ld_unit_zero (S := S3072x640) hz2,
    View.ld_unit_zero (S := S1x512x3072) hz]

/-! ## What the body finds in each staging buffer -/

/-- The x window is fetched at every point and its block is whole: the buffer holds the block, whatever it held. -/
theorem before0_0 (c : Dev nD) (t : Fin cfg0.N) (d) : (dat0 V c).before 0 t d = xb0 V c t := by
  rw [Dat.before_fetched _ 0 t (fetch0_0 t) d]
  unfold Dat.fetched Dat.blockOf xb0 iblk0
  rw [A_eq0]
  exact Pipeline.fill_of_clip_none (cfg := cfg0) 0 (cfg0.grid.coords t) (clip0_0 t) d _ _

theorem before0_1 (c : Dev nD) (t : Fin cfg0.N) (d) : (dat0 V c).before 1 t d = wb0 V c t := by
  rw [Dat.before_fetched _ 1 t (fetch0_1 t) d]
  unfold Dat.fetched Dat.blockOf wb0 iblk0
  rw [A_eq0]
  exact Pipeline.fill_of_clip_none (cfg := cfg0) 1 (cfg0.grid.coords t) (clip0_1 t) d _ _

/-- The bias row's block index never moves: fetched at the first point, it is still there at every later one. -/
theorem before0_2 (c : Dev nD) (t : Fin cfg0.N) (d) : (dat0 V c).before 2 t d = bb0 V c t :=
  ((dat0 V c).before_in_eq_fetched 2 rfl (fun _ => rfl) (fun _ _ _ => rfl)
    (fun t => by rw [after0_2]; unfold Dat.blockOf bb0 iblk0; rw [A_eq0]; try rfl) t d).trans
    (by unfold Dat.fetched Dat.blockOf bb0 iblk0; rw [A_eq0]; try rfl)

/-- At the first point of a half the output buffer is fresh: the run has just begun, or the point before wrote it back. -/
theorem before0_3_first (c : Dev nD) (t : Fin cfg0.N) (h : t.val % 39 = 0) (d) : (dat0 V c).before 3 t d = d := by
  have hN : t.val < 78 := lt_of_lt_of_eq t.isLt (show cfg0.N = 78 from N_0)
  refine Dat.before_out_reset _ 3 rfl t ?_ d
  by_cases h0 : t.val = 0
  · exact .inl h0
  · exact .inr ⟨h0, (flush0_3 _).mpr (by dsimp only; omega)⟩

/-- At a later point it holds what the point before left: not written back in between, the window whole. -/
theorem before0_3_later (c : Dev nD) (t : Fin cfg0.N) (h : ¬t.val % 39 = 0) (d) :
    (dat0 V c).before 3 t d = acc0 V c (t.val - 1) (Nat.lt_of_le_of_lt (Nat.sub_le _ _) t.isLt) := by
  have hN : t.val < 78 := lt_of_lt_of_eq t.isLt (show cfg0.N = 78 from N_0)
  rw [Dat.before_out_kept _ 3 rfl t (by omega) (Bool.eq_false_iff.mpr fun hf => by have := (flush0_3 _).mp hf; dsimp only at this; omega)
    (fun _ => rfl) (fun _ _ => rfl)]
  dsimp only [dat0]

/-! ## The body obligation, at a generic point -/

/-- Each window's current staging memref at point t. -/
abbrev ms0_0 (t : Fin cfg0.N) : Memref sig .tc .vmem S512x640 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3072x640 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x3072 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x3072 .f32 := win0_3.stage (cfg0.slots t 3)
abbrev hs0_3 (t : Fin cfg0.N) : (ms0_3 t).IsWhole := hstage0_3 ((cfg0.slots t 3).cast nbuf0_3)

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns: the two clipped inputs stated on the part their transfers move. -/
def bodyPost0 (c : Dev nD) (t : Fin cfg0.N) : sProp 𝕄 :=
  iprop((dat0 V c).Φ t.succ ∗ (dat0 V c).owesAt () t.succ
    ∗ (∃ d, owns (c : Thread nD τ) (ms0_0 t) fullShare (win0_0.fill (grid0.coords t) d (win0_0.cut (grid0.coords t) ((dat0 V c).after 0 t))))
    ∗ (∃ d, owns (c : Thread nD τ) (ms0_1 t) fullShare (win0_1.fill (grid0.coords t) d (win0_1.cut (grid0.coords t) ((dat0 V c).after 1 t))))
    ∗ owns (c : Thread nD τ) (ms0_2 t) fullShare ((dat0 V c).after 2 t)
    ∗ owns (c : Thread nD τ) (ms0_3 t) fullShare ((dat0 V c).after 3 t))

set_option maxHeartbeats 800000 in
/-- The body at any point. The two clipped inputs' buffers hold their whole blocks and the bias row's its row, whatever was
    there before; the point is the first of its half or a later one, and the output's buffer holds anything or what the point
    before left accordingly, so the matching case of the body applies; the invariant passes through unread and nothing is
    owed throughout. A clipped input is handed back at its block, which is all of what its obligation asks. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  by_cases h0 : t.val % 39 = 0
  · rw [acc0_first V c t h0]
    simp only [before0_3_first V c t h0]
    iintro ⟨HΦ, Ho, ⟨%d0, H0⟩, ⟨%d1, H1⟩, ⟨%d2, H2⟩, ⟨%d3, H3⟩⟩
    iapply (runA0 c (grid0.coords t) (ms0_0 t) (hs0_0 t) (ms0_1 t) (hs0_1 t) (ms0_2 t) (hs0_2 t) (ms0_3 t) (hs0_3 t)
      ((hcond0 t).mpr h0) (xb0 V c t) (wb0 V c t) (bb0 V c t) Set.univ _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexists xb0 V c t; rw [Window.fill_cut]; iexact H0
    isplitl [H1]; · iexists wb0 V c t; rw [Window.fill_cut]; iexact H1
    isplitl [H2]; · iexact H2
    iexact H3
  · rw [acc0_later V c t h0]
    simp only [before0_3_later V c t h0]
    iintro ⟨HΦ, Ho, ⟨%d0, H0⟩, ⟨%d1, H1⟩, ⟨%d2, H2⟩, ⟨%d3, H3⟩⟩
    iapply (runB0 c (grid0.coords t) (ms0_0 t) (hs0_0 t) (ms0_1 t) (hs0_1 t) (ms0_2 t) (hs0_2 t) (ms0_3 t) (hs0_3 t)
      (fun h => h0 ((hcond0 t).mp h)) (xb0 V c t) (wb0 V c t) (bb0 V c t)
      (acc0 V c (t.val - 1) (Nat.lt_of_le_of_lt (Nat.sub_le _ _) t.isLt)) Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexists xb0 V c t; rw [Window.fill_cut]; iexact H0
    isplitl [H1]; · iexists wb0 V c t; rw [Window.fill_cut]; iexact H1
    isplitl [H2]; · iexact H2
    iexact H3

/-- The library's body obligation (in the form that asks a clipped window back only on the part its transfers move), at
    every point. -/
theorem body_obligation0 (c : Dev nD) :
    BodyObligationLoose (dat0 (F := F) V c) (defs₀ (F := F)) Variants.none () Set.univ := fun t => by
  rw [bigSep_W0, bigSep_W0]
  exact sound_body0 V c t

end Cert.Kernel.Hand

end
-- ==== Proof.KRegion1.lean ====
/-
  The second kernel region (the GRU step and the projection), at any float family: its proof data and its body obligation,
  stated at a parameter `V`, the buffers' contents when the region is entered.

  The grid is 8 points, one per block of 64 batch rows. At point `i` the body reads rows `64 i … 64 i + 63` of the two
  partial products (both halves at once), of the old state and of the tail columns of `x`, and — whole, fetched once —
  the tail columns of `W`, the hidden weights and bias, the gathered output weights and bias. It stores the 64 rows of
  the new state and the 64 rows of the projection, each written back at every point. Nothing is carried between points.
-/
import proofs.«418008_j22720376995892_3_alg».proof.Proof.Gen.Kernel.Launch
import proofs.«418008_j22720376995892_3_alg».proof.Proof.Gen.Kernel.Skeleton
import proofs.«418008_j22720376995892_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The two halves' rows inside the first window's block (2 × 64 × 3072): half 0 and half 1. -/
abbrev r1_half0 : Rect S2x64x3072 := Rect.unit (s := S2x64x3072) ![0, 0, 0] S1x64x3072.size inb_S2x64x3072_S1x64x3072_0_0_0
abbrev r1_half1 : Rect S2x64x3072 := Rect.unit (s := S2x64x3072) ![1, 0, 0] S1x64x3072.size inb_S2x64x3072_S1x64x3072_1_0_0

/-! ## What the body leaves in the two output buffers, from the input blocks -/

/-- The two products `(1 − z) · n` and `z · h` of the 64 rows, from the blocks the body loads. -/
def gate1 (g : Vec F S2x64x3072 .f32) (h : Vec F S64x1024 .f32) (xt : Vec F S64x80 .f32) (wt : Vec F S3072x80 .f32)
    (u : Vec F S3072x1024 .f32) (bh : Vec F S1x3072 .f32) : Vec F S64x1024 .f32 :=
  k1_pay7 xt wt (View.ld g r1_half0) (View.ld g r1_half1) h u bh
def keep1 (g : Vec F S2x64x3072 .f32) (h : Vec F S64x1024 .f32) (xt : Vec F S64x80 .f32) (wt : Vec F S3072x80 .f32)
    (u : Vec F S3072x1024 .f32) (bh : Vec F S1x3072 .f32) : Vec F S64x1024 .f32 :=
  k1_pay8 xt wt (View.ld g r1_half0) (View.ld g r1_half1) h u bh

/-- The 64 rows of the new state, and of the projection. -/
def hrows1 (c : Dev nD) (t : Fin cfg1.N) : Vec F S64x1024 .f32 :=
  k1_pay1 (gate1 (iblk1 V c 0 t) (iblk1 V c 1 t) (iblk1 V c 2 t) (iblk1 V c 3 t) (iblk1 V c 4 t) (iblk1 V c 5 t))
    (keep1 (iblk1 V c 0 t) (iblk1 V c 1 t) (iblk1 V c 2 t) (iblk1 V c 3 t) (iblk1 V c 4 t) (iblk1 V c 5 t))
def lrows1 (c : Dev nD) (t : Fin cfg1.N) : Vec F S64x512 .f32 :=
  k1_pay2 (gate1 (iblk1 V c 0 t) (iblk1 V c 1 t) (iblk1 V c 2 t) (iblk1 V c 3 t) (iblk1 V c 4 t) (iblk1 V c 5 t))
    (keep1 (iblk1 V c 0 t) (iblk1 V c 1 t) (iblk1 V c 2 t) (iblk1 V c 3 t) (iblk1 V c 4 t) (iblk1 V c 5 t))
    (iblk1 V c 6 t) (iblk1 V c 7 t)

/-! ## The pipeline's proof data -/

/-- The proof data of pipeline 1 on core `c`: the arrays as the region finds them; after the body at point `t` each
    input's buffer at its block and the two outputs' at the rows computed from the input blocks; the class's invariant;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => hrows1 V c t
    | ⟨9, _⟩ => lrows1 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_8 (c : Dev nD) (t : Fin cfg1.N) : (dat1 V c).after 8 t = hrows1 V c t := by dsimp only [dat1]
theorem after1_9 (c : Dev nD) (t : Fin cfg1.N) : (dat1 V c).after 9 t = lrows1 V c t := by dsimp only [dat1]

/-! ## What the body finds in each input's buffer

An input's current buffer holds the window's block at the point whether or not it was fetched there: where it was not,
the block index has not moved since the point before, and the body left the block in place. -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [show (dat1 V c).after 0 t = iblk1 V c 0 t by dsimp only [dat1]]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
    (fun t => by rw [show (dat1 V c).after 1 t = iblk1 V c 1 t by dsimp only [dat1]]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl)
    (fun t => by rw [show (dat1 V c).after 2 t = iblk1 V c 2 t by dsimp only [dat1]]; unfold Dat.blockOf iblk1; rw [A_eq1]; try rfl) t d).trans
    (by unfold Dat.fetched Dat.blockOf iblk1; rw [A_eq1]; try rfl)

theorem before1_3 (c : Dev nD) (t : Fin cfg1.N) (d) : (dat1 V c).before 3 t d = iblk1 V c 3 t :=
  ((dat1 V c).before_in_eq_fetched 3 rfl (fun _ => rfl) (fun _ _ _ => rfl)
    (fun t => by rw [show (dat1 V c).after 3 t = iblk1 V c 3 t by dsimp only [dat1]]; unfold Dat.blockOf iblk1; rw [A_eq1]; try rfl) t d).trans
    (by unfold Dat.fetched Dat.blockOf iblk1; rw [A_eq1]; try rfl)

theorem before1_4 (c : Dev nD) (t : Fin cfg1.N) (d) : (dat1 V c).before 4 t d = iblk1 V c 4 t :=
  ((dat1 V c).before_in_eq_fetched 4 rfl (fun _ => rfl) (fun _ _ _ => rfl)
    (fun t => by rw [show (dat1 V c).after 4 t = iblk1 V c 4 t by dsimp only [dat1]]; unfold Dat.blockOf iblk1; rw [A_eq1]; try rfl) t d).trans
    (by unfold Dat.fetched Dat.blockOf iblk1; rw [A_eq1]; try rfl)

theorem before1_5 (c : Dev nD) (t : Fin cfg1.N) (d) : (dat1 V c).before 5 t d = iblk1 V c 5 t :=
  ((dat1 V c).before_in_eq_fetched 5 rfl (fun _ => rfl) (fun _ _ _ => rfl)
    (fun t => by rw [show (dat1 V c).after 5 t = iblk1 V c 5 t by dsimp only [dat1]]; unfold Dat.blockOf iblk1; rw [A_eq1]; try rfl) t d).trans
    (by unfold Dat.fetched Dat.blockOf iblk1; rw [A_eq1]; try rfl)

theorem before1_6 (c : Dev nD) (t : Fin cfg1.N) (d) : (dat1 V c).before 6 t d = iblk1 V c 6 t :=
  ((dat1 V c).before_in_eq_fetched 6 rfl (fun _ => rfl) (fun _ _ _ => rfl)
    (fun t => by rw [show (dat1 V c).after 6 t = iblk1 V c 6 t by dsimp only [dat1]]; unfold Dat.blockOf iblk1; rw [A_eq1]; try rfl) t d).trans
    (by unfold Dat.fetched Dat.blockOf iblk1; rw [A_eq1]; try rfl)

theorem before1_7 (c : Dev nD) (t : Fin cfg1.N) (d) : (dat1 V c).before 7 t d = iblk1 V c 7 t :=
  ((dat1 V c).before_in_eq_fetched 7 rfl (fun _ => rfl) (fun _ _ _ => rfl)
    (fun t => by rw [show (dat1 V c).after 7 t = iblk1 V c 7 t by dsimp only [dat1]]; unfold Dat.blockOf iblk1; rw [A_eq1]; try rfl) t d).trans
    (by unfold Dat.fetched Dat.blockOf iblk1; rw [A_eq1]; try rfl)

/-! ## What the body leaves in each input's buffer: the block it found -/

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]

/-! ## The body's triple -/

set_option maxHeartbeats 1000000 in
/-- On whole buffers, the eight inputs' at contents `g h xt wt u bh wo bo` and the two outputs' at anything, the body runs to
    the inputs as they were, the first output at the sum of the two gate products and the second at the projection of that
    sum. Every load but two reads a whole buffer, so it reads the contents; the two loads of the first buffer read its two
    halves; each store covers its buffer, so what was there before does not matter. -/
theorem sound_kernel1 (c : Dev nD) (E : Set ℕ) (i : grid1.Coords)
    (arg1 : Memref sig .tc .vmem S2x64x3072 .f32) (harg1 : arg1.IsWhole) (arg2 : Memref sig .tc .vmem S64x1024 .f32) (harg2 : arg2.IsWhole)
    (arg3 : Memref sig .tc .vmem S64x80 .f32) (harg3 : arg3.IsWhole) (arg4 : Memref sig .tc .vmem S3072x80 .f32) (harg4 : arg4.IsWhole)
    (arg5 : Memref sig .tc .vmem S3072x1024 .f32) (harg5 : arg5.IsWhole) (arg6 : Memref sig .tc .vmem S1x3072 .f32) (harg6 : arg6.IsWhole)
    (arg7 : Memref sig .tc .vmem S512x1024 .f32) (harg7 : arg7.IsWhole) (arg8 : Memref sig .tc .vmem S1x512 .f32) (harg8 : arg8.IsWhole)
    (arg9 : Memref sig .tc .vmem S64x1024 .f32) (harg9 : arg9.IsWhole) (arg10 : Memref sig .tc .vmem S64x512 .f32) (harg10 : arg10.IsWhole)
    (g : Vec F S2x64x3072 .f32) (h : Vec F S64x1024 .f32) (xt : Vec F S64x80 .f32) (wt : Vec F S3072x80 .f32)
    (u : Vec F S3072x1024 .f32) (bh : Vec F S1x3072 .f32) (wo : Vec F S512x1024 .f32) (bo : Vec F S1x512 .f32)
    (K : PUnit → sProp 𝕄) :
    iprop(owns (c : Thread nD τ) arg1 fullShare g ∗ owns (c : Thread nD τ) arg2 fullShare h
        ∗ owns (c : Thread nD τ) arg3 fullShare xt ∗ owns (c : Thread nD τ) arg4 fullShare wt
        ∗ owns (c : Thread nD τ) arg5 fullShare u ∗ owns (c : Thread nD τ) arg6 fullShare bh
        ∗ owns (c : Thread nD τ) arg7 fullShare wo ∗ owns (c : Thread nD τ) arg8 fullShare bo
        ∗ (∃ d, owns (c : Thread nD τ) arg9 fullShare d) ∗ (∃ d, owns (c : Thread nD τ) arg10 fullShare d)
        ∗ (iprop(owns (c : Thread nD τ) arg1 fullShare g ∗ owns (c : Thread nD τ) arg2 fullShare h
            ∗ owns (c : Thread nD τ) arg3 fullShare xt ∗ owns (c : Thread nD τ) arg4 fullShare wt
            ∗ owns (c : Thread nD τ) arg5 fullShare u ∗ owns (c : Thread nD τ) arg6 fullShare bh
            ∗ owns (c : Thread nD τ) arg7 fullShare wo ∗ owns (c : Thread nD τ) arg8 fullShare bo
            ∗ owns (c : Thread nD τ) arg9 fullShare (k1_pay1 (gate1 g h xt wt u bh) (keep1 g h xt wt u bh))
            ∗ owns (c : Thread nD τ) arg10 fullShare (k1_pay2 (gate1 g h xt wt u bh) (keep1 g h xt wt u bh) wo bo)) -∗ K ⟨⟩))
      ⊢ wp frame (wpE (defs₀ (F := F)) Variants.none c none) E
          (cc1__gru_proj_kernel i arg1 harg1 arg2 harg2 arg3 harg3 arg4 harg4 arg5 harg5 arg6 harg6 arg7 harg7 arg8 harg8 arg9 harg9 arg10 harg10) K := by
  have hz : (![0, 0] : Fin 2 → Nat) = fun _ => 0 := by funext a; fin_cases a <;> rfl
  simp only [cc1__gru_proj_kernel_eq_skeleton]; unfold cc1__gru_proj_kernel_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  have e1a : View.readAt (Elt F) arg1.view r1_half0.toLoadRect (harg1.unread g) = View.ld g r1_half0 := by
    rw [View.readAt_eq_ld, harg1.read_unread]
  have e1b : View.readAt (Elt F) arg1.view r1_half1.toLoadRect (harg1.unread g) = View.ld g r1_half1 := by
    rw [View.readAt_eq_ld, harg1.read_unread]
  have e2 : View.readAt (Elt F) arg2.view (Rect.unit (s := S64x1024) ![0, 0] S64x1024.size inb_S64x1024_S64x1024_0_0).toLoadRect (harg2.unread h) = h := by
    rw [View.readAt_eq_ld, harg2.read_unread]; exact View.ld_unit_zero (S := S64x1024) hz _ _
  have e3 : View.readAt (Elt F) arg3.view (Rect.unit (s := S64x80) ![0, 0] S64x80.size inb_S64x80_S64x80_0_0).toLoadRect (harg3.unread xt) = xt := by
    rw [View.readAt_eq_ld, harg3.read_unread]; exact View.ld_unit_zero (S := S64x80) hz _ _
  have e4 : View.readAt (Elt F) arg4.view (Rect.unit (s := S3072x80) ![0, 0] S3072x80.size inb_S3072x80_S3072x80_0_0).toLoadRect (harg4.unread wt) = wt := by
    rw [View.readAt_eq_ld, harg4.read_unread]; exact View.ld_unit_zero (S := S3072x80) hz _ _
  have e5 : View.readAt (Elt F) arg5.view (Rect.unit (s := S3072x1024) ![0, 0] S3072x1024.size inb_S3072x1024_S3072x1024_0_0).toLoadRect (harg5.unread u) = u := by
    rw [View.readAt_eq_ld, harg5.read_unread]; exact View.ld_unit_zero (S := S3072x1024) hz _ _
  have e6 : View.readAt (Elt F) arg6.view (Rect.unit (s := S1x3072) ![0, 0] S1x3072.size inb_S1x3072_S1x3072_0_0).toLoadRect (harg6.unread bh) = bh := by
    rw [View.readAt_eq_ld, harg6.read_unread]; exact View.ld_unit_zero (S := S1x3072) hz _ _
  have e7 : View.readAt (Elt F) arg7.view (Rect.unit (s := S512x1024) ![0, 0] S512x1024.size inb_S512x1024_S512x1024_0_0).toLoadRect (harg7.unread wo) = wo := by
    rw [View.readAt_eq_ld, harg7.read_unread]; exact View.ld_unit_zero (S := S512x1024) hz _ _
  have e8 : View.readAt (Elt F) arg8.view (Rect.unit (s := S1x512) ![0, 0] S1x512.size inb_S1x512_S1x512_0_0).toLoadRect (harg8.unread bo) = bo := by
    rw [View.readAt_eq_ld, harg8.read_unread]; exact View.ld_unit_zero (S := S1x512) hz _ _
  sl_exec
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr
    swap; · iexact H9
    ipureintro
    refine (View.read_writes_eq_canon _ _ _ (fun y => ⟨_, List.mem_singleton_self _, View.mem_set_unit_zero (S := S64x1024) hz inb_S64x1024_S64x1024_0_0 y⟩)).trans ?_
    refine (View.canon_unit_zero (S := S64x1024) hz _ _).trans ?_
    unfold gate1 keep1
    rfl
  iexists _; isplitr
  swap; · iexact H10
  ipureintro
  refine (View.read_writes_eq_canon _ _ _ (fun y => ⟨_, List.mem_singleton_self _, View.mem_set_unit_zero (S := S64x512) hz inb_S64x512_S64x512_0_0 y⟩)).trans ?_
  refine (View.canon_unit_zero (S := S64x512) hz _ _).trans ?_
  unfold gate1 keep1
  rfl

/-! ## The body obligation, at a generic point -/

/-- What the body is called with at point `t`: the invariant, what the core owes, and every window's current buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- What it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

set_option maxHeartbeats 1000000 in
/-- The body at any point: each input's buffer holds its block there, so the triple above applies at the blocks; the
    invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  unfold hrows1 lrows1
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ (grid1.coords t)
    (win1_0.stage (cfg1.slots t 0)) (hstage1_0 ((cfg1.slots t 0).cast nbuf1_0))
    (win1_1.stage (cfg1.slots t 1)) (hstage1_1 ((cfg1.slots t 1).cast nbuf1_1))
    (win1_2.stage (cfg1.slots t 2)) (hstage1_2 ((cfg1.slots t 2).cast nbuf1_2))
    (win1_3.stage (cfg1.slots t 3)) (hstage1_3 ((cfg1.slots t 3).cast nbuf1_3))
    (win1_4.stage (cfg1.slots t 4)) (hstage1_4 ((cfg1.slots t 4).cast nbuf1_4))
    (win1_5.stage (cfg1.slots t 5)) (hstage1_5 ((cfg1.slots t 5).cast nbuf1_5))
    (win1_6.stage (cfg1.slots t 6)) (hstage1_6 ((cfg1.slots t 6).cast nbuf1_6))
    (win1_7.stage (cfg1.slots t 7)) (hstage1_7 ((cfg1.slots t 7).cast nbuf1_7))
    (win1_8.stage (cfg1.slots t 8)) (hstage1_8 ((cfg1.slots t 8).cast nbuf1_8))
    (win1_9.stage (cfg1.slots t 9)) (hstage1_9 ((cfg1.slots t 9).cast nbuf1_9))
    (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The obligation in its plain form: the windows opened one by one, it is the triple above. -/
theorem body_obligation1_plain (c : Dev nD) :
    BodyObligation (dat1 (F := F) V c) (defs₀ (F := F)) Variants.none () Set.univ := fun t => by
  rw [bigSep_W1, bigSep_W1]
  exact sound_body1 V c t

/-- The library's body obligation, at every point. -/
theorem body_obligation1 (c : Dev nD) :
    BodyObligationLoose (dat1 (F := F) V c) (defs₀ (F := F)) Variants.none () Set.univ :=
  BodyObligation.loose (dat1 V c) (body_obligation1_plain V c)

end Cert.Kernel.Hand

end
-- ==== Proof.KRun.lean ====
/-
  The run of the kernel program, at any float family: the eight items of the entry function, from the launch to the
  return, composed as host stretches and kernel regions over one thread state per boundary.

  Between two items every core holds each of its unscoped buffers whole, at contents named here by a fold through the
  program: the launch memory, then what each host stretch computes from what it finds, then, across a region, the
  region's arrays at what its write-backs leave and every other buffer as the region found it. Beside the buffers ride
  the core's generator register, at some state, and the fact that the core owes nothing. The first region is entered
  from the contents after the first stretch, the second from the contents after the four stretches between the regions;
  each region's proof data are taken at its entry contents. The run ends with every unscoped buffer at the last contents
  of the fold, and every argument array read through the fold holds what it held at launch: no stretch writes one, and
  a region either does not touch it or reads it through an input window, whose array no write-back changes.
-/
import proofs.«418008_j22720376995892_3_alg».proof.Proof.KRegion0
import proofs.«418008_j22720376995892_3_alg».proof.Proof.KRegion1
import proofs.«418008_j22720376995892_3_alg».proof.Proof.Gen.Kernel.Regions
import proofs.«418008_j22720376995892_3_alg».proof.Proof.Gen.Kernel.Launch
import proofs.«418008_j22720376995892_3_alg».proof.Proof.Gen.Kernel.Skeleton
import proofs.«418008_j22720376995892_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffers' contents at each boundary: a fold through the entry function -/

/-- Core c's buffers at launch. -/
abbrev W0 : Dev nD → Valuation τ sig (Elt F) := fun c b => (s₀ m ρ).mem ((c : Dev nD), b)
/-- After the first host stretch: what the first region is entered from. -/
abbrev W1 : Dev nD → Valuation τ sig (Elt F) := fun c => StableHlo.after hostOps0 (W0 m ρ c)
/-- The same, read at the TensorCore's references: what the first region's proof data take. -/
abbrev V1 : (c : Dev nD) → (b : Ref sig .tc) → Buf (Elt F) ((c : Thread nD τ).loc b) := fun c b => W1 m ρ c b
/-- At the first region's exit: each of its arrays at what the pipeline leaves (an input as entered, the output with its
    write-backs folded in), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- An input window's array leaves the first region as it entered: no write-back touches it. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))
/-- The first region's exit contents, read at the TensorCore's references. -/
abbrev V2 : (c : Dev nD) → (b : Ref sig .tc) → Buf (Elt F) ((c : Thread nD τ).loc b) := fun c b => W2 m ρ c b
/-- At the first region's exit each of its arrays holds what the pipeline leaves, and every other buffer what it held
    at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After each of the four host stretches between the regions; the last is what the second region is entered from. -/
abbrev W3 : Dev nD → Valuation τ sig (Elt F) := fun c => StableHlo.after hostOps1 (W2 m ρ c)
abbrev W4 : Dev nD → Valuation τ sig (Elt F) := fun c => StableHlo.after hostOps1_1 (W3 m ρ c)
abbrev W5 : Dev nD → Valuation τ sig (Elt F) := fun c => StableHlo.after hostOps1_2 (W4 m ρ c)
abbrev W6 : Dev nD → Valuation τ sig (Elt F) := fun c => StableHlo.after hostOps1_3 (W5 m ρ c)
/-- The second region's entry contents, read at the TensorCore's references: what its proof data take. -/
abbrev V6 : (c : Dev nD) → (b : Ref sig .tc) → Buf (Elt F) ((c : Thread nD τ).loc b) := fun c b => W6 m ρ c b
/-- At the second region's exit: each of its arrays at what the pipeline leaves, every other buffer as entered. -/
def W7 (c : Dev nD) : Valuation τ sig (Elt F) :=
  Pipeline.withArrays spec1 c (W6 m ρ c) fun w => (dat1 (V6 m ρ) c).arrAt w cfg1.N
theorem W7_arr (c : Dev nD) (w : Fin cfg1.W) :
    W7 m ρ c (Proc.devRef .tc (Pipeline.arrRef spec1 w)) = (dat1 (V6 m ρ) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb
/-- An input window's array leaves the second region as it entered. -/
theorem W7_in (c : Dev nD) (w : Fin cfg1.W) (hw : (cfg1.win w).isOut = false) :
    W7 m ρ c (Proc.devRef .tc (Pipeline.arrRef spec1 w)) = W6 m ρ c (Proc.devRef .tc (Pipeline.arrRef spec1 w)) :=
  (W7_arr m ρ c w).trans (((dat1 (V6 m ρ) c).arrAt_in w hw _).trans (A_eq1 (V6 m ρ) c w))
/-- The second region's exit contents, read at the TensorCore's references. -/
abbrev V7 : (c : Dev nD) → (b : Ref sig .tc) → Buf (Elt F) ((c : Thread nD τ).loc b) := fun c b => W7 m ρ c b
theorem hF1 (c : Dev nD) (w : Fin cfg1.W) : (dat1 (V6 m ρ) c).arrAt w cfg1.N = V7 m ρ c (Pipeline.arrRef spec1 w) :=
  (W7_arr m ρ c w).symm
theorem hrest1 (c : Dev nD) : ∀ b, b ∉ Finset.univ.image (Pipeline.arrRef spec1) → V7 m ρ c b = V6 m ρ c b :=
  fun b hb => W7_of_ne m ρ c b fun w e => hb (Finset.mem_image.mpr ⟨w, Finset.mem_univ _, e⟩)

/-- After the last host stretch: what the run ends at. -/
abbrev W8 : Dev nD → Valuation τ sig (Elt F) := fun c => StableHlo.after hostOps2 (W7 m ρ c)

/-! ## A host stretch leaves every buffer it does not write -/

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h
theorem W4_of (c : Dev nD) (r : Ref sig .tc) (h : r ∉ hostOps1_1_W) :
    W4 m ρ c (Proc.devRef .tc r) = W3 m ρ c (Proc.devRef .tc r) :=
  StableHlo.after_of_writes_sub hostOps1_1 _ hostOps1_1_writes h
theorem W5_of (c : Dev nD) (r : Ref sig .tc) (h : r ∉ hostOps1_2_W) :
    W5 m ρ c (Proc.devRef .tc r) = W4 m ρ c (Proc.devRef .tc r) :=
  StableHlo.after_of_writes_sub hostOps1_2 _ hostOps1_2_writes h
theorem W6_of (c : Dev nD) (r : Ref sig .tc) (h : r ∉ hostOps1_3_W) :
    W6 m ρ c (Proc.devRef .tc r) = W5 m ρ c (Proc.devRef .tc r) :=
  StableHlo.after_of_writes_sub hostOps1_3 _ hostOps1_3_writes h
theorem W8_of (c : Dev nD) (r : Ref sig .tc) (h : r ∉ hostOps2_W) :
    W8 m ρ c (Proc.devRef .tc r) = W7 m ρ c (Proc.devRef .tc r) :=
  StableHlo.after_of_writes_sub hostOps2 _ hostOps2_writes h

/-! ## The arguments end as launched

No host stretch writes an argument, and a region either leaves its buffer alone or reads it through an input window; so
the fold, read at an argument's buffer, walks back item by item to the launch memory. -/

theorem W8_main_arg0 (c : Dev nD) : W8 m ρ c (Proc.devRef .tc main_arg0) = m ((c : Thread nD τ).loc main_arg0) :=
  calc W8 m ρ c (Proc.devRef .tc main_arg0)
    _ = W7 m ρ c (Proc.devRef .tc main_arg0) := W8_of m ρ c main_arg0 (by decide)
    _ = W6 m ρ c (Proc.devRef .tc main_arg0) := W7_of_ne m ρ c main_arg0 (by decide)
    _ = W5 m ρ c (Proc.devRef .tc main_arg0) := W6_of m ρ c main_arg0 (by decide)
    _ = W4 m ρ c (Proc.devRef .tc main_arg0) := W5_of m ρ c main_arg0 (by decide)
    _ = W3 m ρ c (Proc.devRef .tc main_arg0) := W4_of m ρ c main_arg0 (by decide)
    _ = W2 m ρ c (Proc.devRef .tc main_arg0) := W3_of m ρ c main_arg0 (by decide)
    _ = W1 m ρ c (Proc.devRef .tc main_arg0) := W2_in m ρ c 0 rfl
    _ = W0 m ρ c (Proc.devRef .tc main_arg0) := W1_of m ρ c main_arg0 (by decide)
    _ = m ((c : Thread nD τ).loc main_arg0) := rfl

theorem W8_main_arg1 (c : Dev nD) : W8 m ρ c (Proc.devRef .tc main_arg1) = m ((c : Thread nD τ).loc main_arg1) :=
  calc W8 m ρ c (Proc.devRef .tc main_arg1)
    _ = W7 m ρ c (Proc.devRef .tc main_arg1) := W8_of m ρ c main_arg1 (by decide)
    _ = W6 m ρ c (Proc.devRef .tc main_arg1) := W7_of_ne m ρ c main_arg1 (by decide)
    _ = W5 m ρ c (Proc.devRef .tc main_arg1) := W6_of m ρ c main_arg1 (by decide)
    _ = W4 m ρ c (Proc.devRef .tc main_arg1) := W5_of m ρ c main_arg1 (by decide)
    _ = W3 m ρ c (Proc.devRef .tc main_arg1) := W4_of m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl

theorem W8_main_arg2 (c : Dev nD) : W8 m ρ c (Proc.devRef .tc main_arg2) = m ((c : Thread nD τ).loc main_arg2) :=
  calc W8 m ρ c (Proc.devRef .tc main_arg2)
    _ = W7 m ρ c (Proc.devRef .tc main_arg2) := W8_of m ρ c main_arg2 (by decide)
    _ = W6 m ρ c (Proc.devRef .tc main_arg2) := W7_of_ne m ρ c main_arg2 (by decide)
    _ = W5 m ρ c (Proc.devRef .tc main_arg2) := W6_of m ρ c main_arg2 (by decide)
    _ = W4 m ρ c (Proc.devRef .tc main_arg2) := W5_of m ρ c main_arg2 (by decide)
    _ = W3 m ρ c (Proc.devRef .tc main_arg2) := W4_of m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl

theorem W8_main_arg3 (c : Dev nD) : W8 m ρ c (Proc.devRef .tc main_arg3) = m ((c : Thread nD τ).loc main_arg3) :=
  calc W8 m ρ c (Proc.devRef .tc main_arg3)
    _ = W7 m ρ c (Proc.devRef .tc main_arg3) := W8_of m ρ c main_arg3 (by decide)
    _ = W6 m ρ c (Proc.devRef .tc main_arg3) := W7_of_ne m ρ c main_arg3 (by decide)
    _ = W5 m ρ c (Proc.devRef .tc main_arg3) := W6_of m ρ c main_arg3 (by decide)
    _ = W4 m ρ c (Proc.devRef .tc main_arg3) := W5_of m ρ c main_arg3 (by decide)
    _ = W3 m ρ c (Proc.devRef .tc main_arg3) := W4_of m ρ c main_arg3 (by decide)
    _ = W2 m ρ c (Proc.devRef .tc main_arg3) := W3_of m ρ c main_arg3 (by decide)
    _ = W1 m ρ c (Proc.devRef .tc main_arg3) := W2_in m ρ c 1 rfl
    _ = W0 m ρ c (Proc.devRef .tc main_arg3) := W1_of m ρ c main_arg3 (by decide)
    _ = m ((c : Thread nD τ).loc main_arg3) := rfl

theorem W8_main_arg4 (c : Dev nD) : W8 m ρ c (Proc.devRef .tc main_arg4) = m ((c : Thread nD τ).loc main_arg4) :=
  calc W8 m ρ c (Proc.devRef .tc main_arg4)
    _ = W7 m ρ c (Proc.devRef .tc main_arg4) := W8_of m ρ c main_arg4 (by decide)
    _ = W6 m ρ c (Proc.devRef .tc main_arg4) := W7_in m ρ c 4 rfl
    _ = W5 m ρ c (Proc.devRef .tc main_arg4) := W6_of m ρ c main_arg4 (by decide)
    _ = W4 m ρ c (Proc.devRef .tc main_arg4) := W5_of m ρ c main_arg4 (by decide)
    _ = W3 m ρ c (Proc.devRef .tc main_arg4) := W4_of m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl

theorem W8_main_arg5 (c : Dev nD) : W8 m ρ c (Proc.devRef .tc main_arg5) = m ((c : Thread nD τ).loc main_arg5) :=
  calc W8 m ρ c (Proc.devRef .tc main_arg5)
    _ = W7 m ρ c (Proc.devRef .tc main_arg5) := W8_of m ρ c main_arg5 (by decide)
    _ = W6 m ρ c (Proc.devRef .tc main_arg5) := W7_of_ne m ρ c main_arg5 (by decide)
    _ = W5 m ρ c (Proc.devRef .tc main_arg5) := W6_of m ρ c main_arg5 (by decide)
    _ = W4 m ρ c (Proc.devRef .tc main_arg5) := W5_of m ρ c main_arg5 (by decide)
    _ = W3 m ρ c (Proc.devRef .tc main_arg5) := W4_of m ρ c main_arg5 (by decide)
    _ = W2 m ρ c (Proc.devRef .tc main_arg5) := W3_of m ρ c main_arg5 (by decide)
    _ = W1 m ρ c (Proc.devRef .tc main_arg5) := W2_of_ne m ρ c main_arg5 (by decide)
    _ = W0 m ρ c (Proc.devRef .tc main_arg5) := W1_of m ρ c main_arg5 (by decide)
    _ = m ((c : Thread nD τ).loc main_arg5) := rfl

theorem W8_main_arg6 (c : Dev nD) : W8 m ρ c (Proc.devRef .tc main_arg6) = m ((c : Thread nD τ).loc main_arg6) :=
  calc W8 m ρ c (Proc.devRef .tc main_arg6)
    _ = W7 m ρ c (Proc.devRef .tc main_arg6) := W8_of m ρ c main_arg6 (by decide)
    _ = W6 m ρ c (Proc.devRef .tc main_arg6) := W7_of_ne m ρ c main_arg6 (by decide)
    _ = W5 m ρ c (Proc.devRef .tc main_arg6) := W6_of m ρ c main_arg6 (by decide)
    _ = W4 m ρ c (Proc.devRef .tc main_arg6) := W5_of m ρ c main_arg6 (by decide)
    _ = W3 m ρ c (Proc.devRef .tc main_arg6) := W4_of m ρ c main_arg6 (by decide)
    _ = W2 m ρ c (Proc.devRef .tc main_arg6) := W3_of m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl

theorem W8_main_arg7 (c : Dev nD) : W8 m ρ c (Proc.devRef .tc main_arg7) = m ((c : Thread nD τ).loc main_arg7) :=
  calc W8 m ρ c (Proc.devRef .tc main_arg7)
    _ = W7 m ρ c (Proc.devRef .tc main_arg7) := W8_of m ρ c main_arg7 (by decide)
    _ = W6 m ρ c (Proc.devRef .tc main_arg7) := W7_of_ne m ρ c main_arg7 (by decide)
    _ = W5 m ρ c (Proc.devRef .tc main_arg7) := W6_of m ρ c main_arg7 (by decide)
    _ = W4 m ρ c (Proc.devRef .tc main_arg7) := W5_of m ρ c main_arg7 (by decide)
    _ = W3 m ρ c (Proc.devRef .tc main_arg7) := W4_of m ρ c main_arg7 (by decide)
    _ = W2 m ρ c (Proc.devRef .tc main_arg7) := W3_of m ρ c main_arg7 (by decide)
    _ = W1 m ρ c (Proc.devRef .tc main_arg7) := W2_of_ne m ρ c main_arg7 (by decide)
    _ = W0 m ρ c (Proc.devRef .tc main_arg7) := W1_of m ρ c main_arg7 (by decide)
    _ = m ((c : Thread nD τ).loc main_arg7) := rfl

theorem W8_main_arg8 (c : Dev nD) : W8 m ρ c (Proc.devRef .tc main_arg8) = m ((c : Thread nD τ).loc main_arg8) :=
  calc W8 m ρ c (Proc.devRef .tc main_arg8)
    _ = W7 m ρ c (Proc.devRef .tc main_arg8) := W8_of m ρ c main_arg8 (by decide)
    _ = W6 m ρ c (Proc.devRef .tc main_arg8) := W7_of_ne m ρ c main_arg8 (by decide)
    _ = W5 m ρ c (Proc.devRef .tc main_arg8) := W6_of m ρ c main_arg8 (by decide)
    _ = W4 m ρ c (Proc.devRef .tc main_arg8) := W5_of m ρ c main_arg8 (by decide)
    _ = W3 m ρ c (Proc.devRef .tc main_arg8) := W4_of m ρ c main_arg8 (by decide)
    _ = W2 m ρ c (Proc.devRef .tc main_arg8) := W3_of m ρ c main_arg8 (by decide)
    _ = W1 m ρ c (Proc.devRef .tc main_arg8) := W2_of_ne m ρ c main_arg8 (by decide)
    _ = W0 m ρ c (Proc.devRef .tc main_arg8) := W1_of m ρ c main_arg8 (by decide)
    _ = m ((c : Thread nD τ).loc main_arg8) := rfl

/-! # The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V6 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and the core owing
    nothing. -/
abbrev R (c : Dev nD) : sProp 𝕄 := iprop((∃ r, prngReg c r) ∗ ∃ W, owes (c : Thread nD τ) (0 : CellTallies nD τ sig Unit) W)
/-- A host stretch as a segment over the unscoped references, from the contents W, with R riding along: it runs to those
    references at what the stretch computes from W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debt: every unscoped buffer at the last contents of the fold, the generator
    register at some state. -/
abbrev Tₙ (c : Dev nD) : sProp 𝕄 := iprop(StableHlo.held (c : Thread nD τ) (Pipeline.ucRefs τ sig) (W8 m ρ c) ∗ ∃ r, prngReg c r)

/-! # The regions as segments -/

set_option backward.isDefEq.respectTransparency.types false in
/-- REGION 0 over the thread state: entered from every unscoped buffer at the contents of the boundary before it, left at
    those of the boundary after it. Its arrays are split out of the unscoped buffers at entry and put back, at what the
    write-backs leave, at exit; the generator register goes into the region's invariant and comes back; nothing is
    owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := body_obligation0 (V1 m ρ) c
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at the contents of the boundary before it, left at
    those of the boundary after it. Its arrays are split out of the unscoped buffers at entry and put back, at what the
    write-backs leave, at exit; the generator register goes into the region's invariant and comes back; nothing is
    owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := body_obligation1 (V6 m ρ) c
  hwaits := Pipeline.hwaits_of_owed_zero _ _ _ _ L lv 1 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec1 c (V6 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V6 m ρ c) (V7 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! # The entry function as segments, and the launch -/

/-- The entry function's eight segments in order: a host segment per stretch, from its boundary's contents, and a
    region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .host (hseg hostOps1_3 hostOps1_3_sub hostOps1_3_fresh (W5 m ρ)),
    .region (reg1 m ρ),
    .host (hseg hostOps2 hostOps2_sub hostOps2_fresh (W7 m ρ)) ]
/-- The entry function is the run of the segments: it is the chain of its items, and the segments' run is the same
    chain. -/
theorem main_run (c : Dev nD) : main (F := F) c = Pipeline.Seg.run (segs m ρ) := (main_chain c).trans (by chain_rfl)

/-- What the last host stretch leaves is the last thread state beside the core owing nothing: the same three conjuncts,
    bracketed the other way. -/
theorem last_state (c : Dev nD) :
    (iprop(StableHlo.held (c : Thread nD τ) (Pipeline.ucRefs τ sig) (W8 m ρ c) ∗ R c) : sProp 𝕄)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

set_option backward.isDefEq.respectTransparency.types false in
/-- THE RUN. At the compiled mesh, from any memory with zero counters, every weakly fair execution of the entry function
    on the TensorCores terminates, nothing faulting, and in every final state each core's unscoped buffers hold the last
    contents of the fold: the several-regions launch over the segments, the last thread state read against the final
    state. -/
theorem run_all : θ_run defs (onTc (τ := τ) (main (F := F))) ⟨m, fun _ => 0, ρ⟩
    (fun r => ∀ c : Dev nD, ∀ b ∈ Pipeline.ucRefs τ sig, r.2.mem ((c : Thread nD τ).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun c => last_state m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun _ h => h)

/-- THE FRAME, at any float family: every weakly fair execution of the entry function terminates, nothing faulting, and
    every final state has each argument array as launched. From the run: an argument's buffer is unscoped, so the final
    state holds it at the last contents of the fold, which are its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (run_all m ρ).mono fun r h c =>
   ⟨(h c _ (mem_uc main_arg0 (by decide))).trans (W8_main_arg0 m ρ c),
    (h c _ (mem_uc main_arg1 (by decide))).trans (W8_main_arg1 m ρ c),
    (h c _ (mem_uc main_arg2 (by decide))).trans (W8_main_arg2 m ρ c),
    (h c _ (mem_uc main_arg3 (by decide))).trans (W8_main_arg3 m ρ c),
    (h c _ (mem_uc main_arg4 (by decide))).trans (W8_main_arg4 m ρ c),
    (h c _ (mem_uc main_arg5 (by decide))).trans (W8_main_arg5 m ρ c),
    (h c _ (mem_uc main_arg6 (by decide))).trans (W8_main_arg6 m ρ c),
    (h c _ (mem_uc main_arg7 (by decide))).trans (W8_main_arg7 m ρ c),
    (h c _ (mem_uc main_arg8 (by decide))).trans (W8_main_arg8 m ρ c)⟩

end Cert.Kernel.Hand

end
-- ==== Proof.KIRegion0.lean ====
/-
  The first kernel region (the blocked product `x Wᵀ` in two halves), at any float family: its proof data and its body
  obligation, stated at a parameter `V`, the buffers' contents when the region is entered.

  The grid is 2 × 39. At point `(n, k)` the body reads block `39 n + k` (640 columns) of `x` and of `W`, and the bias
  row; the output block `n` (512 × 3072) stays in its buffer for the 39 points of a half: at `k = 0` it is set to the
  bias (first half) or to zero (second half), and at every point the product of the two input blocks is added to it.
  The output block is written back after the half's last point. The two input windows' blocks do not tile the
  50000 columns (640 does not divide 50000), but the 78 blocks the grid visits end at column 49920: none of them is cut.
-/
import proofs.«418008_j22720376995892_3_alg».proof.Proof.Gen.KernelIdeal.Launch
import proofs.«418008_j22720376995892_3_alg».proof.Proof.Gen.KernelIdeal.Skeleton
import proofs.«418008_j22720376995892_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The `x` block (512 × 640), the `W` block (3072 × 640) and the bias row (1 × 3072) the body reads at point `t`, as
    vectors of the staging buffers' shapes. The two clipped windows' blocks are whole at every point of the grid, so the
    filler is never read. -/
def xb0 (c : Dev nD) (t : Fin cfg0.N) : Vec F S512x640 .f32 :=
  win0_0.fill (grid0.coords t) (fun _ => Scalar.ofBits .f32 0#32) (iblk0 V c 0 t)
def wb0 (c : Dev nD) (t : Fin cfg0.N) : Vec F S3072x640 .f32 :=
  win0_1.fill (grid0.coords t) (fun _ => Scalar.ofBits .f32 0#32) (iblk0 V c 1 t)
def bb0 (c : Dev nD) (t : Fin cfg0.N) : Vec F S1x3072 .f32 := iblk0 V c 2 t

/-- No visited block of the two clipped windows is cut. -/
theorem clip0_0 : ∀ (t : Fin cfg0.N) a, (cfg0.win 0).clip (cfg0.grid.coords t) a = none :=
  (by decide +kernel : ∀ (t : Fin grid0.N) a, win0_0.clip (grid0.coords t) a = none)
theorem clip0_1 : ∀ (t : Fin cfg0.N) a, (cfg0.win 1).clip (cfg0.grid.coords t) a = none :=
  (by decide +kernel : ∀ (t : Fin grid0.N) a, win0_1.clip (grid0.coords t) a = none)

/-! ## What the output buffer holds after each point -/

/-- THE ACCUMULATION. The output window's staging buffer after the body at position `n`: at the first point of a half
    (`n % 39 = 0`) the product added to the start value (the bias row broadcast, or zero); at a later point the product added
    to what the point before left. -/
def acc0 (c : Dev nD) : (n : ℕ) → n < cfg0.N → Vec F S1x512x3072 .f32
  | 0, hn => k0_pay2 (xb0 V c ⟨0, hn⟩) (wb0 V c ⟨0, hn⟩) (k0_pay1 (grid0.coords ⟨0, hn⟩) (bb0 V c ⟨0, hn⟩))
  | n + 1, hn =>
    if (n + 1) % 39 = 0 then
      k0_pay2 (xb0 V c ⟨n + 1, hn⟩) (wb0 V c ⟨n + 1, hn⟩) (k0_pay1 (grid0.coords ⟨n + 1, hn⟩) (bb0 V c ⟨n + 1, hn⟩))
    else
      k0_pay2 (xb0 V c ⟨n + 1, hn⟩) (wb0 V c ⟨n + 1, hn⟩) (acc0 c n (Nat.lt_of_succ_lt hn))

theorem acc0_first (c : Dev nD) (t : Fin cfg0.N) (h : t.val % 39 = 0) :
    acc0 V c t.val t.isLt = k0_pay2 (xb0 V c t) (wb0 V c t) (k0_pay1 (grid0.coords t) (bb0 V c t)) := by
  obtain ⟨n, hn⟩ := t
  cases n with
  | zero => exact rfl
  | succ n => exact (if_pos h).trans rfl

theorem acc0_later (c : Dev nD) (t : Fin cfg0.N) (h : ¬t.val % 39 = 0) :
    acc0 V c t.val t.isLt = k0_pay2 (xb0 V c t) (wb0 V c t) (acc0 V c (t.val - 1) (Nat.lt_of_le_of_lt (Nat.sub_le _ _) t.isLt)) := by
  obtain ⟨n, hn⟩ := t
  cases n with
  | zero => exact absurd (Nat.zero_mod _) h
  | succ n => exact (if_neg h).trans rfl

/-! ## The pipeline's proof data -/

/-- The proof data of pipeline 0 on core `c`: the arrays as the region finds them; after the body at point `t` each
    input's buffer at its block and the output's at `acc0`; the class's invariant (the scoped rest and the generator
    register, untouched); nothing owed; full shares. -/
def dat0 (c : Dev nD) : Dat τ (Elt F) Unit ℕ (UR sig nD τ) ℕ cfg0 c where
  A w := V c (Pipeline.arrRef spec0 w)
  after w t := match w with
    | ⟨0, _⟩ => xb0 V c t
    | ⟨1, _⟩ => wb0 V c t
    | ⟨2, _⟩ => bb0 V c t
    | ⟨3, _⟩ => acc0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = xb0 V c t := by dsimp only [dat0]
theorem after0_1 (c : Dev nD) (t : Fin cfg0.N) : (dat0 V c).after 1 t = wb0 V c t := by dsimp only [dat0]
theorem after0_2 (c : Dev nD) (t : Fin cfg0.N) : (dat0 V c).after 2 t = bb0 V c t := by dsimp only [dat0]
theorem after0_3 (c : Dev nD) (t : Fin cfg0.N) : (dat0 V c).after 3 t = acc0 V c t.val t.isLt := by dsimp only [dat0]

/-! ## The body's branch condition -/

/-- The condition of the body's conditional: the second grid coordinate is zero. -/
abbrev cond0 (i : grid0.Coords) : Prop := (Scalar.cmpi .ne (Scalar.extui (Scalar.cmpi .eq (BitVec.ofNat 32 (i 1).val) 0#32)) 0#32) = 1#1

/-- It holds at the first point of each half. -/
theorem hcond0 : ∀ t : Fin cfg0.N, cond0 (grid0.coords t) ↔ t.val % 39 = 0 :=
  (by decide +kernel : ∀ t : Fin grid0.N, cond0 (grid0.coords t) ↔ t.val % 39 = 0)

/-! ## The body on any whole staging memrefs, one statement per case -/

set_option maxHeartbeats 1000000 in
/-- AT THE FIRST POINT OF A HALF (the condition holds). From the three inputs' buffers at `x0`, `x1`, `x2` and the output's at
    anything, the body runs to the inputs' buffers as they were and the output's at the product of `x0` and `x1` added to
    the start value made from `x2`: it stores the start value, reads it back, and stores the sum. -/
theorem runA0 (c : Dev nD) (i : grid0.Coords)
    (arg2 : Memref sig .tc .vmem S512x640 .f32) (harg2 : arg2.IsWhole)
    (arg3 : Memref sig .tc .vmem S3072x640 .f32) (harg3 : arg3.IsWhole)
    (arg4 : Memref sig .tc .vmem S1x3072 .f32) (harg4 : arg4.IsWhole)
    (arg5 : Memref sig .tc .vmem S1x512x3072 .f32) (harg5 : arg5.IsWhole)
    (hc0 : cond0 i)
    (x0 : Vec F S512x640 .f32) (x1 : Vec F S3072x640 .f32) (x2 : Vec F S1x3072 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k0_pay2 x0 x1 (k0_pay1 i x2))) -∗ K ⟨⟩))
      ⊢ wp frame (wpE (defs₀ (F := F)) Variants.none c none) E (cc0__gi_main_kernel i arg2 harg2 arg3 harg3 arg4 harg4 arg5 harg5) K := by
  simp only [cc0__gi_main_kernel_eq_skeleton]; unfold cc0__gi_main_kernel_skel
  unfold owns
  iintro ⟨⟨%f0, %hf0, H0⟩, ⟨%f1, %hf1, H1⟩, ⟨%f2, %hf2, H2⟩, ⟨%d3, %f3, -, H3⟩, Hk⟩
  obtain rfl := harg2.eq_unread hf0; obtain rfl := harg3.eq_unread hf1; obtain rfl := harg4.eq_unread hf2
  sl_exec (disch := first | exact hc0)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact H3
  ipureintro
  -- every access is the whole buffer at offset zero: the last store's payload is what the buffer reads, the load between
  -- the two stores reads the first store's payload, and the loads of the inputs read their contents
  have hz : (![0, 0, 0] : Fin 3 → Nat) = fun _ => 0 := funext fun a => by fin_cases a <;> rfl
  have hz2 : (![0, 0] : Fin 2 → Nat) = fun _ => 0 := funext fun a => by fin_cases a <;> rfl
  rw [View.read_writes_eq_canon _ _ _ (fun y => ⟨_, List.mem_cons_self .., View.mem_set_unit_zero hz inb_S1x512x3072_S1x512x3072_0_0_0 y⟩),
    View.canon_cons_unit_zero (S := S1x512x3072) hz]
  sl_unfold_words
  rw [View.readCov_unit_zero (S := S1x512x3072) _ hz]
  simp only [View.readAt_eq_ld, hf0, hf1, hf2, View.ld_unit_zero (S := S512x640) hz2, View.ld_unit_zero (S := S3072x640) hz2,
    View.ld_unit_zero (S := S1x3072) hz2]

set_option maxHeartbeats 1000000 in
/-- AT A LATER POINT (the condition fails). From the inputs' buffers at `x0`, `x1`, `x2` and the output's at `xo`, the body
    runs to the inputs' buffers as they were and the output's at the product of `x0` and `x1` added to `xo`. -/
theorem runB0 (c : Dev nD) (i : grid0.Coords)
    (arg2 : Memref sig .tc .vmem S512x640 .f32) (harg2 : arg2.IsWhole)
    (arg3 : Memref sig .tc .vmem S3072x640 .f32) (harg3 : arg3.IsWhole)
    (arg4 : Memref sig .tc .vmem S1x3072 .f32) (harg4 : arg4.IsWhole)
    (arg5 : Memref sig .tc .vmem S1x512x3072 .f32) (harg5 : arg5.IsWhole)
    (hc0 : ¬cond0 i)
    (x0 : Vec F S512x640 .f32) (x1 : Vec F S3072x640 .f32) (x2 : Vec F S1x3072 .f32) (xo : Vec F S1x512x3072 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo
        ∗ (iprop(owns (c : Thread nD τ) arg2 fullShare x0 ∗ owns (c : Thread nD τ) arg3 fullShare x1 ∗ owns (c : Thread nD τ) arg4 fullShare x2
            ∗ owns (c : Thread nD τ) arg5 fullShare (k0_pay2 x0 x1 xo)) -∗ K ⟨⟩))
      ⊢ wp frame (wpE (defs₀ (F := F)) Variants.none c none) E (cc0__gi_main_kernel i arg2 harg2 arg3 harg3 arg4 harg4 arg5 harg5) K := by
  simp only [cc0__gi_main_kernel_eq_skeleton]; unfold cc0__gi_main_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1; obtain rfl := harg4.eq_unread hf2
  obtain rfl := harg5.eq_unread hf3
  sl_exec (disch := first | exact hc0)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact H3
  ipureintro
  -- the one store's payload is what the buffer reads; each load reads its buffer's contents
  have hz : (![0, 0, 0] : Fin 3 → Nat) = fun _ => 0 := funext fun a => by fin_cases a <;> rfl
  have hz2 : (![0, 0] : Fin 2 → Nat) = fun _ => 0 := funext fun a => by fin_cases a <;> rfl
  rw [View.read_writes_eq_canon _ _ _ (fun y => ⟨_, List.mem_cons_self .., View.mem_set_unit_zero hz inb_S1x512x3072_S1x512x3072_0_0_0 y⟩),
    View.canon_cons_unit_zero (S := S1x512x3072) hz]
  simp only [View.readAt_eq_ld, hf0, hf1, hf3, View.ld_unit_zero (S := S512x640) hz2, View.ld_unit_zero (S := S3072x640) hz2,
    View.ld_unit_zero (S := S1x512x3072) hz]

/-! ## What the body finds in each staging buffer -/

/-- The x window is fetched at every point and its block is whole: the buffer holds the block, whatever it held. -/
theorem before0_0 (c : Dev nD) (t : Fin cfg0.N) (d) : (dat0 V c).before 0 t d = xb0 V c t := by
  rw [Dat.before_fetched _ 0 t (fetch0_0 t) d]
  unfold Dat.fetched Dat.blockOf xb0 iblk0
  rw [A_eq0]
  exact Pipeline.fill_of_clip_none (cfg := cfg0) 0 (cfg0.grid.coords t) (clip0_0 t) d _ _

theorem before0_1 (c : Dev nD) (t : Fin cfg0.N) (d) : (dat0 V c).before 1 t d = wb0 V c t := by
  rw [Dat.before_fetched _ 1 t (fetch0_1 t) d]
  unfold Dat.fetched Dat.blockOf wb0 iblk0
  rw [A_eq0]
  exact Pipeline.fill_of_clip_none (cfg := cfg0) 1 (cfg0.grid.coords t) (clip0_1 t) d _ _

/-- The bias row's block index never moves: fetched at the first point, it is still there at every later one. -/
theorem before0_2 (c : Dev nD) (t : Fin cfg0.N) (d) : (dat0 V c).before 2 t d = bb0 V c t :=
  ((dat0 V c).before_in_eq_fetched 2 rfl (fun _ => rfl) (fun _ _ _ => rfl)
    (fun t => by rw [after0_2]; unfold Dat.blockOf bb0 iblk0; rw [A_eq0]; try rfl) t d).trans
    (by unfold Dat.fetched Dat.blockOf bb0 iblk0; rw [A_eq0]; try rfl)

/-- At the first point of a half the output buffer is fresh: the run has just begun, or the point before wrote it back. -/
theorem before0_3_first (c : Dev nD) (t : Fin cfg0.N) (h : t.val % 39 = 0) (d) : (dat0 V c).before 3 t d = d := by
  have hN : t.val < 78 := lt_of_lt_of_eq t.isLt (show cfg0.N = 78 from N_0)
  refine Dat.before_out_reset _ 3 rfl t ?_ d
  by_cases h0 : t.val = 0
  · exact .inl h0
  · exact .inr ⟨h0, (flush0_3 _).mpr (by dsimp only; omega)⟩

/-- At a later point it holds what the point before left: not written back in between, the window whole. -/
theorem before0_3_later (c : Dev nD) (t : Fin cfg0.N) (h : ¬t.val % 39 = 0) (d) :
    (dat0 V c).before 3 t d = acc0 V c (t.val - 1) (Nat.lt_of_le_of_lt (Nat.sub_le _ _) t.isLt) := by
  have hN : t.val < 78 := lt_of_lt_of_eq t.isLt (show cfg0.N = 78 from N_0)
  rw [Dat.before_out_kept _ 3 rfl t (by omega) (Bool.eq_false_iff.mpr fun hf => by have := (flush0_3 _).mp hf; dsimp only at this; omega)
    (fun _ => rfl) (fun _ _ => rfl)]
  dsimp only [dat0]

/-! ## The body obligation, at a generic point -/

/-- Each window's current staging memref at point t. -/
abbrev ms0_0 (t : Fin cfg0.N) : Memref sig .tc .vmem S512x640 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3072x640 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x3072 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x3072 .f32 := win0_3.stage (cfg0.slots t 3)
abbrev hs0_3 (t : Fin cfg0.N) : (ms0_3 t).IsWhole := hstage0_3 ((cfg0.slots t 3).cast nbuf0_3)

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns: the two clipped inputs stated on the part their transfers move. -/
def bodyPost0 (c : Dev nD) (t : Fin cfg0.N) : sProp 𝕄 :=
  iprop((dat0 V c).Φ t.succ ∗ (dat0 V c).owesAt () t.succ
    ∗ (∃ d, owns (c : Thread nD τ) (ms0_0 t) fullShare (win0_0.fill (grid0.coords t) d (win0_0.cut (grid0.coords t) ((dat0 V c).after 0 t))))
    ∗ (∃ d, owns (c : Thread nD τ) (ms0_1 t) fullShare (win0_1.fill (grid0.coords t) d (win0_1.cut (grid0.coords t) ((dat0 V c).after 1 t))))
    ∗ owns (c : Thread nD τ) (ms0_2 t) fullShare ((dat0 V c).after 2 t)
    ∗ owns (c : Thread nD τ) (ms0_3 t) fullShare ((dat0 V c).after 3 t))

set_option maxHeartbeats 800000 in
/-- The body at any point. The two clipped inputs' buffers hold their whole blocks and the bias row's its row, whatever was
    there before; the point is the first of its half or a later one, and the output's buffer holds anything or what the point
    before left accordingly, so the matching case of the body applies; the invariant passes through unread and nothing is
    owed throughout. A clipped input is handed back at its block, which is all of what its obligation asks. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  by_cases h0 : t.val % 39 = 0
  · rw [acc0_first V c t h0]
    simp only [before0_3_first V c t h0]
    iintro ⟨HΦ, Ho, ⟨%d0, H0⟩, ⟨%d1, H1⟩, ⟨%d2, H2⟩, ⟨%d3, H3⟩⟩
    iapply (runA0 c (grid0.coords t) (ms0_0 t) (hs0_0 t) (ms0_1 t) (hs0_1 t) (ms0_2 t) (hs0_2 t) (ms0_3 t) (hs0_3 t)
      ((hcond0 t).mpr h0) (xb0 V c t) (wb0 V c t) (bb0 V c t) Set.univ _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexists xb0 V c t; rw [Window.fill_cut]; iexact H0
    isplitl [H1]; · iexists wb0 V c t; rw [Window.fill_cut]; iexact H1
    isplitl [H2]; · iexact H2
    iexact H3
  · rw [acc0_later V c t h0]
    simp only [before0_3_later V c t h0]
    iintro ⟨HΦ, Ho, ⟨%d0, H0⟩, ⟨%d1, H1⟩, ⟨%d2, H2⟩, ⟨%d3, H3⟩⟩
    iapply (runB0 c (grid0.coords t) (ms0_0 t) (hs0_0 t) (ms0_1 t) (hs0_1 t) (ms0_2 t) (hs0_2 t) (ms0_3 t) (hs0_3 t)
      (fun h => h0 ((hcond0 t).mp h)) (xb0 V c t) (wb0 V c t) (bb0 V c t)
      (acc0 V c (t.val - 1) (Nat.lt_of_le_of_lt (Nat.sub_le _ _) t.isLt)) Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexists xb0 V c t; rw [Window.fill_cut]; iexact H0
    isplitl [H1]; · iexists wb0 V c t; rw [Window.fill_cut]; iexact H1
    isplitl [H2]; · iexact H2
    iexact H3

/-- The library's body obligation (in the form that asks a clipped window back only on the part its transfers move), at
    every point. -/
theorem body_obligation0 (c : Dev nD) :
    BodyObligationLoose (dat0 (F := F) V c) (defs₀ (F := F)) Variants.none () Set.univ := fun t => by
  rw [bigSep_W0, bigSep_W0]
  exact sound_body0 V c t

end Cert.KernelIdeal.Hand

end
-- ==== Proof.KIRegion1.lean ====
/-
  The second kernel region (the GRU step and the projection), at any float family: its proof data and its body obligation,
  stated at a parameter `V`, the buffers' contents when the region is entered.

  The grid is 8 points, one per block of 64 batch rows. At point `i` the body reads rows `64 i … 64 i + 63` of the two
  partial products (both halves at once), of the old state and of the tail columns of `x`, and — whole, fetched once —
  the tail columns of `W`, the hidden weights and bias, the gathered output weights and bias. It stores the 64 rows of
  the new state and the 64 rows of the projection, each written back at every point. Nothing is carried between points.
-/
import proofs.«418008_j22720376995892_3_alg».proof.Proof.Gen.KernelIdeal.Launch
import proofs.«418008_j22720376995892_3_alg».proof.Proof.Gen.KernelIdeal.Skeleton
import proofs.«418008_j22720376995892_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The two halves' rows inside the first window's block (2 × 64 × 3072): half 0 and half 1. -/
abbrev r1_half0 : Rect S2x64x3072 := Rect.unit (s := S2x64x3072) ![0, 0, 0] S1x64x3072.size inb_S2x64x3072_S1x64x3072_0_0_0
abbrev r1_half1 : Rect S2x64x3072 := Rect.unit (s := S2x64x3072) ![1, 0, 0] S1x64x3072.size inb_S2x64x3072_S1x64x3072_1_0_0

/-! ## What the body leaves in the two output buffers, from the input blocks -/

/-- The two products `(1 − z) · n` and `z · h` of the 64 rows, from the blocks the body loads. -/
def gate1 (g : Vec F S2x64x3072 .f32) (h : Vec F S64x1024 .f32) (xt : Vec F S64x80 .f32) (wt : Vec F S3072x80 .f32)
    (u : Vec F S3072x1024 .f32) (bh : Vec F S1x3072 .f32) : Vec F S64x1024 .f32 :=
  k1_pay7 xt wt (View.ld g r1_half0) (View.ld g r1_half1) h u bh
def keep1 (g : Vec F S2x64x3072 .f32) (h : Vec F S64x1024 .f32) (xt : Vec F S64x80 .f32) (wt : Vec F S3072x80 .f32)
    (u : Vec F S3072x1024 .f32) (bh : Vec F S1x3072 .f32) : Vec F S64x1024 .f32 :=
  k1_pay8 xt wt (View.ld g r1_half0) (View.ld g r1_half1) h u bh

/-- The 64 rows of the new state, and of the projection. -/
def hrows1 (c : Dev nD) (t : Fin cfg1.N) : Vec F S64x1024 .f32 :=
  k1_pay1 (gate1 (iblk1 V c 0 t) (iblk1 V c 1 t) (iblk1 V c 2 t) (iblk1 V c 3 t) (iblk1 V c 4 t) (iblk1 V c 5 t))
    (keep1 (iblk1 V c 0 t) (iblk1 V c 1 t) (iblk1 V c 2 t) (iblk1 V c 3 t) (iblk1 V c 4 t) (iblk1 V c 5 t))
def lrows1 (c : Dev nD) (t : Fin cfg1.N) : Vec F S64x512 .f32 :=
  k1_pay2 (gate1 (iblk1 V c 0 t) (iblk1 V c 1 t) (iblk1 V c 2 t) (iblk1 V c 3 t) (iblk1 V c 4 t) (iblk1 V c 5 t))
    (keep1 (iblk1 V c 0 t) (iblk1 V c 1 t) (iblk1 V c 2 t) (iblk1 V c 3 t) (iblk1 V c 4 t) (iblk1 V c 5 t))
    (iblk1 V c 6 t) (iblk1 V c 7 t)

/-! ## The pipeline's proof data -/

/-- The proof data of pipeline 1 on core `c`: the arrays as the region finds them; after the body at point `t` each
    input's buffer at its block and the two outputs' at the rows computed from the input blocks; the class's invariant;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => hrows1 V c t
    | ⟨9, _⟩ => lrows1 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_8 (c : Dev nD) (t : Fin cfg1.N) : (dat1 V c).after 8 t = hrows1 V c t := by dsimp only [dat1]
theorem after1_9 (c : Dev nD) (t : Fin cfg1.N) : (dat1 V c).after 9 t = lrows1 V c t := by dsimp only [dat1]

/-! ## What the body finds in each input's buffer

An input's current buffer holds the window's block at the point whether or not it was fetched there: where it was not,
the block index has not moved since the point before, and the body left the block in place. -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [show (dat1 V c).after 0 t = iblk1 V c 0 t by dsimp only [dat1]]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
    (fun t => by rw [show (dat1 V c).after 1 t = iblk1 V c 1 t by dsimp only [dat1]]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl)
    (fun t => by rw [show (dat1 V c).after 2 t = iblk1 V c 2 t by dsimp only [dat1]]; unfold Dat.blockOf iblk1; rw [A_eq1]; try rfl) t d).trans
    (by unfold Dat.fetched Dat.blockOf iblk1; rw [A_eq1]; try rfl)

theorem before1_3 (c : Dev nD) (t : Fin cfg1.N) (d) : (dat1 V c).before 3 t d = iblk1 V c 3 t :=
  ((dat1 V c).before_in_eq_fetched 3 rfl (fun _ => rfl) (fun _ _ _ => rfl)
    (fun t => by rw [show (dat1 V c).after 3 t = iblk1 V c 3 t by dsimp only [dat1]]; unfold Dat.blockOf iblk1; rw [A_eq1]; try rfl) t d).trans
    (by unfold Dat.fetched Dat.blockOf iblk1; rw [A_eq1]; try rfl)

theorem before1_4 (c : Dev nD) (t : Fin cfg1.N) (d) : (dat1 V c).before 4 t d = iblk1 V c 4 t :=
  ((dat1 V c).before_in_eq_fetched 4 rfl (fun _ => rfl) (fun _ _ _ => rfl)
    (fun t => by rw [show (dat1 V c).after 4 t = iblk1 V c 4 t by dsimp only [dat1]]; unfold Dat.blockOf iblk1; rw [A_eq1]; try rfl) t d).trans
    (by unfold Dat.fetched Dat.blockOf iblk1; rw [A_eq1]; try rfl)

theorem before1_5 (c : Dev nD) (t : Fin cfg1.N) (d) : (dat1 V c).before 5 t d = iblk1 V c 5 t :=
  ((dat1 V c).before_in_eq_fetched 5 rfl (fun _ => rfl) (fun _ _ _ => rfl)
    (fun t => by rw [show (dat1 V c).after 5 t = iblk1 V c 5 t by dsimp only [dat1]]; unfold Dat.blockOf iblk1; rw [A_eq1]; try rfl) t d).trans
    (by unfold Dat.fetched Dat.blockOf iblk1; rw [A_eq1]; try rfl)

theorem before1_6 (c : Dev nD) (t : Fin cfg1.N) (d) : (dat1 V c).before 6 t d = iblk1 V c 6 t :=
  ((dat1 V c).before_in_eq_fetched 6 rfl (fun _ => rfl) (fun _ _ _ => rfl)
    (fun t => by rw [show (dat1 V c).after 6 t = iblk1 V c 6 t by dsimp only [dat1]]; unfold Dat.blockOf iblk1; rw [A_eq1]; try rfl) t d).trans
    (by unfold Dat.fetched Dat.blockOf iblk1; rw [A_eq1]; try rfl)

theorem before1_7 (c : Dev nD) (t : Fin cfg1.N) (d) : (dat1 V c).before 7 t d = iblk1 V c 7 t :=
  ((dat1 V c).before_in_eq_fetched 7 rfl (fun _ => rfl) (fun _ _ _ => rfl)
    (fun t => by rw [show (dat1 V c).after 7 t = iblk1 V c 7 t by dsimp only [dat1]]; unfold Dat.blockOf iblk1; rw [A_eq1]; try rfl) t d).trans
    (by unfold Dat.fetched Dat.blockOf iblk1; rw [A_eq1]; try rfl)

/-! ## What the body leaves in each input's buffer: the block it found -/

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]

/-! ## The body's triple -/

set_option maxHeartbeats 1000000 in
/-- On whole buffers, the eight inputs' at contents `g h xt wt u bh wo bo` and the two outputs' at anything, the body runs to
    the inputs as they were, the first output at the sum of the two gate products and the second at the projection of that
    sum. Every load but two reads a whole buffer, so it reads the contents; the two loads of the first buffer read its two
    halves; each store covers its buffer, so what was there before does not matter. -/
theorem sound_kernel1 (c : Dev nD) (E : Set ℕ) (i : grid1.Coords)
    (arg1 : Memref sig .tc .vmem S2x64x3072 .f32) (harg1 : arg1.IsWhole) (arg2 : Memref sig .tc .vmem S64x1024 .f32) (harg2 : arg2.IsWhole)
    (arg3 : Memref sig .tc .vmem S64x80 .f32) (harg3 : arg3.IsWhole) (arg4 : Memref sig .tc .vmem S3072x80 .f32) (harg4 : arg4.IsWhole)
    (arg5 : Memref sig .tc .vmem S3072x1024 .f32) (harg5 : arg5.IsWhole) (arg6 : Memref sig .tc .vmem S1x3072 .f32) (harg6 : arg6.IsWhole)
    (arg7 : Memref sig .tc .vmem S512x1024 .f32) (harg7 : arg7.IsWhole) (arg8 : Memref sig .tc .vmem S1x512 .f32) (harg8 : arg8.IsWhole)
    (arg9 : Memref sig .tc .vmem S64x1024 .f32) (harg9 : arg9.IsWhole) (arg10 : Memref sig .tc .vmem S64x512 .f32) (harg10 : arg10.IsWhole)
    (g : Vec F S2x64x3072 .f32) (h : Vec F S64x1024 .f32) (xt : Vec F S64x80 .f32) (wt : Vec F S3072x80 .f32)
    (u : Vec F S3072x1024 .f32) (bh : Vec F S1x3072 .f32) (wo : Vec F S512x1024 .f32) (bo : Vec F S1x512 .f32)
    (K : PUnit → sProp 𝕄) :
    iprop(owns (c : Thread nD τ) arg1 fullShare g ∗ owns (c : Thread nD τ) arg2 fullShare h
        ∗ owns (c : Thread nD τ) arg3 fullShare xt ∗ owns (c : Thread nD τ) arg4 fullShare wt
        ∗ owns (c : Thread nD τ) arg5 fullShare u ∗ owns (c : Thread nD τ) arg6 fullShare bh
        ∗ owns (c : Thread nD τ) arg7 fullShare wo ∗ owns (c : Thread nD τ) arg8 fullShare bo
        ∗ (∃ d, owns (c : Thread nD τ) arg9 fullShare d) ∗ (∃ d, owns (c : Thread nD τ) arg10 fullShare d)
        ∗ (iprop(owns (c : Thread nD τ) arg1 fullShare g ∗ owns (c : Thread nD τ) arg2 fullShare h
            ∗ owns (c : Thread nD τ) arg3 fullShare xt ∗ owns (c : Thread nD τ) arg4 fullShare wt
            ∗ owns (c : Thread nD τ) arg5 fullShare u ∗ owns (c : Thread nD τ) arg6 fullShare bh
            ∗ owns (c : Thread nD τ) arg7 fullShare wo ∗ owns (c : Thread nD τ) arg8 fullShare bo
            ∗ owns (c : Thread nD τ) arg9 fullShare (k1_pay1 (gate1 g h xt wt u bh) (keep1 g h xt wt u bh))
            ∗ owns (c : Thread nD τ) arg10 fullShare (k1_pay2 (gate1 g h xt wt u bh) (keep1 g h xt wt u bh) wo bo)) -∗ K ⟨⟩))
      ⊢ wp frame (wpE (defs₀ (F := F)) Variants.none c none) E
          (cc1__gru_proj_kernel i arg1 harg1 arg2 harg2 arg3 harg3 arg4 harg4 arg5 harg5 arg6 harg6 arg7 harg7 arg8 harg8 arg9 harg9 arg10 harg10) K := by
  have hz : (![0, 0] : Fin 2 → Nat) = fun _ => 0 := by funext a; fin_cases a <;> rfl
  simp only [cc1__gru_proj_kernel_eq_skeleton]; unfold cc1__gru_proj_kernel_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  have e1a : View.readAt (Elt F) arg1.view r1_half0.toLoadRect (harg1.unread g) = View.ld g r1_half0 := by
    rw [View.readAt_eq_ld, harg1.read_unread]
  have e1b : View.readAt (Elt F) arg1.view r1_half1.toLoadRect (harg1.unread g) = View.ld g r1_half1 := by
    rw [View.readAt_eq_ld, harg1.read_unread]
  have e2 : View.readAt (Elt F) arg2.view (Rect.unit (s := S64x1024) ![0, 0] S64x1024.size inb_S64x1024_S64x1024_0_0).toLoadRect (harg2.unread h) = h := by
    rw [View.readAt_eq_ld, harg2.read_unread]; exact View.ld_unit_zero (S := S64x1024) hz _ _
  have e3 : View.readAt (Elt F) arg3.view (Rect.unit (s := S64x80) ![0, 0] S64x80.size inb_S64x80_S64x80_0_0).toLoadRect (harg3.unread xt) = xt := by
    rw [View.readAt_eq_ld, harg3.read_unread]; exact View.ld_unit_zero (S := S64x80) hz _ _
  have e4 : View.readAt (Elt F) arg4.view (Rect.unit (s := S3072x80) ![0, 0] S3072x80.size inb_S3072x80_S3072x80_0_0).toLoadRect (harg4.unread wt) = wt := by
    rw [View.readAt_eq_ld, harg4.read_unread]; exact View.ld_unit_zero (S := S3072x80) hz _ _
  have e5 : View.readAt (Elt F) arg5.view (Rect.unit (s := S3072x1024) ![0, 0] S3072x1024.size inb_S3072x1024_S3072x1024_0_0).toLoadRect (harg5.unread u) = u := by
    rw [View.readAt_eq_ld, harg5.read_unread]; exact View.ld_unit_zero (S := S3072x1024) hz _ _
  have e6 : View.readAt (Elt F) arg6.view (Rect.unit (s := S1x3072) ![0, 0] S1x3072.size inb_S1x3072_S1x3072_0_0).toLoadRect (harg6.unread bh) = bh := by
    rw [View.readAt_eq_ld, harg6.read_unread]; exact View.ld_unit_zero (S := S1x3072) hz _ _
  have e7 : View.readAt (Elt F) arg7.view (Rect.unit (s := S512x1024) ![0, 0] S512x1024.size inb_S512x1024_S512x1024_0_0).toLoadRect (harg7.unread wo) = wo := by
    rw [View.readAt_eq_ld, harg7.read_unread]; exact View.ld_unit_zero (S := S512x1024) hz _ _
  have e8 : View.readAt (Elt F) arg8.view (Rect.unit (s := S1x512) ![0, 0] S1x512.size inb_S1x512_S1x512_0_0).toLoadRect (harg8.unread bo) = bo := by
    rw [View.readAt_eq_ld, harg8.read_unread]; exact View.ld_unit_zero (S := S1x512) hz _ _
  sl_exec
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr
    swap; · iexact H9
    ipureintro
    refine (View.read_writes_eq_canon _ _ _ (fun y => ⟨_, List.mem_singleton_self _, View.mem_set_unit_zero (S := S64x1024) hz inb_S64x1024_S64x1024_0_0 y⟩)).trans ?_
    refine (View.canon_unit_zero (S := S64x1024) hz _ _).trans ?_
    unfold gate1 keep1
    rfl
  iexists _; isplitr
  swap; · iexact H10
  ipureintro
  refine (View.read_writes_eq_canon _ _ _ (fun y => ⟨_, List.mem_singleton_self _, View.mem_set_unit_zero (S := S64x512) hz inb_S64x512_S64x512_0_0 y⟩)).trans ?_
  refine (View.canon_unit_zero (S := S64x512) hz _ _).trans ?_
  unfold gate1 keep1
  rfl

/-! ## The body obligation, at a generic point -/

/-- What the body is called with at point `t`: the invariant, what the core owes, and every window's current buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- What it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

set_option maxHeartbeats 1000000 in
/-- The body at any point: each input's buffer holds its block there, so the triple above applies at the blocks; the
    invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  unfold hrows1 lrows1
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ (grid1.coords t)
    (win1_0.stage (cfg1.slots t 0)) (hstage1_0 ((cfg1.slots t 0).cast nbuf1_0))
    (win1_1.stage (cfg1.slots t 1)) (hstage1_1 ((cfg1.slots t 1).cast nbuf1_1))
    (win1_2.stage (cfg1.slots t 2)) (hstage1_2 ((cfg1.slots t 2).cast nbuf1_2))
    (win1_3.stage (cfg1.slots t 3)) (hstage1_3 ((cfg1.slots t 3).cast nbuf1_3))
    (win1_4.stage (cfg1.slots t 4)) (hstage1_4 ((cfg1.slots t 4).cast nbuf1_4))
    (win1_5.stage (cfg1.slots t 5)) (hstage1_5 ((cfg1.slots t 5).cast nbuf1_5))
    (win1_6.stage (cfg1.slots t 6)) (hstage1_6 ((cfg1.slots t 6).cast nbuf1_6))
    (win1_7.stage (cfg1.slots t 7)) (hstage1_7 ((cfg1.slots t 7).cast nbuf1_7))
    (win1_8.stage (cfg1.slots t 8)) (hstage1_8 ((cfg1.slots t 8).cast nbuf1_8))
    (win1_9.stage (cfg1.slots t 9)) (hstage1_9 ((cfg1.slots t 9).cast nbuf1_9))
    (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The obligation in its plain form: the windows opened one by one, it is the triple above. -/
theorem body_obligation1_plain (c : Dev nD) :
    BodyObligation (dat1 (F := F) V c) (defs₀ (F := F)) Variants.none () Set.univ := fun t => by
  rw [bigSep_W1, bigSep_W1]
  exact sound_body1 V c t

/-- The library's body obligation, at every point. -/
theorem body_obligation1 (c : Dev nD) :
    BodyObligationLoose (dat1 (F := F) V c) (defs₀ (F := F)) Variants.none () Set.univ :=
  BodyObligation.loose (dat1 V c) (body_obligation1_plain V c)

end Cert.KernelIdeal.Hand

end
-- ==== Proof.KIRun.lean ====
/-
  The run of the kernel program, at any float family: the eight items of the entry function, from the launch to the
  return, composed as host stretches and kernel regions over one thread state per boundary.

  Between two items every core holds each of its unscoped buffers whole, at contents named here by a fold through the
  program: the launch memory, then what each host stretch computes from what it finds, then, across a region, the
  region's arrays at what its write-backs leave and every other buffer as the region found it. Beside the buffers ride
  the core's generator register, at some state, and the fact that the core owes nothing. The first region is entered
  from the contents after the first stretch, the second from the contents after the four stretches between the regions;
  each region's proof data are taken at its entry contents. The run ends with every unscoped buffer at the last contents
  of the fold, and every argument array read through the fold holds what it held at launch: no stretch writes one, and
  a region either does not touch it or reads it through an input window, whose array no write-back changes.
-/
import proofs.«418008_j22720376995892_3_alg».proof.Proof.KIRegion0
import proofs.«418008_j22720376995892_3_alg».proof.Proof.KIRegion1
import proofs.«418008_j22720376995892_3_alg».proof.Proof.Gen.KernelIdeal.Regions
import proofs.«418008_j22720376995892_3_alg».proof.Proof.Gen.KernelIdeal.Launch
import proofs.«418008_j22720376995892_3_alg».proof.Proof.Gen.KernelIdeal.Skeleton
import proofs.«418008_j22720376995892_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffers' contents at each boundary: a fold through the entry function -/

/-- Core c's buffers at launch. -/
abbrev W0 : Dev nD → Valuation τ sig (Elt F) := fun c b => (s₀ m ρ).mem ((c : Dev nD), b)
/-- After the first host stretch: what the first region is entered from. -/
abbrev W1 : Dev nD → Valuation τ sig (Elt F) := fun c => StableHlo.after hostOps0 (W0 m ρ c)
/-- The same, read at the TensorCore's references: what the first region's proof data take. -/
abbrev V1 : (c : Dev nD) → (b : Ref sig .tc) → Buf (Elt F) ((c : Thread nD τ).loc b) := fun c b => W1 m ρ c b
/-- At the first region's exit: each of its arrays at what the pipeline leaves (an input as entered, the output with its
    write-backs folded in), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- An input window's array leaves the first region as it entered: no write-back touches it. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))
/-- The first region's exit contents, read at the TensorCore's references. -/
abbrev V2 : (c : Dev nD) → (b : Ref sig .tc) → Buf (Elt F) ((c : Thread nD τ).loc b) := fun c b => W2 m ρ c b
/-- At the first region's exit each of its arrays holds what the pipeline leaves, and every other buffer what it held
    at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After each of the four host stretches between the regions; the last is what the second region is entered from. -/
abbrev W3 : Dev nD → Valuation τ sig (Elt F) := fun c => StableHlo.after hostOps1 (W2 m ρ c)
abbrev W4 : Dev nD → Valuation τ sig (Elt F) := fun c => StableHlo.after hostOps1_1 (W3 m ρ c)
abbrev W5 : Dev nD → Valuation τ sig (Elt F) := fun c => StableHlo.after hostOps1_2 (W4 m ρ c)
abbrev W6 : Dev nD → Valuation τ sig (Elt F) := fun c => StableHlo.after hostOps1_3 (W5 m ρ c)
/-- The second region's entry contents, read at the TensorCore's references: what its proof data take. -/
abbrev V6 : (c : Dev nD) → (b : Ref sig .tc) → Buf (Elt F) ((c : Thread nD τ).loc b) := fun c b => W6 m ρ c b
/-- At the second region's exit: each of its arrays at what the pipeline leaves, every other buffer as entered. -/
def W7 (c : Dev nD) : Valuation τ sig (Elt F) :=
  Pipeline.withArrays spec1 c (W6 m ρ c) fun w => (dat1 (V6 m ρ) c).arrAt w cfg1.N
theorem W7_arr (c : Dev nD) (w : Fin cfg1.W) :
    W7 m ρ c (Proc.devRef .tc (Pipeline.arrRef spec1 w)) = (dat1 (V6 m ρ) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb
/-- An input window's array leaves the second region as it entered. -/
theorem W7_in (c : Dev nD) (w : Fin cfg1.W) (hw : (cfg1.win w).isOut = false) :
    W7 m ρ c (Proc.devRef .tc (Pipeline.arrRef spec1 w)) = W6 m ρ c (Proc.devRef .tc (Pipeline.arrRef spec1 w)) :=
  (W7_arr m ρ c w).trans (((dat1 (V6 m ρ) c).arrAt_in w hw _).trans (A_eq1 (V6 m ρ) c w))
/-- The second region's exit contents, read at the TensorCore's references. -/
abbrev V7 : (c : Dev nD) → (b : Ref sig .tc) → Buf (Elt F) ((c : Thread nD τ).loc b) := fun c b => W7 m ρ c b
theorem hF1 (c : Dev nD) (w : Fin cfg1.W) : (dat1 (V6 m ρ) c).arrAt w cfg1.N = V7 m ρ c (Pipeline.arrRef spec1 w) :=
  (W7_arr m ρ c w).symm
theorem hrest1 (c : Dev nD) : ∀ b, b ∉ Finset.univ.image (Pipeline.arrRef spec1) → V7 m ρ c b = V6 m ρ c b :=
  fun b hb => W7_of_ne m ρ c b fun w e => hb (Finset.mem_image.mpr ⟨w, Finset.mem_univ _, e⟩)

/-- After the last host stretch: what the run ends at. -/
abbrev W8 : Dev nD → Valuation τ sig (Elt F) := fun c => StableHlo.after hostOps2 (W7 m ρ c)

/-! ## A host stretch leaves every buffer it does not write -/

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h
theorem W4_of (c : Dev nD) (r : Ref sig .tc) (h : r ∉ hostOps1_1_W) :
    W4 m ρ c (Proc.devRef .tc r) = W3 m ρ c (Proc.devRef .tc r) :=
  StableHlo.after_of_writes_sub hostOps1_1 _ hostOps1_1_writes h
theorem W5_of (c : Dev nD) (r : Ref sig .tc) (h : r ∉ hostOps1_2_W) :
    W5 m ρ c (Proc.devRef .tc r) = W4 m ρ c (Proc.devRef .tc r) :=
  StableHlo.after_of_writes_sub hostOps1_2 _ hostOps1_2_writes h
theorem W6_of (c : Dev nD) (r : Ref sig .tc) (h : r ∉ hostOps1_3_W) :
    W6 m ρ c (Proc.devRef .tc r) = W5 m ρ c (Proc.devRef .tc r) :=
  StableHlo.after_of_writes_sub hostOps1_3 _ hostOps1_3_writes h
theorem W8_of (c : Dev nD) (r : Ref sig .tc) (h : r ∉ hostOps2_W) :
    W8 m ρ c (Proc.devRef .tc r) = W7 m ρ c (Proc.devRef .tc r) :=
  StableHlo.after_of_writes_sub hostOps2 _ hostOps2_writes h

/-! ## The arguments end as launched

No host stretch writes an argument, and a region either leaves its buffer alone or reads it through an input window; so
the fold, read at an argument's buffer, walks back item by item to the launch memory. -/

theorem W8_main_arg0 (c : Dev nD) : W8 m ρ c (Proc.devRef .tc main_arg0) = m ((c : Thread nD τ).loc main_arg0) :=
  calc W8 m ρ c (Proc.devRef .tc main_arg0)
    _ = W7 m ρ c (Proc.devRef .tc main_arg0) := W8_of m ρ c main_arg0 (by decide)
    _ = W6 m ρ c (Proc.devRef .tc main_arg0) := W7_of_ne m ρ c main_arg0 (by decide)
    _ = W5 m ρ c (Proc.devRef .tc main_arg0) := W6_of m ρ c main_arg0 (by decide)
    _ = W4 m ρ c (Proc.devRef .tc main_arg0) := W5_of m ρ c main_arg0 (by decide)
    _ = W3 m ρ c (Proc.devRef .tc main_arg0) := W4_of m ρ c main_arg0 (by decide)
    _ = W2 m ρ c (Proc.devRef .tc main_arg0) := W3_of m ρ c main_arg0 (by decide)
    _ = W1 m ρ c (Proc.devRef .tc main_arg0) := W2_in m ρ c 0 rfl
    _ = W0 m ρ c (Proc.devRef .tc main_arg0) := W1_of m ρ c main_arg0 (by decide)
    _ = m ((c : Thread nD τ).loc main_arg0) := rfl

theorem W8_main_arg1 (c : Dev nD) : W8 m ρ c (Proc.devRef .tc main_arg1) = m ((c : Thread nD τ).loc main_arg1) :=
  calc W8 m ρ c (Proc.devRef .tc main_arg1)
    _ = W7 m ρ c (Proc.devRef .tc main_arg1) := W8_of m ρ c main_arg1 (by decide)
    _ = W6 m ρ c (Proc.devRef .tc main_arg1) := W7_of_ne m ρ c main_arg1 (by decide)
    _ = W5 m ρ c (Proc.devRef .tc main_arg1) := W6_of m ρ c main_arg1 (by decide)
    _ = W4 m ρ c (Proc.devRef .tc main_arg1) := W5_of m ρ c main_arg1 (by decide)
    _ = W3 m ρ c (Proc.devRef .tc main_arg1) := W4_of m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl

theorem W8_main_arg2 (c : Dev nD) : W8 m ρ c (Proc.devRef .tc main_arg2) = m ((c : Thread nD τ).loc main_arg2) :=
  calc W8 m ρ c (Proc.devRef .tc main_arg2)
    _ = W7 m ρ c (Proc.devRef .tc main_arg2) := W8_of m ρ c main_arg2 (by decide)
    _ = W6 m ρ c (Proc.devRef .tc main_arg2) := W7_of_ne m ρ c main_arg2 (by decide)
    _ = W5 m ρ c (Proc.devRef .tc main_arg2) := W6_of m ρ c main_arg2 (by decide)
    _ = W4 m ρ c (Proc.devRef .tc main_arg2) := W5_of m ρ c main_arg2 (by decide)
    _ = W3 m ρ c (Proc.devRef .tc main_arg2) := W4_of m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl

theorem W8_main_arg3 (c : Dev nD) : W8 m ρ c (Proc.devRef .tc main_arg3) = m ((c : Thread nD τ).loc main_arg3) :=
  calc W8 m ρ c (Proc.devRef .tc main_arg3)
    _ = W7 m ρ c (Proc.devRef .tc main_arg3) := W8_of m ρ c main_arg3 (by decide)
    _ = W6 m ρ c (Proc.devRef .tc main_arg3) := W7_of_ne m ρ c main_arg3 (by decide)
    _ = W5 m ρ c (Proc.devRef .tc main_arg3) := W6_of m ρ c main_arg3 (by decide)
    _ = W4 m ρ c (Proc.devRef .tc main_arg3) := W5_of m ρ c main_arg3 (by decide)
    _ = W3 m ρ c (Proc.devRef .tc main_arg3) := W4_of m ρ c main_arg3 (by decide)
    _ = W2 m ρ c (Proc.devRef .tc main_arg3) := W3_of m ρ c main_arg3 (by decide)
    _ = W1 m ρ c (Proc.devRef .tc main_arg3) := W2_in m ρ c 1 rfl
    _ = W0 m ρ c (Proc.devRef .tc main_arg3) := W1_of m ρ c main_arg3 (by decide)
    _ = m ((c : Thread nD τ).loc main_arg3) := rfl

theorem W8_main_arg4 (c : Dev nD) : W8 m ρ c (Proc.devRef .tc main_arg4) = m ((c : Thread nD τ).loc main_arg4) :=
  calc W8 m ρ c (Proc.devRef .tc main_arg4)
    _ = W7 m ρ c (Proc.devRef .tc main_arg4) := W8_of m ρ c main_arg4 (by decide)
    _ = W6 m ρ c (Proc.devRef .tc main_arg4) := W7_in m ρ c 4 rfl
    _ = W5 m ρ c (Proc.devRef .tc main_arg4) := W6_of m ρ c main_arg4 (by decide)
    _ = W4 m ρ c (Proc.devRef .tc main_arg4) := W5_of m ρ c main_arg4 (by decide)
    _ = W3 m ρ c (Proc.devRef .tc main_arg4) := W4_of m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl

theorem W8_main_arg5 (c : Dev nD) : W8 m ρ c (Proc.devRef .tc main_arg5) = m ((c : Thread nD τ).loc main_arg5) :=
  calc W8 m ρ c (Proc.devRef .tc main_arg5)
    _ = W7 m ρ c (Proc.devRef .tc main_arg5) := W8_of m ρ c main_arg5 (by decide)
    _ = W6 m ρ c (Proc.devRef .tc main_arg5) := W7_of_ne m ρ c main_arg5 (by decide)
    _ = W5 m ρ c (Proc.devRef .tc main_arg5) := W6_of m ρ c main_arg5 (by decide)
    _ = W4 m ρ c (Proc.devRef .tc main_arg5) := W5_of m ρ c main_arg5 (by decide)
    _ = W3 m ρ c (Proc.devRef .tc main_arg5) := W4_of m ρ c main_arg5 (by decide)
    _ = W2 m ρ c (Proc.devRef .tc main_arg5) := W3_of m ρ c main_arg5 (by decide)
    _ = W1 m ρ c (Proc.devRef .tc main_arg5) := W2_of_ne m ρ c main_arg5 (by decide)
    _ = W0 m ρ c (Proc.devRef .tc main_arg5) := W1_of m ρ c main_arg5 (by decide)
    _ = m ((c : Thread nD τ).loc main_arg5) := rfl

theorem W8_main_arg6 (c : Dev nD) : W8 m ρ c (Proc.devRef .tc main_arg6) = m ((c : Thread nD τ).loc main_arg6) :=
  calc W8 m ρ c (Proc.devRef .tc main_arg6)
    _ = W7 m ρ c (Proc.devRef .tc main_arg6) := W8_of m ρ c main_arg6 (by decide)
    _ = W6 m ρ c (Proc.devRef .tc main_arg6) := W7_of_ne m ρ c main_arg6 (by decide)
    _ = W5 m ρ c (Proc.devRef .tc main_arg6) := W6_of m ρ c main_arg6 (by decide)
    _ = W4 m ρ c (Proc.devRef .tc main_arg6) := W5_of m ρ c main_arg6 (by decide)
    _ = W3 m ρ c (Proc.devRef .tc main_arg6) := W4_of m ρ c main_arg6 (by decide)
    _ = W2 m ρ c (Proc.devRef .tc main_arg6) := W3_of m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl

theorem W8_main_arg7 (c : Dev nD) : W8 m ρ c (Proc.devRef .tc main_arg7) = m ((c : Thread nD τ).loc main_arg7) :=
  calc W8 m ρ c (Proc.devRef .tc main_arg7)
    _ = W7 m ρ c (Proc.devRef .tc main_arg7) := W8_of m ρ c main_arg7 (by decide)
    _ = W6 m ρ c (Proc.devRef .tc main_arg7) := W7_of_ne m ρ c main_arg7 (by decide)
    _ = W5 m ρ c (Proc.devRef .tc main_arg7) := W6_of m ρ c main_arg7 (by decide)
    _ = W4 m ρ c (Proc.devRef .tc main_arg7) := W5_of m ρ c main_arg7 (by decide)
    _ = W3 m ρ c (Proc.devRef .tc main_arg7) := W4_of m ρ c main_arg7 (by decide)
    _ = W2 m ρ c (Proc.devRef .tc main_arg7) := W3_of m ρ c main_arg7 (by decide)
    _ = W1 m ρ c (Proc.devRef .tc main_arg7) := W2_of_ne m ρ c main_arg7 (by decide)
    _ = W0 m ρ c (Proc.devRef .tc main_arg7) := W1_of m ρ c main_arg7 (by decide)
    _ = m ((c : Thread nD τ).loc main_arg7) := rfl

theorem W8_main_arg8 (c : Dev nD) : W8 m ρ c (Proc.devRef .tc main_arg8) = m ((c : Thread nD τ).loc main_arg8) :=
  calc W8 m ρ c (Proc.devRef .tc main_arg8)
    _ = W7 m ρ c (Proc.devRef .tc main_arg8) := W8_of m ρ c main_arg8 (by decide)
    _ = W6 m ρ c (Proc.devRef .tc main_arg8) := W7_of_ne m ρ c main_arg8 (by decide)
    _ = W5 m ρ c (Proc.devRef .tc main_arg8) := W6_of m ρ c main_arg8 (by decide)
    _ = W4 m ρ c (Proc.devRef .tc main_arg8) := W5_of m ρ c main_arg8 (by decide)
    _ = W3 m ρ c (Proc.devRef .tc main_arg8) := W4_of m ρ c main_arg8 (by decide)
    _ = W2 m ρ c (Proc.devRef .tc main_arg8) := W3_of m ρ c main_arg8 (by decide)
    _ = W1 m ρ c (Proc.devRef .tc main_arg8) := W2_of_ne m ρ c main_arg8 (by decide)
    _ = W0 m ρ c (Proc.devRef .tc main_arg8) := W1_of m ρ c main_arg8 (by decide)
    _ = m ((c : Thread nD τ).loc main_arg8) := rfl

/-! # The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V6 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and the core owing
    nothing. -/
abbrev R (c : Dev nD) : sProp 𝕄 := iprop((∃ r, prngReg c r) ∗ ∃ W, owes (c : Thread nD τ) (0 : CellTallies nD τ sig Unit) W)
/-- A host stretch as a segment over the unscoped references, from the contents W, with R riding along: it runs to those
    references at what the stretch computes from W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debt: every unscoped buffer at the last contents of the fold, the generator
    register at some state. -/
abbrev Tₙ (c : Dev nD) : sProp 𝕄 := iprop(StableHlo.held (c : Thread nD τ) (Pipeline.ucRefs τ sig) (W8 m ρ c) ∗ ∃ r, prngReg c r)

/-! # The regions as segments -/

set_option backward.isDefEq.respectTransparency.types false in
/-- REGION 0 over the thread state: entered from every unscoped buffer at the contents of the boundary before it, left at
    those of the boundary after it. Its arrays are split out of the unscoped buffers at entry and put back, at what the
    write-backs leave, at exit; the generator register goes into the region's invariant and comes back; nothing is
    owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := body_obligation0 (V1 m ρ) c
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at the contents of the boundary before it, left at
    those of the boundary after it. Its arrays are split out of the unscoped buffers at entry and put back, at what the
    write-backs leave, at exit; the generator register goes into the region's invariant and comes back; nothing is
    owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := body_obligation1 (V6 m ρ) c
  hwaits := Pipeline.hwaits_of_owed_zero _ _ _ _ L lv 1 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec1 c (V6 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V6 m ρ c) (V7 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! # The entry function as segments, and the launch -/

/-- The entry function's eight segments in order: a host segment per stretch, from its boundary's contents, and a
    region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .host (hseg hostOps1_3 hostOps1_3_sub hostOps1_3_fresh (W5 m ρ)),
    .region (reg1 m ρ),
    .host (hseg hostOps2 hostOps2_sub hostOps2_fresh (W7 m ρ)) ]
/-- The entry function is the run of the segments: it is the chain of its items, and the segments' run is the same
    chain. -/
theorem main_run (c : Dev nD) : main (F := F) c = Pipeline.Seg.run (segs m ρ) := (main_chain c).trans (by chain_rfl)

/-- What the last host stretch leaves is the last thread state beside the core owing nothing: the same three conjuncts,
    bracketed the other way. -/
theorem last_state (c : Dev nD) :
    (iprop(StableHlo.held (c : Thread nD τ) (Pipeline.ucRefs τ sig) (W8 m ρ c) ∗ R c) : sProp 𝕄)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

set_option backward.isDefEq.respectTransparency.types false in
/-- THE RUN. At the compiled mesh, from any memory with zero counters, every weakly fair execution of the entry function
    on the TensorCores terminates, nothing faulting, and in every final state each core's unscoped buffers hold the last
    contents of the fold: the several-regions launch over the segments, the last thread state read against the final
    state. -/
theorem run_all : θ_run defs (onTc (τ := τ) (main (F := F))) ⟨m, fun _ => 0, ρ⟩
    (fun r => ∀ c : Dev nD, ∀ b ∈ Pipeline.ucRefs τ sig, r.2.mem ((c : Thread nD τ).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun c => last_state m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun _ h => h)

/-- THE FRAME, at any float family: every weakly fair execution of the entry function terminates, nothing faulting, and
    every final state has each argument array as launched. From the run: an argument's buffer is unscoped, so the final
    state holds it at the last contents of the fold, which are its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (run_all m ρ).mono fun r h c =>
   ⟨(h c _ (mem_uc main_arg0 (by decide))).trans (W8_main_arg0 m ρ c),
    (h c _ (mem_uc main_arg1 (by decide))).trans (W8_main_arg1 m ρ c),
    (h c _ (mem_uc main_arg2 (by decide))).trans (W8_main_arg2 m ρ c),
    (h c _ (mem_uc main_arg3 (by decide))).trans (W8_main_arg3 m ρ c),
    (h c _ (mem_uc main_arg4 (by decide))).trans (W8_main_arg4 m ρ c),
    (h c _ (mem_uc main_arg5 (by decide))).trans (W8_main_arg5 m ρ c),
    (h c _ (mem_uc main_arg6 (by decide))).trans (W8_main_arg6 m ρ c),
    (h c _ (mem_uc main_arg7 (by decide))).trans (W8_main_arg7 m ρ c),
    (h c _ (mem_uc main_arg8 (by decide))).trans (W8_main_arg8 m ρ c)⟩

end Cert.KernelIdeal.Hand

end
-- ==== Proof.KIHost.lean ====
/-
  The host stretches of the kernel program between and around its two regions, as functions of the buffer contents
  they start from, and the plain layout operations among them read at one element.

  Before the first region the hidden state `[1, 512, 1024]` is recast to `[512, 1024]` and the input bias `[3072]` to a
  row `[1, 3072]`. Between the regions the last 80 columns (from column 49920) of `x` and of `W_ih` are cut out, 512 rows of
  `W_ho` and 512 elements of `b_ho` are selected by the index vector (the two takes below), and the hidden bias and the
  selected elements are recast to rows. After the second region the new hidden state regains its leading unit axis.
  Every statement holds for any float family and any contents `W` the stretch starts from.
-/
import proofs.«418008_j22720376995892_3_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.ValueIdx Idealize.ShloMosaic.StableHlo

variable {F : FTy → Type} [FloatOps F]

variable (W : Valuation τ sig (Elt F))

/-! ## The two takes as terms -/

/-- The rows of a table a vector of 512 signed words selects: a negative word is first moved up by the table's
    50000 rows; the row at that position (the position cut into the table's range) is taken whole; and a row whose
    moved word still lies outside `[0, 49999]` is replaced by the quiet-NaN word at every column. -/
def takeRows (a7 : FVec F S50000x1024 .f32) (a1 : IVec S512 32) : FVec F S512x1024 .f32 :=
  select
    (broadcastInDim S512x1024 ![0] bcast_S512_S512x1024_0
      (Host.reduce IntOp.andi
        (andi
          (cmpi .sge
            (broadcastInDim S512x1 ![0] bcast_S512_S512x1_0
              (select (cmpi .slt a1 (broadcastInDim S512 ![] bcast_S_S512 (constantI S_ 32 0#32)))
                (addi a1 (broadcastInDim S512 ![] bcast_S_S512 (constantI S_ 32 50000#32))) a1))
            (broadcastInDim S512x1 ![] bcast_S_S512x1 (constantI S_ 32 0#32)))
          (cmpi .sle
            (broadcastInDim S512x1 ![0] bcast_S512_S512x1_0
              (select (cmpi .slt a1 (broadcastInDim S512 ![] bcast_S_S512 (constantI S_ 32 0#32)))
                (addi a1 (broadcastInDim S512 ![] bcast_S_S512 (constantI S_ 32 50000#32))) a1))
            (broadcastInDim S512x1 ![0, 1] bcast_S1x1_S512x1_0_1
              (broadcastInDim S1x1 ![1] bcast_S1_S1x1_1 (constantI S1 32 49999#32)))))
        (constantI S_ 1 1#1) reducesTo_S512x1_S512_d1 h_S_))
    (Host.gather gather_S50000x1024_S512x1_S512x1024_1_0_n_n_0_1_11024 a7
      (broadcastInDim S512x1 ![0] bcast_S512_S512x1_0
        (select (cmpi .slt a1 (broadcastInDim S512 ![] bcast_S_S512 (constantI S_ 32 0#32)))
          (addi a1 (broadcastInDim S512 ![] bcast_S_S512 (constantI S_ 32 50000#32))) a1)))
    (broadcastInDim S512x1024 ![] bcast_S_S512x1024 (constant (F := F) S_ .f32 0x7FC00000#32))

/-- The elements of a vector of 50000 the same 512 signed words select, by the same three steps: a negative word
    moved up by 50000, the element at the position cut into range, the quiet-NaN word where the moved word is out of
    range. -/
def takeVec (a8 : FVec F S50000 .f32) (a1 : IVec S512 32) : FVec F S512 .f32 :=
  select
    (Host.reduce IntOp.andi
      (andi
        (cmpi .sge
          (broadcastInDim S512x1 ![0] bcast_S512_S512x1_0
            (select (cmpi .slt a1 (broadcastInDim S512 ![] bcast_S_S512 (constantI S_ 32 0#32)))
              (addi a1 (broadcastInDim S512 ![] bcast_S_S512 (constantI S_ 32 50000#32))) a1))
          (broadcastInDim S512x1 ![] bcast_S_S512x1 (constantI S_ 32 0#32)))
        (cmpi .sle
          (broadcastInDim S512x1 ![0] bcast_S512_S512x1_0
            (select (cmpi .slt a1 (broadcastInDim S512 ![] bcast_S_S512 (constantI S_ 32 0#32)))
              (addi a1 (broadcastInDim S512 ![] bcast_S_S512 (constantI S_ 32 50000#32))) a1))
          (broadcastInDim S512x1 ![0, 1] bcast_S1x1_S512x1_0_1
            (broadcastInDim S1x1 ![1] bcast_S1_S1x1_1 (constantI S1 32 49999#32)))))
      (constantI S_ 1 1#1) reducesTo_S512x1_S512_d1 h_S_)
    (Host.gather gather_S50000_S512x1_S512_n_0_n_n_0_1_1 a8
      (broadcastInDim S512x1 ![0] bcast_S512_S512x1_0
        (select (cmpi .slt a1 (broadcastInDim S512 ![] bcast_S_S512 (constantI S_ 32 0#32)))
          (addi a1 (broadcastInDim S512 ![] bcast_S_S512 (constantI S_ 32 50000#32))) a1)))
    (broadcastInDim S512 ![] bcast_S_S512 (constant (F := F) S_ .f32 0x7FC00000#32))

/-! ## What each stretch leaves in the buffers the regions and the later stretches read -/

/-- Before the first region: the hidden state without its leading unit axis. -/
theorem host0_v0 :
    (after hostOps0 W (Proc.devRef .tc main_v0) : S512x1024.Idx → Elt F .f32)
      = shapeCast S512x1024 (W (Proc.devRef .tc main_arg2)) shapeCasts_S1x512x1024_S512x1024 := by
  after_results <;> rfl

/-- Before the first region: the input bias as a row. -/
theorem host0_v1 :
    (after hostOps0 W (Proc.devRef .tc main_v1) : S1x3072.Idx → Elt F .f32)
      = shapeCast S1x3072 (W (Proc.devRef .tc main_arg5)) shapeCasts_S3072_S1x3072 := by
  after_results <;> rfl

/-- Between the regions: the last 80 columns of `x`. -/
theorem host1_v3 :
    (after hostOps1 W (Proc.devRef .tc main_v3) : S512x80.Idx → Elt F .f32)
      = extractStridedSlice S512x80 ![0, 49920] (W (Proc.devRef .tc main_arg0)) slices_S512x50000_S512x80_0_49920 := by
  after_results <;> rfl

/-- Between the regions: the last 80 columns of `W_ih`. -/
theorem host1_v4 :
    (after hostOps1 W (Proc.devRef .tc main_v4) : S3072x80.Idx → Elt F .f32)
      = extractStridedSlice S3072x80 ![0, 49920] (W (Proc.devRef .tc main_arg3)) slices_S3072x50000_S3072x80_0_49920 := by
  after_results <;> rfl

/-- Between the regions: the 512 selected rows of `W_ho`. The operations' results composed in order are `takeRows`
    up to the identity transports between a value's type and its buffer's. -/
theorem host11_v5 :
    (after hostOps1_1 W (Proc.devRef .tc main_v5) : S512x1024.Idx → Elt F .f32)
      = takeRows (W (Proc.devRef .tc main_arg7)) (W (Proc.devRef .tc main_arg1)) := by
  after_results_simp
  simp only [StableHlo.TRef.ofBuf, StableHlo.TRef.toBuf, cast_eq]
  rfl

/-- Between the regions: the 512 selected elements of `b_ho`, likewise `takeVec`. -/
theorem host12_v6 :
    (after hostOps1_2 W (Proc.devRef .tc main_v6) : S512.Idx → Elt F .f32)
      = takeVec (W (Proc.devRef .tc main_arg8)) (W (Proc.devRef .tc main_arg1)) := by
  after_results_simp
  simp only [StableHlo.TRef.ofBuf, StableHlo.TRef.toBuf, cast_eq]
  rfl

/-- Between the regions: the hidden bias as a row. -/
theorem host13_v7 :
    (after hostOps1_3 W (Proc.devRef .tc main_v7) : S1x3072.Idx → Elt F .f32)
      = shapeCast S1x3072 (W (Proc.devRef .tc main_arg6)) shapeCasts_S3072_S1x3072 := by
  after_results <;> rfl

/-- Between the regions: the selected elements of `b_ho` as a row. -/
theorem host13_v8 :
    (after hostOps1_3 W (Proc.devRef .tc main_v8) : S1x512.Idx → Elt F .f32)
      = shapeCast S1x512 (W (Proc.devRef .tc main_v6)) shapeCasts_S512_S1x512 := by
  after_results <;> rfl

/-- After the second region: the new hidden state under a leading unit axis. -/
theorem host2_v10 :
    (after hostOps2 W (Proc.devRef .tc main_v10) : S1x512x1024.Idx → Elt F .f32)
      = broadcastInDim S1x512x1024 ![1, 2] bcast_S512x1024_S1x512x1024_1_2 (W (Proc.devRef .tc main_v9_0)) := by
  after_results <;> rfl

/-! ## The layout operations read at one element -/

/-- Dropping the leading unit axis keeps row-major order: element `(b, k)` is element `(0, b, k)`. -/
theorem reshape_hid (a : FVec F S1x512x1024 .f32) (b : Fin 512) (k : Fin 1024) :
    shapeCast S512x1024 a shapeCasts_S1x512x1024_S512x1024 (ix2 b k) = a (ix3 (0 : Fin 1) b k) :=
  shapeCast_1ab_ab_apply a shapeCasts_S1x512x1024_S512x1024 b k

/-- A vector of 3072 as a row: element `(0, j)` is element `j`. -/
theorem reshape_row3072 (a : FVec F S3072 .f32) (j : Fin 3072) :
    shapeCast S1x3072 a shapeCasts_S3072_S1x3072 (ix2 (0 : Fin 1) j) = a (ix1 j) :=
  shapeCast_a_1a_apply a shapeCasts_S3072_S1x3072 0 j

/-- A vector of 512 as a row: element `(0, j)` is element `j`. -/
theorem reshape_row512 (a : FVec F S512 .f32) (j : Fin 512) :
    shapeCast S1x512 a shapeCasts_S512_S1x512 (ix2 (0 : Fin 1) j) = a (ix1 j) :=
  shapeCast_a_1a_apply a shapeCasts_S512_S1x512 0 j

/-- Column `l` of the 80-column tail of `x` is column `49920 + l` of `x`. -/
theorem slice_x (a : FVec F S512x50000 .f32) (b : Fin 512) (l : Fin 80) :
    extractStridedSlice S512x80 ![0, 49920] a slices_S512x50000_S512x80_0_49920 (ix2 b l)
      = a (ix2 b ⟨49920 + l.val, by omega⟩) :=
  slice2_axis1_eq 49920 a slices_S512x50000_S512x80_0_49920 b l

/-- Column `l` of the 80-column tail of `W_ih` is column `49920 + l` of `W_ih`. -/
theorem slice_w (a : FVec F S3072x50000 .f32) (j : Fin 3072) (l : Fin 80) :
    extractStridedSlice S3072x80 ![0, 49920] a slices_S3072x50000_S3072x80_0_49920 (ix2 j l)
      = a (ix2 j ⟨49920 + l.val, by omega⟩) :=
  slice2_axis1_eq 49920 a slices_S3072x50000_S3072x80_0_49920 j l

/-- Under a new leading unit axis element `(0, b, k)` is element `(b, k)`: neither operand axis has extent 1, so each
    reads the result's coordinate on the axis it is sent to. -/
theorem bcast_hid (a : FVec F S512x1024 .f32) (b : Fin 512) (k : Fin 1024) :
    broadcastInDim S1x512x1024 ![1, 2] bcast_S512x1024_S1x512x1024_1_2 a (ix3 (0 : Fin 1) b k) = a (ix2 b k) :=
  broadcastInDim_apply _ _ a _ _ fun ax => match ax with | ⟨0, _⟩ => rfl | ⟨1, _⟩ => rfl

end Cert.KernelIdeal.Hand

end
-- ==== Proof.KITransport.lean ====
/-
  What the kernel program's buffers hold where the second region is entered, and at the end, read back to the launch
  memory: every array the second region reads is a launch array (untouched by the items before), a plain re-layout of one
  (a reshape, the last 80 columns), the rows and entries the index words select, or the first region's output; the two
  results are the second region's two output arrays, the new state under a leading unit axis.
-/
import proofs.«418008_j22720376995892_3_alg».proof.Proof.KIRun
import proofs.«418008_j22720376995892_3_alg».proof.Proof.KIHost
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.StableHlo

variable (m : (ℓ : Loc nD τ sig) → Buf (Elt F) ℓ) (ρ : Dev nD → PrngReg)

/-! ## An argument array is as launched wherever an item reads it -/

theorem W1_arg0 (c : Dev nD) : W1 m ρ c (Proc.devRef .tc main_arg0) = m ((c : Thread nD τ).loc main_arg0) :=
  (W1_of m ρ c main_arg0 (by decide)).trans rfl
theorem W1_arg3 (c : Dev nD) : W1 m ρ c (Proc.devRef .tc main_arg3) = m ((c : Thread nD τ).loc main_arg3) :=
  (W1_of m ρ c main_arg3 (by decide)).trans rfl
theorem W2_arg0 (c : Dev nD) : W2 m ρ c (Proc.devRef .tc main_arg0) = m ((c : Thread nD τ).loc main_arg0) :=
  (W2_in m ρ c 0 rfl).trans (W1_arg0 m ρ c)
theorem W2_arg3 (c : Dev nD) : W2 m ρ c (Proc.devRef .tc main_arg3) = m ((c : Thread nD τ).loc main_arg3) :=
  (W2_in m ρ c 1 rfl).trans (W1_arg3 m ρ c)
theorem W2_other (c : Dev nD) (r : Ref sig .tc) (h0 : r ∉ hostOps0_W) (hb : ∀ w, Pipeline.arrRef spec0 w ≠ r) :
    W2 m ρ c (Proc.devRef .tc r) = m ((c : Thread nD τ).loc r) :=
  (W2_of_ne m ρ c r hb).trans ((W1_of m ρ c r h0).trans rfl)
theorem W3_arg1 (c : Dev nD) : W3 m ρ c (Proc.devRef .tc main_arg1) = m ((c : Thread nD τ).loc main_arg1) :=
  (W3_of m ρ c main_arg1 (by decide)).trans (W2_other m ρ c main_arg1 (by decide) (by decide))
theorem W3_arg7 (c : Dev nD) : W3 m ρ c (Proc.devRef .tc main_arg7) = m ((c : Thread nD τ).loc main_arg7) :=
  (W3_of m ρ c main_arg7 (by decide)).trans (W2_other m ρ c main_arg7 (by decide) (by decide))
theorem W4_arg1 (c : Dev nD) : W4 m ρ c (Proc.devRef .tc main_arg1) = m ((c : Thread nD τ).loc main_arg1) :=
  (W4_of m ρ c main_arg1 (by decide)).trans (W3_arg1 m ρ c)
theorem W4_arg8 (c : Dev nD) : W4 m ρ c (Proc.devRef .tc main_arg8) = m ((c : Thread nD τ).loc main_arg8) :=
  (W4_of m ρ c main_arg8 (by decide)).trans ((W3_of m ρ c main_arg8 (by decide)).trans (W2_other m ρ c main_arg8 (by decide) (by decide)))
theorem W5_arg6 (c : Dev nD) : W5 m ρ c (Proc.devRef .tc main_arg6) = m ((c : Thread nD τ).loc main_arg6) :=
  (W5_of m ρ c main_arg6 (by decide)).trans ((W4_of m ρ c main_arg6 (by decide)).trans
    ((W3_of m ρ c main_arg6 (by decide)).trans (W2_other m ρ c main_arg6 (by decide) (by decide))))

/-! ## The arrays the second region reads -/

/-- The hidden weights: a launch array. -/
theorem V6_arg4 (c : Dev nD) : V6 m ρ c main_arg4 = m ((c : Thread nD τ).loc main_arg4) :=
  (W6_of m ρ c main_arg4 (by decide)).trans ((W5_of m ρ c main_arg4 (by decide)).trans ((W4_of m ρ c main_arg4 (by decide)).trans
    ((W3_of m ρ c main_arg4 (by decide)).trans (W2_other m ρ c main_arg4 (by decide) (by decide)))))

/-- The first region's output. -/
theorem V6_v2 (c : Dev nD) : V6 m ρ c main_v2 = (dat0 (V1 m ρ) c).arrAt 3 cfg0.N :=
  (W6_of m ρ c main_v2 (by decide)).trans ((W5_of m ρ c main_v2 (by decide)).trans ((W4_of m ρ c main_v2 (by decide)).trans
    ((W3_of m ρ c main_v2 (by decide)).trans (W2_arr m ρ c 3))))

/-- The old state as a matrix: the reshape before the first region, untouched since. -/
theorem V6_v0 (c : Dev nD) :
    (V6 m ρ c main_v0 : S512x1024.Idx → Elt F .f32)
      = shapeCast S512x1024 (m ((c : Thread nD τ).loc main_arg2)) shapeCasts_S1x512x1024_S512x1024 :=
  (W6_of m ρ c main_v0 (by decide)).trans ((W5_of m ρ c main_v0 (by decide)).trans ((W4_of m ρ c main_v0 (by decide)).trans
    ((W3_of m ρ c main_v0 (by decide)).trans ((W2_of_ne m ρ c main_v0 (by decide)).trans (host0_v0 (W0 m ρ c))))))

/-- The input bias as a row, where the first region is entered. -/
theorem V1_v1 (c : Dev nD) :
    (V1 m ρ c main_v1 : S1x3072.Idx → Elt F .f32)
      = shapeCast S1x3072 (m ((c : Thread nD τ).loc main_arg5)) shapeCasts_S3072_S1x3072 :=
  host0_v1 (W0 m ρ c)

/-- The last 80 columns of the input rows and of the input weights. -/
theorem V6_v3 (c : Dev nD) :
    (V6 m ρ c main_v3 : S512x80.Idx → Elt F .f32)
      = extractStridedSlice S512x80 ![0, 49920] (m ((c : Thread nD τ).loc main_arg0)) slices_S512x50000_S512x80_0_49920 :=
  (W6_of m ρ c main_v3 (by decide)).trans ((W5_of m ρ c main_v3 (by decide)).trans ((W4_of m ρ c main_v3 (by decide)).trans
    ((host1_v3 (W2 m ρ c)).trans (by rw [W2_arg0]))))
theorem V6_v4 (c : Dev nD) :
    (V6 m ρ c main_v4 : S3072x80.Idx → Elt F .f32)
      = extractStridedSlice S3072x80 ![0, 49920] (m ((c : Thread nD τ).loc main_arg3)) slices_S3072x50000_S3072x80_0_49920 :=
  (W6_of m ρ c main_v4 (by decide)).trans ((W5_of m ρ c main_v4 (by decide)).trans ((W4_of m ρ c main_v4 (by decide)).trans
    ((host1_v4 (W2 m ρ c)).trans (by rw [W2_arg3]))))

/-- The hidden bias as a row. -/
theorem V6_v7 (c : Dev nD) :
    (V6 m ρ c main_v7 : S1x3072.Idx → Elt F .f32)
      = shapeCast S1x3072 (m ((c : Thread nD τ).loc main_arg6)) shapeCasts_S3072_S1x3072 :=
  (host13_v7 (W5 m ρ c)).trans (by rw [W5_arg6])

/-- The selected rows of the output weights, and the selected entries of the output bias as a row. -/
theorem V6_v5 (c : Dev nD) :
    (V6 m ρ c main_v5 : S512x1024.Idx → Elt F .f32)
      = takeRows (m ((c : Thread nD τ).loc main_arg7)) (m ((c : Thread nD τ).loc main_arg1)) :=
  (W6_of m ρ c main_v5 (by decide)).trans ((W5_of m ρ c main_v5 (by decide)).trans
    ((host11_v5 (W3 m ρ c)).trans (by rw [W3_arg7, W3_arg1])))
theorem V6_v8 (c : Dev nD) :
    (V6 m ρ c main_v8 : S1x512.Idx → Elt F .f32)
      = shapeCast S1x512 (takeVec (m ((c : Thread nD τ).loc main_arg8)) (m ((c : Thread nD τ).loc main_arg1))) shapeCasts_S512_S1x512 :=
  (host13_v8 (W5 m ρ c)).trans (by rw [show W5 m ρ c (Proc.devRef .tc main_v6) = _ from host12_v6 (W4 m ρ c), W4_arg8, W4_arg1])

/-! ## The two results -/

/-- The projection is the second region's second output array. -/
theorem W8_v9_1 (c : Dev nD) : W8 m ρ c (Proc.devRef .tc main_v9_1) = (dat1 (V6 m ρ) c).arrAt 9 cfg1.N :=
  (W8_of m ρ c main_v9_1 (by decide)).trans (W7_arr m ρ c 9)

/-- The new state is the second region's first output array under a leading unit axis. -/
theorem W8_v10 (c : Dev nD) :
    (W8 m ρ c (Proc.devRef .tc main_v10) : S1x512x1024.Idx → Elt F .f32)
      = broadcastInDim S1x512x1024 ![1, 2] bcast_S512x1024_S1x512x1024_1_2 ((dat1 (V6 m ρ) c).arrAt 8 cfg1.N) :=
  (host2_v10 (W7 m ρ c)).trans (by rw [show W7 m ρ c (Proc.devRef .tc main_v9_0) = _ from W7_arr m ρ c 8])

end Cert.KernelIdeal.Hand

end
-- ==== Proof.Spec.lean ====
/-
  The mathematics both programs compute, over the extended reals, written once over plain `Fin`-indexed functions.

  One GRU step and a projection onto selected output rows. With `x : 512 × 50000`, `W : 3072 × 50000`, `U : 3072 × 1024`,
  `h : 512 × 1024`, the pre-activations are `gi = x Wᵀ + bᵢ` and `gh = h Uᵀ + bₕ` (512 × 3072 each); their three
  column blocks of width 1024 are the reset, update and candidate gates: `r = σ(gi₀ + gh₀)`, `z = σ(gi₁ + gh₁)`,
  `n = tanh(gi₂ + r · gh₂)`, and the new state is `(1 − z) · n + z · h`. The projection is
  `tanh(h' Woᵀ + bₒ)` read at the 512 columns the index words name; an index word is first wrapped (a negative
  word has 50000 added) and then clamped into `[0, 49999]`, which is how a gather reads its start index.

  The first program does not form `x Wᵀ` as one sum over the 50000 columns: it adds up 39 blocks of 640 columns in
  each of two halves (the first half started from the bias, the second from zero) and a tail of 80 columns.
  `gi_split` says these pieces add up to the whole: addition of extended reals is commutative and associative
  (also at the infinities), so no finiteness is needed.
-/
import Idealize.ShloMosaic.PureOps.Ideal
import Idealize.ShloMosaic.Lib.ValueIdx
import Mathlib.Algebra.BigOperators.Fin

noncomputable section

namespace Cert.Spec

open Idealize.ShloMosaic Idealize.ShloMosaic.ValueIdx

/-- `x Wᵀ + b` at row `b`, column `j`: a sum over all 50000 columns. -/
def gi (x : Fin 512 → Fin 50000 → EReal) (W : Fin 3072 → Fin 50000 → EReal) (bi : Fin 3072 → EReal)
    (b : Fin 512) (j : Fin 3072) : EReal := (∑ v : Fin 50000, x b v * W j v) + bi j

/-- `h Uᵀ + b` at row `b`, column `j`. -/
def gh (h : Fin 512 → Fin 1024 → EReal) (U : Fin 3072 → Fin 1024 → EReal) (bh : Fin 3072 → EReal)
    (b : Fin 512) (j : Fin 3072) : EReal := (∑ k : Fin 1024, h b k * U j k) + bh j

/-- Column `k` of the reset, update and candidate blocks of a 3072-wide row. -/
def col0 (k : Fin 1024) : Fin 3072 := ⟨k.val, by have := k.isLt; omega⟩
def col1 (k : Fin 1024) : Fin 3072 := ⟨k.val + 1024, by have := k.isLt; omega⟩
def col2 (k : Fin 1024) : Fin 3072 := ⟨k.val + 2048, by have := k.isLt; omega⟩

/-- The new hidden state at `(b, k)` from the two pre-activations and the old state. -/
def hnew (gI gH : Fin 512 → Fin 3072 → EReal) (h : Fin 512 → Fin 1024 → EReal) (b : Fin 512) (k : Fin 1024) : EReal :=
  (1 - Ideal.logistic (gI b (col1 k) + gH b (col1 k)))
      * Ideal.tanh (gI b (col2 k) + Ideal.logistic (gI b (col0 k) + gH b (col0 k)) * gH b (col2 k))
    + Ideal.logistic (gI b (col1 k) + gH b (col1 k)) * h b k

/-- An index word as a gather reads it after the wrap of negative words: 50000 added to a negative word, then the signed
    value clamped into `[0, 49999]`. -/
def wrapWord (t : BitVec 32) : BitVec 32 := if t.slt 0#32 then t + 50000#32 else t
def target (t : BitVec 32) : Fin 50000 := ⟨min (wrapWord t).toInt.toNat 49999, by omega⟩

/-- The projection at `(b, j)`: row `b` of the new state against row `tg j` of the output weights, plus that row's bias,
    through `tanh`. -/
def logit (hn : Fin 512 → Fin 1024 → EReal) (Wo : Fin 50000 → Fin 1024 → EReal) (bo : Fin 50000 → EReal)
    (tg : Fin 512 → Fin 50000) (b j : Fin 512) : EReal :=
  Ideal.tanh ((∑ k : Fin 1024, hn b k * Wo (tg j) k) + bo (tg j))

/-! ## The two results as functions of the nine argument arrays -/

/-- A rank-2 array, a rank-1 array and the [1, 512, 1024] state read as functions of their coordinates. -/
def mat {n m : ℕ} (a : (⟨2, ![n, m]⟩ : Shape).Idx → EReal) (p : Fin n) (q : Fin m) : EReal := a (ix2 p q)
def vec {n : ℕ} (a : (⟨1, ![n]⟩ : Shape).Idx → EReal) (p : Fin n) : EReal := a (ix1 p)
def hid (a : (⟨3, ![1, 512, 1024]⟩ : Shape).Idx → EReal) (p : Fin 512) (q : Fin 1024) : EReal := a (ix3 (0 : Fin 1) p q)
/-- The output row the `j`-th index word selects. -/
def tgt (t : (⟨1, ![512]⟩ : Shape).Idx → BitVec 32) (j : Fin 512) : Fin 50000 := target (t (ix1 j))

/-- The new state at `(b, k)`: `a0` the input rows, `a2` the old state, `a3`, `a5` the input weights and bias, `a4`, `a6` the
    hidden weights and bias. -/
def hOut (a0 : (⟨2, ![512, 50000]⟩ : Shape).Idx → EReal) (a2 : (⟨3, ![1, 512, 1024]⟩ : Shape).Idx → EReal)
    (a3 : (⟨2, ![3072, 50000]⟩ : Shape).Idx → EReal) (a4 : (⟨2, ![3072, 1024]⟩ : Shape).Idx → EReal)
    (a5 a6 : (⟨1, ![3072]⟩ : Shape).Idx → EReal) (b : Fin 512) (k : Fin 1024) : EReal :=
  hnew (gi (mat a0) (mat a3) (vec a5)) (gh (hid a2) (mat a4) (vec a6)) (hid a2) b k

/-- The projection at `(b, j)`: `a1` the index words, `a7`, `a8` the output weights and bias. -/
def lOut (a0 : (⟨2, ![512, 50000]⟩ : Shape).Idx → EReal) (a1 : (⟨1, ![512]⟩ : Shape).Idx → BitVec 32)
    (a2 : (⟨3, ![1, 512, 1024]⟩ : Shape).Idx → EReal)
    (a3 : (⟨2, ![3072, 50000]⟩ : Shape).Idx → EReal) (a4 : (⟨2, ![3072, 1024]⟩ : Shape).Idx → EReal)
    (a5 a6 : (⟨1, ![3072]⟩ : Shape).Idx → EReal) (a7 : (⟨2, ![50000, 1024]⟩ : Shape).Idx → EReal)
    (a8 : (⟨1, ![50000]⟩ : Shape).Idx → EReal) (b j : Fin 512) : EReal :=
  logit (hOut a0 a2 a3 a4 a5 a6) (mat a7) (vec a8) (tgt a1) b j

/-! ## The column sum in blocks -/

/-- Block `q` of 640 columns of a column-indexed summand. -/
def blockSum (f : ℕ → EReal) (q : ℕ) : EReal := ∑ l : Fin 640, f (q * 640 + l.val)

/-- A half's running sum after its block `k` (counting from 0): the start value plus the blocks `39 n, …, 39 n + k`,
    added one at a time on the right. -/
def runSum (f : ℕ → EReal) (init : EReal) (n : ℕ) : ℕ → EReal
  | 0 => init + blockSum f (39 * n)
  | k + 1 => runSum f init n k + blockSum f (39 * n + (k + 1))

/-- The last 80 columns. -/
def tailSum (f : ℕ → EReal) : EReal := ∑ l : Fin 80, f (49920 + l.val)

/-- A block of 640 columns as a sum over the first 640 naturals. -/
private theorem blockSum_range (f : ℕ → EReal) (q : ℕ) :
    blockSum f q = ∑ l ∈ Finset.range 640, f (q * 640 + l) :=
  Fin.sum_univ_eq_sum_range (fun l => f (q * 640 + l)) 640

/-- The running sum in closed form: the start value plus the blocks `39 n, …, 39 n + k` (one more block joins the sum on
    the right at each step; addition is associative). -/
private theorem runSum_eq (f : ℕ → EReal) (init : EReal) (n k : ℕ) :
    runSum f init n k = init + ∑ k' ∈ Finset.range (k + 1), blockSum f (39 * n + k') := by
  induction k with
  | zero => rw [runSum, Finset.sum_range_one, Nat.add_zero]
  | succ k ih => rw [runSum, ih, Finset.sum_range_succ _ (k + 1), add_assoc]

/-- The first `m * n` naturals taken `n` at a time: the number `q * n + l` is met once, in block `q` at place `l`. -/
private theorem sum_range_mul (f : ℕ → EReal) (n m : ℕ) :
    ∑ i ∈ Finset.range (m * n), f i = ∑ q ∈ Finset.range m, ∑ l ∈ Finset.range n, f (q * n + l) := by
  induction m with
  | zero => rw [Nat.zero_mul, Finset.range_zero, Finset.sum_empty, Finset.sum_empty]
  | succ m ih => rw [Nat.succ_mul, Finset.sum_range_add, ih, Finset.sum_range_succ]

/-- The two halves' sums and the tail make the whole sum; the bias rides in the first half. -/
theorem gi_split (f : ℕ → EReal) (β : EReal) :
    runSum f β 0 38 + runSum f 0 1 38 + tailSum f = (∑ v : Fin 50000, f v.val) + β := by
  -- the whole sum: 50000 = 78 * 640 + 80 columns, the first 78 * 640 taken block by block, the 78 blocks in two halves of 39
  have hW : (∑ v : Fin 50000, f v.val)
      = (∑ q ∈ Finset.range 39, blockSum f q) + (∑ q ∈ Finset.range 39, blockSum f (39 + q)) + tailSum f := by
    have hT : tailSum f = ∑ l ∈ Finset.range 80, f (78 * 640 + l) :=
      Fin.sum_univ_eq_sum_range (fun l => f (49920 + l)) 80
    have h0 : (∑ v : Fin 50000, f v.val) = ∑ i ∈ Finset.range (78 * 640 + 80), f i :=
      Fin.sum_univ_eq_sum_range f 50000
    have h1 : (∑ q ∈ Finset.range (39 + 39), ∑ l ∈ Finset.range 640, f (q * 640 + l))
        = (∑ q ∈ Finset.range 39, blockSum f q) + (∑ q ∈ Finset.range 39, blockSum f (39 + q)) := by
      rw [Finset.sum_range_add]
      refine congrArg₂ (· + ·) (Finset.sum_congr rfl fun q _ => (blockSum_range f q).symm)
        (Finset.sum_congr rfl fun q _ => (blockSum_range f (39 + q)).symm)
    rw [h0, Finset.sum_range_add, sum_range_mul f 640 78, hT]
    exact congrArg (· + _) h1
  -- the two halves in closed form
  have hA : runSum f β 0 38 = β + ∑ q ∈ Finset.range 39, blockSum f q := by
    rw [runSum_eq]
    refine congrArg (β + ·) (Finset.sum_congr rfl fun q _ => ?_)
    rw [Nat.mul_zero, Nat.zero_add]
  have hB : runSum f 0 1 38 = ∑ q ∈ Finset.range 39, blockSum f (39 + q) := by
    rw [runSum_eq, zero_add]
  rw [hW, hA, hB]
  -- the start value moves from the front to the back: addition is commutative and associative
  rw [add_assoc β, add_assoc β, add_comm β]

end Cert.Spec

end
-- ==== Proof.LibScatterGather.lean ====
/-
  Reading an accumulating scatter and a row gather at one element, at the ideal instance.

  `scatterAdd_vec_apply`: a vector of `M` updates added into a vector of length `N` at the positions a column of `M` words
  names: element `i` of the result is the operand's element plus the sum of the updates whose word, read as a signed
  integer, is `i` (a word outside `[0, N)` contributes nowhere).
  `scatterAdd_rows_apply`: the same for `M` rows of width `C` added into an `N × C` array: row `i`, column `j` collects
  column `j` of the update rows whose word is `i`.
  `gather_rows_apply`: row `e` of a gather of `M` rows out of an `N × C` array is the array's row at word `e`, read signed
  and clamped into `[0, N - 1]`.
-/
import Idealize.ShloMosaic.PureOps.Ideal
import Idealize.ShloMosaic.PureOps.Ideal.Laws
import Idealize.ShloMosaic.Lib.ValueIdx
import Idealize.ShloMosaic.Lib.StableHlo.Predicate

noncomputable section

namespace Cert.LibScatterGather

open Idealize.ShloMosaic Idealize.ShloMosaic.ValueIdx

/-! ## A vector of updates added into a vector -/

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-- The vector scatter's dimension numbers: no window axes, the operand's one axis inserted and scatter-indexed, the
    index vector on axis 1 of the column of words. -/
abbrev vecDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Update `j` lands on the operand's axis at its word read signed: the start is the word at row `j` of the column, the
    window coordinate is zero (the axis is inserted). -/
theorem vec_landing {N M w : Nat} (wf : ScatterDims.WF ⟨1, ![N]⟩ ⟨2, ![M, 1]⟩ ⟨1, ![M]⟩ [] [0] [0] 1)
    (idx : IVec ⟨2, ![M, 1]⟩ w) (j : (⟨1, ![M]⟩ : Shape).Idx) (a : Fin 1) :
    (vecDims N M wf).start j idx a + ((vecDims N M wf).window j a : ℤ) = (idx (ix2 (j 0) (0 : Fin 1))).toInt := by
  obtain rfl : a = 0 := Subsingleton.elim _ _
  unfold ScatterDims.start ScatterDims.window
  rw [dif_pos (show (0 : Fin 1) ∈ (vecDims N M wf).scatterDimsToOperandDims from List.mem_singleton.mpr rfl),
    dif_neg (show (0 : Fin 1) ∉ (vecDims N M wf).sKept by
      show (0 : Fin 1) ∉ (List.finRange 1).filter (· ∉ [0]); decide)]
  have hsi : (vecDims N M wf).siIdx j ⟨List.idxOf (0 : Fin 1) (vecDims N M wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  simp

/-- The update at `j` lands on element `i` exactly when its word, read signed, is `i`. -/
theorem vec_resultIdx {N M w : Nat} (wf : ScatterDims.WF ⟨1, ![N]⟩ ⟨2, ![M, 1]⟩ ⟨1, ![M]⟩ [] [0] [0] 1)
    (idx : IVec ⟨2, ![M, 1]⟩ w) (j : (⟨1, ![M]⟩ : Shape).Idx) (i : Fin N) :
    (vecDims N M wf).resultIdx? j idx = some (ix1 i) ↔ (idx (ix2 (j 0) (0 : Fin 1))).toInt = (i.val : ℤ) := by
  have hl := vec_landing wf idx j
  unfold ScatterDims.resultIdx?
  constructor
  · intro h
    split at h
    · next hc =>
      have h0 := congrFun (Option.some.inj h) 0
      have h1 := congrArg Fin.val h0
      simp only at h1
      have := hc 0
      rw [← hl 0]
      change ((vecDims N M wf).start j idx 0 + ((vecDims N M wf).window j 0 : ℤ)).toNat = i.val at h1
      omega
    · exact absurd h (by simp)
  · intro h
    have hc : ∀ a, 0 ≤ (vecDims N M wf).start j idx a + ((vecDims N M wf).window j a : ℤ) ∧
        (vecDims N M wf).start j idx a + ((vecDims N M wf).window j a : ℤ) < ((⟨1, ![N]⟩ : Shape).size a : ℤ) := by
      intro a
      obtain rfl : a = 0 := Subsingleton.elim _ _
      rw [hl 0, h]
      have := i.isLt
      constructor
      · omega
      · show (i.val : ℤ) < (N : ℤ); omega
    rw [dif_pos hc]
    congr 1
    funext a
    obtain rfl : a = 0 := Subsingleton.elim _ _
    refine Fin.ext ?_
    show ((vecDims N M wf).start j idx 0 + ((vecDims N M wf).window j 0 : ℤ)).toNat = i.val
    rw [hl 0, h]; simp

/-- THE VECTOR SCATTER READ AT `i`: the operand's element plus the sum, over the `M` updates, of those whose word read
    signed is `i`. The filtered sum over update indices becomes the sum over `Fin M` with an `if` (`Finset.sum_filter`,
    then the update index set re-indexed by its one coordinate). -/
theorem scatterAdd_vec_apply {N M w : Nat} {φ : FTy} (d : ScatterDims ⟨1, ![N]⟩ ⟨2, ![M, 1]⟩ ⟨1, ![M]⟩)
    (huw : d.updateWindowDims = []) (hiw : d.insertedWindowDims = [0]) (hsd : d.scatterDimsToOperandDims = [0])
    (hivd : d.indexVectorDim = 1)
    (x : FVec Ideal ⟨1, ![N]⟩ φ) (idx : IVec ⟨2, ![M, 1]⟩ w) (upd : FVec Ideal ⟨1, ![M]⟩ φ) (i : Fin N) :
    Host.scatterAdd d x idx upd (ix1 i)
      = x (ix1 i) + ∑ e : Fin M, if (idx (ix2 e (0 : Fin 1))).toInt = (i.val : ℤ) then upd (ix1 e) else 0 := by
  obtain ⟨uw, iw, sd, ivd, wf⟩ := d
  simp only at huw hiw hsd hivd
  subst huw hiw hsd hivd
  show Ideal.hostScatterAdd (vecDims N M wf) x idx upd (ix1 i) = _
  unfold Ideal.hostScatterAdd
  congr 1
  rw [Finset.sum_filter, sum_idx1]
  refine Finset.sum_congr rfl fun e _ => ?_
  exact if_congr (vec_resultIdx wf idx (ix1 e) i) rfl rfl

/-! ## Rows of updates added into an array -/

/-- The row scatter's dimension numbers: the updates' axis 1 the window axis, the operand's axis 0 inserted and
    scatter-indexed, the index vector on axis 1 of the column of words. -/
abbrev rowDims (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- On the operand's axis 0 update `q` lands at its word read signed: the start is the word at row `q 0` of the column,
    the window coordinate zero (the axis is inserted). -/
theorem row_landing0 {N M C w : Nat} (wf : ScatterDims.WF ⟨2, ![N, C]⟩ ⟨2, ![M, 1]⟩ ⟨2, ![M, C]⟩ [1] [0] [0] 1)
    (idx : IVec ⟨2, ![M, 1]⟩ w) (q : (⟨2, ![M, C]⟩ : Shape).Idx) :
    (rowDims N M C wf).start q idx 0 + ((rowDims N M C wf).window q 0 : ℤ) = (idx (ix2 (q 0) (0 : Fin 1))).toInt := by
  unfold ScatterDims.start ScatterDims.window
  rw [dif_pos (show (0 : Fin 2) ∈ (rowDims N M C wf).scatterDimsToOperandDims from List.mem_singleton.mpr rfl),
    dif_neg (show (0 : Fin 2) ∉ (rowDims N M C wf).sKept by
      show (0 : Fin 2) ∉ (List.finRange 2).filter (· ∉ [(0 : Fin 2)]); decide)]
  have hsi : (rowDims N M C wf).siIdx q ⟨List.idxOf (0 : Fin 2) (rowDims N M C wf).scatterDimsToOperandDims,
      List.idxOf_lt_length_iff.2 (List.mem_singleton.mpr rfl)⟩ = ix2 (q 0) (0 : Fin 1) := by
    funext b; refine Fin.ext ?_
    match b with
    | ⟨0, _⟩ => rfl
    | ⟨1, _⟩ => rfl
  rw [hsi]
  simp

/-- On the operand's axis 1 update `q` lands at its own column: the start is 0 (the axis is not scatter-indexed), the
    window coordinate the update's coordinate on its one window axis. -/
theorem row_landing1 {N M C w : Nat} (wf : ScatterDims.WF ⟨2, ![N, C]⟩ ⟨2, ![M, 1]⟩ ⟨2, ![M, C]⟩ [1] [0] [0] 1)
    (idx : IVec ⟨2, ![M, 1]⟩ w) (q : (⟨2, ![M, C]⟩ : Shape).Idx) :
    (rowDims N M C wf).start q idx 1 + ((rowDims N M C wf).window q 1 : ℤ) = ((q 1).val : ℤ) := by
  unfold ScatterDims.start ScatterDims.window
  rw [dif_neg (show (1 : Fin 2) ∉ (rowDims N M C wf).scatterDimsToOperandDims by
      show (1 : Fin 2) ∉ [(0 : Fin 2)]; decide),
    dif_pos (show (1 : Fin 2) ∈ (rowDims N M C wf).sKept by
      show (1 : Fin 2) ∈ (List.finRange 2).filter (· ∉ [(0 : Fin 2)]); decide), Int.zero_add]
  rfl

/-- The update at `q` lands on element `(i, k)` exactly when its word, read signed, is `i` and its column is `k`. -/
theorem row_resultIdx {N M C w : Nat} (wf : ScatterDims.WF ⟨2, ![N, C]⟩ ⟨2, ![M, 1]⟩ ⟨2, ![M, C]⟩ [1] [0] [0] 1)
    (idx : IVec ⟨2, ![M, 1]⟩ w) (q : (⟨2, ![M, C]⟩ : Shape).Idx) (i : Fin N) (k : Fin C) :
    (rowDims N M C wf).resultIdx? q idx = some (ix2 i k)
      ↔ (idx (ix2 (q 0) (0 : Fin 1))).toInt = (i.val : ℤ) ∧ q 1 = k := by
  have hl0 := row_landing0 wf idx q
  have hl1 := row_landing1 wf idx q
  unfold ScatterDims.resultIdx?
  constructor
  · intro h
    split at h
    · next hc =>
      have hf := Option.some.inj h
      have h0 := congrArg Fin.val (congrFun hf 0)
      have h1 := congrArg Fin.val (congrFun hf 1)
      change ((rowDims N M C wf).start q idx 0 + ((rowDims N M C wf).window q 0 : ℤ)).toNat = i.val at h0
      change ((rowDims N M C wf).start q idx 1 + ((rowDims N M C wf).window q 1 : ℤ)).toNat = k.val at h1
      have hc0 := (hc 0).1
      rw [hl0] at h0 hc0
      rw [hl1] at h1
      refine ⟨by omega, Fin.ext ?_⟩
      simpa using h1
    · exact absurd h (by simp)
  · rintro ⟨h, hk⟩
    have hc : ∀ a, 0 ≤ (rowDims N M C wf).start q idx a + ((rowDims N M C wf).window q a : ℤ) ∧
        (rowDims N M C wf).start q idx a + ((rowDims N M C wf).window q a : ℤ) < ((⟨2, ![N, C]⟩ : Shape).size a : ℤ) := by
      intro a
      match a with
      | ⟨0, _⟩ =>
        have := i.isLt
        refine ⟨?_, ?_⟩
        · show 0 ≤ (rowDims N M C wf).start q idx 0 + ((rowDims N M C wf).window q 0 : ℤ)
          rw [hl0, h]; omega
        · show (rowDims N M C wf).start q idx 0 + ((rowDims N M C wf).window q 0 : ℤ) < (N : ℤ)
          rw [hl0, h]; omega
      | ⟨1, _⟩ =>
        have := idx2_lt1 q
        refine ⟨?_, ?_⟩
        · show 0 ≤ (rowDims N M C wf).start q idx 1 + ((rowDims N M C wf).window q 1 : ℤ)
          rw [hl1]; omega
        · show (rowDims N M C wf).start q idx 1 + ((rowDims N M C wf).window q 1 : ℤ) < (C : ℤ)
          rw [hl1]; omega
    rw [dif_pos hc]
    congr 1
    funext a
    refine Fin.ext ?_
    match a with
    | ⟨0, _⟩ =>
      show ((rowDims N M C wf).start q idx 0 + ((rowDims N M C wf).window q 0 : ℤ)).toNat = i.val
      rw [hl0, h]; simp
    | ⟨1, _⟩ =>
      show ((rowDims N M C wf).start q idx 1 + ((rowDims N M C wf).window q 1 : ℤ)).toNat = k.val
      rw [hl1, hk]; simp

/-- THE ROW SCATTER READ AT `(i, j)`: the operand's element plus the sum, over the `M` update rows, of column `j` of those
    whose word read signed is `i`. The filtered sum over update indices becomes the double sum over (row, column) with an
    `if` (`Finset.sum_filter`, `sum_idx2`); the column sum keeps the one term at `j` (`Finset.sum_ite_eq'`). -/
theorem scatterAdd_rows_apply {N M C w : Nat} {φ : FTy} (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (x : FVec Ideal ⟨2, ![N, C]⟩ φ) (idx : IVec ⟨2, ![M, 1]⟩ w) (upd : FVec Ideal ⟨2, ![M, C]⟩ φ) (i : Fin N) (j : Fin C) :
    Host.scatterAdd d x idx upd (ix2 i j)
      = x (ix2 i j) + ∑ e : Fin M, if (idx (ix2 e (0 : Fin 1))).toInt = (i.val : ℤ) then upd (ix2 e j) else 0 := by
  obtain ⟨uw, iw, sd, ivd, wf⟩ := d
  simp only at huw hiw hsd hivd
  subst huw hiw hsd hivd
  show Ideal.hostScatterAdd (rowDims N M C wf) x idx upd (ix2 i j) = _
  unfold Ideal.hostScatterAdd
  congr 1
  rw [Finset.sum_filter, sum_idx2]
  refine Finset.sum_congr rfl fun e _ => ?_
  have hstep : ∀ b : Fin C,
      (if (rowDims N M C wf).resultIdx? (ix2 e b) idx = some (ix2 i j) then upd (ix2 e b) else 0)
        = if b = j then (if (idx (ix2 e (0 : Fin 1))).toInt = (i.val : ℤ) then upd (ix2 e b) else 0) else 0 := by
    intro b
    have hiff := row_resultIdx wf idx (ix2 e b) i j
    by_cases hb : b = j
    · rw [if_pos hb]
      exact if_congr (hiff.trans ⟨fun h => h.1, fun h => ⟨h, hb⟩⟩) rfl rfl
    · rw [if_neg hb, if_neg]
      exact fun h => hb (hiff.mp h).2
  rw [Finset.sum_congr rfl fun b _ => hstep b, Finset.sum_ite_eq' Finset.univ j, if_pos (Finset.mem_univ j)]

/-! ## Rows gathered out of an array -/

/-- The row gather's dimension numbers: the result's axis 1 the offset axis, the operand's axis 0 collapsed and
    start-indexed, no batching axes, the index vector on axis 1 of the column of words, slices one row wide. -/
abbrev rowGatherDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- On the collapsed axis the operand index is the clamped start: the word at row `e` of the column read signed, cut
    into `[0, N - 1]`; no batching or offset coordinate. -/
theorem rowGather_axis0 {N M C w : Nat}
    (wf : GatherDims.WF ⟨2, ![N, C]⟩ ⟨2, ![M, 1]⟩ ⟨2, ![M, C]⟩ [1] [0] [] [0] [] 1 ![1, C])
    (idx : IVec ⟨2, ![M, 1]⟩ w) (e : Fin M) (j : Fin C) :
    ((rowGatherDims N M C wf).operandIdx (ix2 e j) idx 0).val = min (idx (ix2 e (0 : Fin 1))).toInt.toNat (N - 1) := by
  show (rowGatherDims N M C wf).start (ix2 e j) idx 0 + (rowGatherDims N M C wf).batchCoord (ix2 e j) 0
    + (rowGatherDims N M C wf).offCoord (ix2 e j) 0 = _
  rw [GatherDims.batchCoord_eq_zero _ _ _ List.not_mem_nil, Nat.add_zero,
    GatherDims.offCoord_eq_zero _ _ _ (fun h => ((GatherDims.mem_sKept _ _).mp h).1 (List.mem_singleton.mpr rfl)),
    Nat.add_zero]
  unfold GatherDims.start
  rw [dif_pos (show (0 : Fin 2) ∈ (rowGatherDims N M C wf).startIndexMap from List.mem_singleton.mpr rfl)]
  have hsi : (rowGatherDims N M C wf).siIdx (ix2 e j) ⟨List.idxOf (0 : Fin 2) (rowGatherDims N M C wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the offset axis the operand index is the result's column: the start is 0 (the axis is not start-indexed), the
    offset coordinate the result's coordinate on its one offset axis. -/
theorem rowGather_axis1 {N M C w : Nat}
    (wf : GatherDims.WF ⟨2, ![N, C]⟩ ⟨2, ![M, 1]⟩ ⟨2, ![M, C]⟩ [1] [0] [] [0] [] 1 ![1, C])
    (idx : IVec ⟨2, ![M, 1]⟩ w) (e : Fin M) (j : Fin C) :
    ((rowGatherDims N M C wf).operandIdx (ix2 e j) idx 1).val = j.val := by
  show (rowGatherDims N M C wf).start (ix2 e j) idx 1 + (rowGatherDims N M C wf).batchCoord (ix2 e j) 1
    + (rowGatherDims N M C wf).offCoord (ix2 e j) 1 = _
  rw [GatherDims.batchCoord_eq_zero _ _ _ List.not_mem_nil, Nat.add_zero]
  unfold GatherDims.start
  rw [dif_neg (show (1 : Fin 2) ∉ (rowGatherDims N M C wf).startIndexMap by
    show (1 : Fin 2) ∉ [(0 : Fin 2)]; decide), Nat.zero_add]
  unfold GatherDims.offCoord
  rw [dif_pos (show (1 : Fin 2) ∈ (rowGatherDims N M C wf).sKept by
    show (1 : Fin 2) ∈ (List.finRange 2).filter (· ∉ [(0 : Fin 2)] ++ []); decide)]
  rfl

/-- THE ROW GATHER READ AT `(e, j)`: the array at row "word `e`, read signed and clamped into `[0, N - 1]`", column `j`. -/
theorem gather_rows_apply {α : Type} {N M C w : Nat} (d : GatherDims ⟨2, ![N, C]⟩ ⟨2, ![M, 1]⟩ ⟨2, ![M, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, C])
    (x : (⟨2, ![N, C]⟩ : Shape).Idx → α) (idx : IVec ⟨2, ![M, 1]⟩ w) (e : Fin M) (j : Fin C) (hN : 0 < N) :
    Host.gather d x idx (ix2 e j)
      = x (ix2 (⟨min (idx (ix2 e (0 : Fin 1))).toInt.toNat (N - 1), by omega⟩ : Fin N) j) := by
  obtain ⟨od, cd, ob, sb, sm, ivd, ss, wf⟩ := d
  simp only at hoff hcoll hob hsb hsim hivd hss
  subst hoff hcoll hob hsb hsim hivd hss
  show x ((rowGatherDims N M C wf).operandIdx (ix2 e j) idx) = _
  congr 1
  funext a
  refine Fin.ext ?_
  match a with
  | ⟨0, _⟩ => exact rowGather_axis0 wf idx e j
  | ⟨1, _⟩ => exact rowGather_axis1 wf idx e j

end Cert.LibScatterGather

end
-- ==== Proof.LibGatherVec.lean ====
/-
  Reading a gather of single elements out of a vector at one element.

  `gather_vec_apply`: element `e` of a gather of `M` elements out of a vector of length `N`, the positions named by a
  column of `M` words, is the vector's element at word `e`, read signed and clamped into `[0, N - 1]`.
-/
import Idealize.ShloMosaic.PureOps.Ideal
import Idealize.ShloMosaic.PureOps.Ideal.Laws
import Idealize.ShloMosaic.Lib.ValueIdx
import Idealize.ShloMosaic.Lib.StableHlo.Predicate

noncomputable section

namespace Cert.LibGatherVec

open Idealize.ShloMosaic Idealize.ShloMosaic.ValueIdx

/-- The element gather's dimension numbers: no offset axes, the operand's one axis collapsed and start-indexed, no
    batching axes, the index vector on axis 1 of the column of words, slices one element wide. -/
abbrev vecGatherDims (N M : Nat)
    (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- On the operand's one axis the index read is the clamped start: the word at row `e` of the column read signed, cut
    into `[0, N - 1]`; the axis is collapsed, so there is no batching and no offset coordinate. -/
theorem vecGather_axis0 {N M w : Nat}
    (wf : GatherDims.WF ⟨1, ![N]⟩ ⟨2, ![M, 1]⟩ ⟨1, ![M]⟩ [] [0] [] [0] [] 1 ![1])
    (idx : IVec ⟨2, ![M, 1]⟩ w) (e : Fin M) :
    ((vecGatherDims N M wf).operandIdx (ix1 e) idx 0).val = min (idx (ix2 e (0 : Fin 1))).toInt.toNat (N - 1) := by
  show (vecGatherDims N M wf).start (ix1 e) idx 0 + (vecGatherDims N M wf).batchCoord (ix1 e) 0
    + (vecGatherDims N M wf).offCoord (ix1 e) 0 = _
  rw [GatherDims.batchCoord_eq_zero _ _ _ List.not_mem_nil, Nat.add_zero,
    GatherDims.offCoord_eq_zero _ _ _ (fun h => ((GatherDims.mem_sKept _ _).mp h).1 (List.mem_singleton.mpr rfl)),
    Nat.add_zero]
  unfold GatherDims.start
  rw [dif_pos (show (0 : Fin 1) ∈ (vecGatherDims N M wf).startIndexMap from List.mem_singleton.mpr rfl)]
  have hsi : (vecGatherDims N M wf).siIdx (ix1 e) ⟨List.idxOf (0 : Fin 1) (vecGatherDims N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- THE ELEMENT GATHER READ AT `e`: the vector at "word `e`, read signed and clamped into `[0, N - 1]`". -/
theorem gather_vec_apply {α : Type} {N M w : Nat} (d : GatherDims ⟨1, ![N]⟩ ⟨2, ![M, 1]⟩ ⟨1, ![M]⟩)
    (hoff : d.offsetDims = []) (hcoll : d.collapsedSliceDims = [0]) (hob : d.operandBatchingDims = [])
    (hsb : d.startIndicesBatchingDims = []) (hsim : d.startIndexMap = [0]) (hivd : d.indexVectorDim = 1)
    (hss : d.sliceSizes = ![1])
    (x : (⟨1, ![N]⟩ : Shape).Idx → α) (idx : IVec ⟨2, ![M, 1]⟩ w) (e : Fin M) (hN : 0 < N) :
    Host.gather d x idx (ix1 e)
      = x (ix1 (⟨min (idx (ix2 e (0 : Fin 1))).toInt.toNat (N - 1), by omega⟩ : Fin N)) := by
  obtain ⟨od, cd, ob, sb, sm, ivd, ss, wf⟩ := d
  simp only at hoff hcoll hob hsb hsim hivd hss
  subst hoff hcoll hob hsb hsim hivd hss
  show x ((vecGatherDims N M wf).operandIdx (ix1 e) idx) = _
  congr 1
  funext a
  obtain rfl : a = 0 := Subsingleton.elim _ _
  exact Fin.ext (vecGather_axis0 wf idx e)

end Cert.LibGatherVec

end
-- ==== Proof.KITakes.lean ====
/-
  The kernel program's two index takes read at one element, and the index range read out of the precondition.

  Between its two regions the program selects 512 rows of the output weights `[50000, 1024]` and 512 elements of the
  output bias `[50000]` by a vector of 512 signed 32-bit words. Each take first wraps a word (a negative word has
  50000 added), then gathers at the wrapped word cut into `[0, 49999]`, and finally replaces what it gathered by the
  quiet-NaN word wherever the wrapped word lies outside `[0, 49999]`: the test is an and-reduction, over the one-column
  axis, of the two comparisons' bits.

  When every index word `t` satisfies `0 ≤ t < 50000` as a signed word, the wrap leaves `t` alone, both comparisons
  hold at every row, the reduction is the bit 1 and the select keeps the gathered value. The gather reads the row
  `min (toInt (wrap t)).toNat 49999`, which is by definition the row `Spec.target t` the statement names. So the row take at
  `(j, k)` is the weights at `(Spec.tgt a1 j, k)` and the element take at `j` is the bias at `Spec.tgt a1 j`.

  The precondition is a conjunction of ten bits; its last two are the all-reductions of `t ≥ 0` and of `t < 50000` (signed)
  over the 512 index words. A conjunction of bits that is 1 has every bit 1, an all-reduction that is 1 has a 1 at every
  element, and a signed comparison's bit is 1 exactly when the comparison of the signed values holds.
-/
import proofs.«418008_j22720376995892_3_alg».proof.Proof.Gen.KernelIdeal
import proofs.«418008_j22720376995892_3_alg».proof.Proof.Spec
import proofs.«418008_j22720376995892_3_alg».proof.Proof.LibScatterGather
import proofs.«418008_j22720376995892_3_alg».proof.Proof.LibGatherVec
import proofs.«418008_j22720376995892_3_alg».proof.Proof.KIHost
import proofs.«418008_j22720376995892_3_alg».proof.Pre_finite_inputs
import Idealize.ShloMosaic.Lib.StableHlo.Predicate
import Idealize.ShloMosaic.Lib.ReduceAll
import Idealize.ShloMosaic.Lib.ValueIdx

set_option maxRecDepth 16384

noncomputable section

namespace Cert.KernelIdeal.Hand

open Cert.KernelIdeal Cert.KernelIdeal.Gen
open Idealize.ShloMosaic
open Idealize.ShloMosaic.ValueIdx

variable {F : FTy → Type} [FloatOps F]

/-- every index word is a row number: 0 ≤ t < 50000 as a signed word -/
def InRange (a1 : IVec S512 32) : Prop := ∀ j : Fin 512, 0 ≤ (a1 (ix1 j)).toInt ∧ (a1 (ix1 j)).toInt < 50000

/-! ## Words -/

private theorem toInt_zero32 : (0#32 : BitVec 32).toInt = 0 := by decide
private theorem toInt_49999 : (49999#32 : BitVec 32).toInt = 49999 := by decide
private theorem toInt_50000 : (50000#32 : BitVec 32).toInt = 50000 := by decide

private theorem sge_zero_iff (t : BitVec 32) : IntOp.cmpi .sge t 0#32 = 1#1 ↔ 0 ≤ t.toInt := by
  show BitVec.ofBool ((0#32 : BitVec 32).sle t) = 1#1 ↔ _
  rw [StableHlo.Predicate.ofBool_eq_one_iff, BitVec.sle, decide_eq_true_eq, toInt_zero32]

private theorem sle_top_iff (t : BitVec 32) : IntOp.cmpi .sle t 49999#32 = 1#1 ↔ t.toInt ≤ 49999 := by
  show BitVec.ofBool (t.sle (49999#32 : BitVec 32)) = 1#1 ↔ _
  rw [StableHlo.Predicate.ofBool_eq_one_iff, BitVec.sle, decide_eq_true_eq, toInt_49999]

private theorem slt_size_iff (t : BitVec 32) : IntOp.cmpi .slt t 50000#32 = 1#1 ↔ t.toInt < 50000 := by
  show BitVec.ofBool (t.slt (50000#32 : BitVec 32)) = 1#1 ↔ _
  rw [StableHlo.Predicate.ofBool_eq_one_iff, BitVec.slt, decide_eq_true_eq, toInt_50000]

/-- The wrap of a word as the program writes it (a select on the sign test) is the wrap the statement names. -/
private theorem wrap_eq (t : BitVec 32) :
    Scalar.select (IntOp.cmpi .slt t 0#32) (IntOp.addi t 50000#32) t = Spec.wrapWord t := by
  show (if BitVec.ofBool (t.slt 0#32) = 1 then t + 50000#32 else t) = if t.slt 0#32 then t + 50000#32 else t
  cases h : t.slt 0#32
  · rw [if_neg (by decide), if_neg (by decide)]
  · rw [if_pos (by decide), if_pos rfl]

/-- A word that is not negative is its own wrap. -/
private theorem wrapWord_of_nonneg (t : BitVec 32) (h0 : 0 ≤ t.toInt) : Spec.wrapWord t = t := by
  unfold Spec.wrapWord
  rw [if_neg]
  rw [BitVec.slt, decide_eq_true_eq, toInt_zero32]
  omega

/-! ## Reading the broadcasts and the all-reduction at an element -/

/-- A vector laid along the first axis of a rectangle reads, at any index, the vector at the index's row. -/
private theorem bcast_axis0_apply {α : Type} {n m : Nat}
    (h : (⟨1, ![n]⟩ : Shape).BroadcastsInDim ⟨2, ![n, m]⟩ ![0]) (v : (⟨1, ![n]⟩ : Shape).Idx → α)
    (i : (⟨2, ![n, m]⟩ : Shape).Idx) :
    broadcastInDim ⟨2, ![n, m]⟩ ![0] h v i = v (ix1 (i 0)) := by
  simp only [broadcastInDim]
  congr 1
  funext a
  have ha : a = 0 := Subsingleton.elim _ _
  subst ha
  apply Fin.ext
  have hp := (i 0).isLt
  split
  · next h1 => change n = 1 at h1; change (i 0).val < n at hp; show (0 : Nat) = (i 0).val; omega
  · rfl

/-- A left fold by the bitwise and, started at 1 over bits that are all 1, ends at 1. -/
private theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self]
    exact foldl_andi_one f l fun n hn => h n (List.mem_cons_of_mem _ hn)

/-- An and-reduction, started from the bit 1, of an array of bits that are all 1 is 1 at every result index. -/
private theorem reduce_andi_one {s t u : Shape} {axes : List (Fin s.rank)} (x : s.Idx → BitVec 1)
    (h : s.ReducesTo axes t) (hu : 0 < u.numel) (hx : ∀ i, x i = 1#1) (j : t.Idx) :
    Host.reduce IntOp.andi x (constantI u 1 1#1) h hu j = 1#1 := by
  rw [Host.reduce_eq_foldl]
  exact foldl_andi_one x _ fun i _ => hx i

/-! ## The two takes' common part: the column of wrapped words and its range mask -/

/-- The column of index words after the wrap of the negative ones. -/
private def idxCol (a1 : IVec S512 32) : IVec S512x1 32 :=
  broadcastInDim S512x1 ![0] bcast_S512_S512x1_0
    (select (cmpi .slt a1 (broadcastInDim S512 ![] bcast_S_S512 (constantI S_ 32 0#32)))
      (addi a1 (broadcastInDim S512 ![] bcast_S_S512 (constantI S_ 32 50000#32))) a1)

/-- The bit "this wrapped word is a row number", per element of the column. -/
private def maskCol (a1 : IVec S512 32) : IVec S512x1 1 :=
  andi (cmpi .sge (idxCol a1) (broadcastInDim S512x1 ![] bcast_S_S512x1 (constantI S_ 32 0#32)))
    (cmpi .sle (idxCol a1) (broadcastInDim S512x1 ![0, 1] bcast_S1x1_S512x1_0_1
      (broadcastInDim S1x1 ![1] bcast_S1_S1x1_1 (constantI S1 32 49999#32))))

/-- The column at an index is the wrap of the index word of that row. -/
private theorem idxCol_apply (a1 : IVec S512 32) (i : S512x1.Idx) :
    idxCol a1 i = Spec.wrapWord (a1 (ix1 (i 0))) :=
  (bcast_axis0_apply bcast_S512_S512x1_0 _ i).trans (wrap_eq (a1 (ix1 (i 0))))

/-- With every index word a row number, the mask is 1 everywhere: the wrap leaves the word alone, and the word is
    between 0 and 49999. -/
private theorem maskCol_apply (a1 : IVec S512 32) (hr : InRange a1) (i : S512x1.Idx) : maskCol a1 i = 1#1 := by
  show IntOp.andi (IntOp.cmpi .sge (idxCol a1 i) 0#32) (IntOp.cmpi .sle (idxCol a1 i) 49999#32) = 1#1
  rw [idxCol_apply, wrapWord_of_nonneg _ (hr (i 0)).1]
  exact IntOp.andi_eq_one.2 ⟨(sge_zero_iff _).2 (hr (i 0)).1, (sle_top_iff _).2 (by have := (hr (i 0)).2; omega)⟩

/-! ## The takes at an element -/

theorem takeRows_apply (a7 : FVec F S50000x1024 .f32) (a1 : IVec S512 32) (hr : InRange a1) (j : Fin 512) (k : Fin 1024) :
    takeRows a7 a1 (ix2 j k) = a7 (ix2 (Spec.tgt a1 j) k) := by
  show Scalar.select
      (broadcastInDim S512x1024 ![0] bcast_S512_S512x1024_0
        (Host.reduce IntOp.andi (maskCol a1) (constantI S_ 1 1#1) reducesTo_S512x1_S512_d1 h_S_) (ix2 j k))
      (Host.gather gather_S50000x1024_S512x1_S512x1024_1_0_n_n_0_1_11024 a7 (idxCol a1) (ix2 j k)) _ = _
  rw [bcast_axis0_apply, reduce_andi_one _ _ _ (maskCol_apply a1 hr), select_one]
  refine (Cert.LibScatterGather.gather_rows_apply _ rfl rfl rfl rfl rfl rfl rfl a7 (idxCol a1) j k (by decide)).trans ?_
  refine congrArg (fun r => a7 (ix2 r k)) (Fin.ext ?_)
  show min (idxCol a1 (ix2 j (0 : Fin 1))).toInt.toNat (50000 - 1) = min (Spec.wrapWord (a1 (ix1 j))).toInt.toNat 49999
  rw [idxCol_apply]

theorem takeVec_apply (a8 : FVec F S50000 .f32) (a1 : IVec S512 32) (hr : InRange a1) (j : Fin 512) :
    takeVec a8 a1 (ix1 j) = a8 (ix1 (Spec.tgt a1 j)) := by
  show Scalar.select
      (Host.reduce IntOp.andi (maskCol a1) (constantI S_ 1 1#1) reducesTo_S512x1_S512_d1 h_S_ (ix1 j))
      (Host.gather gather_S50000_S512x1_S512_n_0_n_n_0_1_1 a8 (idxCol a1) (ix1 j)) _ = _
  rw [reduce_andi_one _ _ _ (maskCol_apply a1 hr), select_one]
  refine (Cert.LibGatherVec.gather_vec_apply _ rfl rfl rfl rfl rfl rfl rfl a8 (idxCol a1) j (by decide)).trans ?_
  refine congrArg (fun r => a8 (ix1 r)) (Fin.ext ?_)
  show min (idxCol a1 (ix2 j (0 : Fin 1))).toInt.toNat (50000 - 1) = min (Spec.wrapWord (a1 (ix1 j))).toInt.toNat 49999
  rw [idxCol_apply]

/-! ## The range out of the precondition -/

/-- The precondition's last two conjuncts say that every index word is at least 0 and below 50000, as signed words. -/
theorem inRange_of_pre [Cert.Pre_finite_inputs.Facts] (a0 : FVec F S512x50000 .f32) (a1 : IVec S512 32)
    (a2 : FVec F S1x512x1024 .f32) (a3 : FVec F S3072x50000 .f32) (a4 : FVec F S3072x1024 .f32)
    (a5 a6 : FVec F S3072 .f32) (a7 : FVec F S50000x1024 .f32) (a8 : FVec F S50000 .f32)
    (h : Cert.Pre_finite_inputs.fn (F := F) a0 a1 a2 a3 a4 a5 a6 a7 a8 = (fun _ => 1#1)) : InRange a1 := by
  haveI : Subsingleton (Cert.Pre_finite_inputs.S_).Idx := ⟨fun a b => funext fun d => d.elim0⟩
  have e := congrFun h ix0
  dsimp only [Cert.Pre_finite_inputs.fn, Cert.Pre_finite_inputs.fn_part1, Cert.Pre_finite_inputs.fn_part2] at e
  obtain ⟨e1, hlt⟩ := IntOp.andi_eq_one.1 e
  obtain ⟨-, hge⟩ := IntOp.andi_eq_one.1 e1
  intro j
  have h0 := Host.reduce_andi_all _ _ _ _ _ hge (ix1 j)
  have h1 := Host.reduce_andi_all _ _ _ _ _ hlt (ix1 j)
  exact ⟨(sge_zero_iff _).1 h0, (slt_size_iff _).1 h1⟩

end Cert.KernelIdeal.Hand

end
-- ==== Proof.SpecArr.lean ====
/-
  The two results as whole arrays over the specification: the projection `[512, 512]` and the new state `[1, 512, 1024]` as
  functions of an index, and the remark that an array equals one of them as soon as it does at every `ix2 b j` /
  `ix3 0 b k`.
-/
import proofs.«418008_j22720376995892_3_alg».proof.Proof.Spec

noncomputable section

namespace Cert.Spec

open Idealize.ShloMosaic Idealize.ShloMosaic.ValueIdx

/-- The projection as an array. -/
def logitArr (a0 : (⟨2, ![512, 50000]⟩ : Shape).Idx → EReal) (a1 : (⟨1, ![512]⟩ : Shape).Idx → BitVec 32)
    (a2 : (⟨3, ![1, 512, 1024]⟩ : Shape).Idx → EReal)
    (a3 : (⟨2, ![3072, 50000]⟩ : Shape).Idx → EReal) (a4 : (⟨2, ![3072, 1024]⟩ : Shape).Idx → EReal)
    (a5 a6 : (⟨1, ![3072]⟩ : Shape).Idx → EReal) (a7 : (⟨2, ![50000, 1024]⟩ : Shape).Idx → EReal)
    (a8 : (⟨1, ![50000]⟩ : Shape).Idx → EReal) : (⟨2, ![512, 512]⟩ : Shape).Idx → EReal :=
  fun i => lOut a0 a1 a2 a3 a4 a5 a6 a7 a8 (i 0) (i 1)

/-- The new state as an array. -/
def hnewArr (a0 : (⟨2, ![512, 50000]⟩ : Shape).Idx → EReal) (a2 : (⟨3, ![1, 512, 1024]⟩ : Shape).Idx → EReal)
    (a3 : (⟨2, ![3072, 50000]⟩ : Shape).Idx → EReal) (a4 : (⟨2, ![3072, 1024]⟩ : Shape).Idx → EReal)
    (a5 a6 : (⟨1, ![3072]⟩ : Shape).Idx → EReal) : (⟨3, ![1, 512, 1024]⟩ : Shape).Idx → EReal :=
  fun i => hOut a0 a2 a3 a4 a5 a6 (i 1) (i 2)

/-- An array that is the projection at every `(b, j)` is the projection. -/
theorem eq_logitArr {a0 a1 a2 a3 a4 a5 a6 a7 a8} (y : (⟨2, ![512, 512]⟩ : Shape).Idx → EReal)
    (h : ∀ (b j : Fin 512), y (ix2 b j) = lOut a0 a1 a2 a3 a4 a5 a6 a7 a8 b j) : y = logitArr a0 a1 a2 a3 a4 a5 a6 a7 a8 := by
  funext i
  obtain ⟨b, j, rfl⟩ : ∃ (b j : Fin 512), i = ix2 b j := ⟨i 0, i 1, eq_ix2 i⟩
  exact h b j

/-- An array that is the new state at every `(0, b, k)` is the new state. -/
theorem eq_hnewArr {a0 a2 a3 a4 a5 a6} (y : (⟨3, ![1, 512, 1024]⟩ : Shape).Idx → EReal)
    (h : ∀ (b : Fin 512) (k : Fin 1024), y (ix3 (0 : Fin 1) b k) = hOut a0 a2 a3 a4 a5 a6 b k) : y = hnewArr a0 a2 a3 a4 a5 a6 := by
  funext i
  obtain ⟨z, b, k, rfl⟩ : ∃ (z : Fin 1) (b : Fin 512) (k : Fin 1024), i = ix3 z b k := ⟨i 0, i 1, i 2, eq_ix3 i⟩
  obtain rfl : z = 0 := Subsingleton.elim _ _
  exact h b k

/-- The first program's three pieces of the input pre-activation — the two halves' running sums over the blocks and the tail —
    are the whole column sum plus the bias, when the summand `f` is the product of the two entries of column `v`. -/
theorem gi_of_pieces (x : Fin 512 → Fin 50000 → EReal) (W : Fin 3072 → Fin 50000 → EReal) (bi : Fin 3072 → EReal)
    (b : Fin 512) (j : Fin 3072) (f : ℕ → EReal) (hf : ∀ v : Fin 50000, f v.val = x b v * W j v) :
    (runSum f (bi j) 0 38 + runSum f 0 1 38) + tailSum f = gi x W bi b j := by
  rw [gi_split]
  unfold gi
  exact congrArg (· + bi j) (Finset.sum_congr rfl fun v _ => hf v)

end Cert.Spec

end
-- ==== Proof.KIReads.lean ====
/-
  The arrays the kernel program's second region reads, at an index, in terms of the launch arrays (at the ideal instance):
  the old state and the biases are re-laid launch arrays, the tail columns are columns 49920 … 49999 of the input rows and
  weights, and — every index word being a row number — row `j` of the gathered output weights is row `tgt j` of the output
  weights, entry `j` of the gathered bias entry `tgt j` of the output bias.
-/
import proofs.«418008_j22720376995892_3_alg».proof.Proof.KITransport
import proofs.«418008_j22720376995892_3_alg».proof.Proof.KITakes
import proofs.«418008_j22720376995892_3_alg».proof.Proof.SpecArr
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (ρ : Dev nD → PrngReg)

theorem V6_v0_at (c : Dev nD) (b : Fin 512) (k : Fin 1024) :
    (V6 m ρ c main_v0 : S512x1024.Idx → EReal) (ix2 b k) = m ((c : Thread nD τ).loc main_arg2) (ix3 (0 : Fin 1) b k) :=
  (congrFun (V6_v0 m ρ c) (ix2 b k)).trans (reshape_hid (F := Ideal) (m ((c : Thread nD τ).loc main_arg2)) b k)

theorem V1_v1_at (c : Dev nD) (j : Fin 3072) :
    (V1 m ρ c main_v1 : S1x3072.Idx → EReal) (ix2 (0 : Fin 1) j) = m ((c : Thread nD τ).loc main_arg5) (ix1 j) :=
  (congrFun (V1_v1 m ρ c) (ix2 (0 : Fin 1) j)).trans (reshape_row3072 (F := Ideal) (m ((c : Thread nD τ).loc main_arg5)) j)

theorem V6_v7_at (c : Dev nD) (j : Fin 3072) :
    (V6 m ρ c main_v7 : S1x3072.Idx → EReal) (ix2 (0 : Fin 1) j) = m ((c : Thread nD τ).loc main_arg6) (ix1 j) :=
  (congrFun (V6_v7 m ρ c) (ix2 (0 : Fin 1) j)).trans (reshape_row3072 (F := Ideal) (m ((c : Thread nD τ).loc main_arg6)) j)

theorem V6_v3_at (c : Dev nD) (b : Fin 512) (l : Fin 80) :
    (V6 m ρ c main_v3 : S512x80.Idx → EReal) (ix2 b l) = m ((c : Thread nD τ).loc main_arg0) (ix2 b ⟨49920 + l.val, by omega⟩) :=
  (congrFun (V6_v3 m ρ c) (ix2 b l)).trans (slice_x (F := Ideal) (m ((c : Thread nD τ).loc main_arg0)) b l)

theorem V6_v4_at (c : Dev nD) (j : Fin 3072) (l : Fin 80) :
    (V6 m ρ c main_v4 : S3072x80.Idx → EReal) (ix2 j l) = m ((c : Thread nD τ).loc main_arg3) (ix2 j ⟨49920 + l.val, by omega⟩) :=
  (congrFun (V6_v4 m ρ c) (ix2 j l)).trans (slice_w (F := Ideal) (m ((c : Thread nD τ).loc main_arg3)) j l)

theorem V6_v5_at (c : Dev nD) (hr : InRange (m ((c : Thread nD τ).loc main_arg1))) (j : Fin 512) (k : Fin 1024) :
    (V6 m ρ c main_v5 : S512x1024.Idx → EReal) (ix2 j k)
      = m ((c : Thread nD τ).loc main_arg7) (ix2 (Spec.tgt (m ((c : Thread nD τ).loc main_arg1)) j) k) :=
  (congrFun (V6_v5 m ρ c) (ix2 j k)).trans (takeRows_apply (F := Ideal) (m ((c : Thread nD τ).loc main_arg7)) (m ((c : Thread nD τ).loc main_arg1)) hr j k)

theorem V6_v8_at (c : Dev nD) (hr : InRange (m ((c : Thread nD τ).loc main_arg1))) (j : Fin 512) :
    (V6 m ρ c main_v8 : S1x512.Idx → EReal) (ix2 (0 : Fin 1) j)
      = m ((c : Thread nD τ).loc main_arg8) (ix1 (Spec.tgt (m ((c : Thread nD τ).loc main_arg1)) j)) :=
  (congrFun (V6_v8 m ρ c) (ix2 (0 : Fin 1) j)).trans ((reshape_row512 (F := Ideal) (takeVec (F := Ideal) (m ((c : Thread nD τ).loc main_arg8)) (m ((c : Thread nD τ).loc main_arg1))) j).trans (takeVec_apply (F := Ideal) (m ((c : Thread nD τ).loc main_arg8)) (m ((c : Thread nD τ).loc main_arg1)) hr j))

theorem W8_v10_at (c : Dev nD) (b : Fin 512) (k : Fin 1024) :
    (W8 m ρ c (Proc.devRef .tc main_v10) : S1x512x1024.Idx → EReal) (ix3 (0 : Fin 1) b k)
      = ((dat1 (V6 m ρ) c).arrAt 8 cfg1.N : S512x1024.Idx → EReal) (ix2 b k) :=
  (congrFun (W8_v10 m ρ c) (ix3 (0 : Fin 1) b k)).trans (bcast_hid (F := Ideal) ((dat1 (V6 m ρ) c).arrAt 8 cfg1.N) b k)

end Cert.KernelIdeal.Hand

end
-- ==== Proof.KIValue0.lean ====
/-
  What the first kernel region leaves in its output array, in closed form, over the extended reals.

  The region adds up the product x Wᵀ in blocks of 640 columns, 39 blocks to each of two halves. Write f(v) = x[b, v] · W[j, v]
  for the summand of column v at output position (b, j). At point 39 n + k of the grid the two input buffers hold columns
  640 (39 n + k), …, 640 (39 n + k) + 639 of x and of W, so the body's product at (b, j) is block 39 n + k of the column sum,
  ∑ₗ f (640 (39 n + k) + l). The output buffer starts a half at the bias row (n = 0) or at zero (n = 1) and has one block
  added at every point; after block k of half n it therefore holds the half's running sum (Spec.runSum), by induction on k.
  The buffer is written back after the last point of each half into block n of the [2, 512, 3072] array, and the two blocks
  are disjoint, so the array ends holding, at (n, b, j), the running sum of half n after its block 38.

  The steps, in order: the two stored values of the body read at an index (a select on the half, a broadcast row, a zero
  splat and unit-axis casts; a product contracted on the second axis of both operands, read as a plain sum); the three
  input blocks read at an index (a block's coordinate in its array is the block index times the block size plus the
  coordinate inside the block, and no visited block is cut); the invariant; the array.
-/
import proofs.«418008_j22720376995892_3_alg».proof.Proof.KIRegion0
import proofs.«418008_j22720376995892_3_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

variable (V : (c : Dev nD) → (b : Ref sig .tc) → Buf (Elt Ideal) ((c : Thread nD τ).loc b))

/-- The start value at an index: the bias row in the first half, zero in the second. -/
private theorem k0_pay1_apply (i : grid0.Coords) (x2 : Vec Ideal S1x3072 .f32) (b : Fin 512) (j : Fin 3072) :
    k0_pay1 (F := Ideal) i x2 (ix3 (0 : Fin 1) b j) = if (i 0).val = 0 then x2 (ix2 (0 : Fin 1) j) else 0 := by
  unfold k0_pay1
  dsimp only
  rw [shapeCast_ab_1ab_apply]
  have hi : (i 0).val < 2 := (i 0).isLt
  refine (congrFun (select_eq0 (i 0).val hi _ _) (ix2 b j)).trans ?_
  split
  · rw [broadcastTo_1b_ab_apply, shapeCast_self, shapeCast_self]
  · show Ideal.ofBits .f32 0x00000000#32 = 0
    exact Ideal.ofBits_zero_f32

/-! ## The product's operand indices

The block product contracts axis 1 of both operands: at output index (r, c) and contraction position q the left
operand is read at (r, q) and the right at (c, q). -/

private theorem dot0_lhs_0 (i : S512x3072.Idx) (q : dot_S512x640_S3072x640_S512x3072_1_1_0_0_n_n.contr.Idx) :
    (dot_S512x640_S3072x640_S512x3072_1_1_0_0_n_n.lhsIdx i q 0).val = (i 0).val := by
  unfold DotDims.lhsIdx
  rw [dif_neg (show ¬(0 : Fin S512x640.rank) ∈ dot_S512x640_S3072x640_S512x3072_1_1_0_0_n_n.lhsBatch by decide),
    dif_pos (show (0 : Fin S512x640.rank) ∈ dot_S512x640_S3072x640_S512x3072_1_1_0_0_n_n.lhsNonContracting by decide)]
  rfl
private theorem dot0_lhs_1 (i : S512x3072.Idx) (q : dot_S512x640_S3072x640_S512x3072_1_1_0_0_n_n.contr.Idx) :
    (dot_S512x640_S3072x640_S512x3072_1_1_0_0_n_n.lhsIdx i q 1).val = (q ⟨0, by decide⟩).val :=
  dot_S512x640_S3072x640_S512x3072_1_1_0_0_n_n.lhsIdx_val_of_single rfl i q
private theorem dot0_rhs_0 (i : S512x3072.Idx) (q : dot_S512x640_S3072x640_S512x3072_1_1_0_0_n_n.contr.Idx) :
    (dot_S512x640_S3072x640_S512x3072_1_1_0_0_n_n.rhsIdx i q 0).val = (i 1).val := by
  unfold DotDims.rhsIdx
  rw [dif_neg (show ¬(0 : Fin S3072x640.rank) ∈ dot_S512x640_S3072x640_S512x3072_1_1_0_0_n_n.rhsBatch by decide),
    dif_pos (show (0 : Fin S3072x640.rank) ∈ dot_S512x640_S3072x640_S512x3072_1_1_0_0_n_n.rhsNonContracting by decide)]
  rfl
private theorem dot0_rhs_1 (i : S512x3072.Idx) (q : dot_S512x640_S3072x640_S512x3072_1_1_0_0_n_n.contr.Idx) :
    (dot_S512x640_S3072x640_S512x3072_1_1_0_0_n_n.rhsIdx i q 1).val = (q ⟨0, by decide⟩).val :=
  dot_S512x640_S3072x640_S512x3072_1_1_0_0_n_n.rhsIdx_val_of_single rfl i q

/-- The accumulation step at an index: what the buffer held plus the 640 products of the two blocks' rows. -/
private theorem k0_pay2_apply (x0 : Vec Ideal S512x640 .f32) (x1 : Vec Ideal S3072x640 .f32) (acc : Vec Ideal S1x512x3072 .f32)
    (b : Fin 512) (j : Fin 3072) :
    k0_pay2 (F := Ideal) x0 x1 acc (ix3 (0 : Fin 1) b j)
      = acc (ix3 (0 : Fin 1) b j) + ∑ l : Fin 640, x0 (ix2 b l) * x1 (ix2 j l) := by
  unfold k0_pay2
  rw [shapeCast_ab_1ab_apply, addf_apply, shapeCast_1ab_ab_apply]
  congr 1
  simp only [matmul]
  rw [Ideal.matmul_constant_zero_apply,
    ← Equiv.sum_comp (contrEquiv1 dot_S512x640_S3072x640_S512x3072_1_1_0_0_n_n 640 rfl rfl).symm]
  refine Finset.sum_congr rfl fun l _ => ?_
  have hl := contrEquiv1_symm_val dot_S512x640_S3072x640_S512x3072_1_1_0_0_n_n 640 rfl rfl l
  have el : dot_S512x640_S3072x640_S512x3072_1_1_0_0_n_n.lhsIdx (ix2 b j)
      ((contrEquiv1 dot_S512x640_S3072x640_S512x3072_1_1_0_0_n_n 640 rfl rfl).symm l) = ix2 b l :=
    funext fun a => Fin.ext (by
      match a with
      | ⟨0, _⟩ => exact dot0_lhs_0 _ _
      | ⟨1, _⟩ => exact (dot0_lhs_1 _ _).trans hl)
  have er : dot_S512x640_S3072x640_S512x3072_1_1_0_0_n_n.rhsIdx (ix2 b j)
      ((contrEquiv1 dot_S512x640_S3072x640_S512x3072_1_1_0_0_n_n 640 rfl rfl).symm l) = ix2 j l :=
    funext fun a => Fin.ext (by
      match a with
      | ⟨0, _⟩ => exact dot0_rhs_0 _ _
      | ⟨1, _⟩ => exact (dot0_rhs_1 _ _).trans hl)
  rw [el, er]
  rfl

/-! ## The windows' blocks at an index -/

/-- An uncut fill reads the fetched block at the same coordinates. -/
private theorem fill_apply_of_clip_none {G : Pipeline.Grid} (w : Window sig G) (i : G.Coords) (h : ∀ a, w.clip i a = none)
    {α : Type} (d : w.block.Idx → α) (g : (w.xblock i).Idx → α) (j : w.block.Idx) :
    w.fill i d g j = g (fun a => ⟨(j a).val, by
      show (j a).val < (w.clip i a).extent (w.size a); rw [h a]; exact (j a).isLt⟩) := by
  have hm : w.moved i j = true :=
    (w.moved_iff i j).mpr fun a => by have := (j a).isLt; unfold Window.xsize; rw [h a]; exact this
  unfold Window.fill; rw [dif_pos hm]

/-- The printed index maps over the grid: the two input windows' column block is the point's position, their row block 0;
    the output's block is the half. -/
private theorem idx0_0 : ∀ t : Fin cfg0.N, win0_0.index t 0 = 0 ∧ win0_0.index t 1 = t.val :=
  (by decide +kernel : ∀ t : Fin grid0.N, win0_0.index t 0 = 0 ∧ win0_0.index t 1 = t.val)
private theorem idx0_1 : ∀ t : Fin cfg0.N, win0_1.index t 0 = 0 ∧ win0_1.index t 1 = t.val :=
  (by decide +kernel : ∀ t : Fin grid0.N, win0_1.index t 0 = 0 ∧ win0_1.index t 1 = t.val)
private theorem idx0_2 : ∀ t : Fin cfg0.N, win0_2.index t 0 = 0 ∧ win0_2.index t 1 = 0 :=
  (by decide +kernel : ∀ t : Fin grid0.N, win0_2.index t 0 = 0 ∧ win0_2.index t 1 = 0)
private theorem idx0_3 : ∀ t : Fin cfg0.N, win0_3.index t 0 = t.val / 39 ∧ win0_3.index t 1 = 0 ∧ win0_3.index t 2 = 0 :=
  (by decide +kernel : ∀ t : Fin grid0.N, win0_3.index t 0 = t.val / 39 ∧ win0_3.index t 1 = 0 ∧ win0_3.index t 2 = 0)
/-- The first grid coordinate is the half. -/
private theorem coord0_0 : ∀ t : Fin cfg0.N, (grid0.coords t 0).val = t.val / 39 :=
  (by decide +kernel : ∀ t : Fin grid0.N, (grid0.coords t 0).val = t.val / 39)

private theorem col_lt (t : Fin cfg0.N) (l : Fin 640) : t.val * 640 + l.val < 50000 := by
  have hN : cfg0.N = 78 := Gen.N_0
  have := t.isLt; have := l.isLt; omega

/-- The x block at point t: columns 640 t, …, 640 t + 639 of x. -/
private theorem xb0_apply (c : Dev nD) (t : Fin cfg0.N) (b : Fin 512) (l : Fin 640) :
    xb0 V c t (ix2 b l) = V c main_arg0 (ix2 b ⟨t.val * 640 + l.val, col_lt t l⟩) := by
  unfold xb0
  rw [fill_apply_of_clip_none win0_0 (grid0.coords t) (clip0_0 t)]
  unfold iblk0
  rw [View.read_apply]
  show V c main_arg0 _ = V c main_arg0 _
  congr 1
  obtain ⟨e0, e1⟩ := idx0_0 t
  funext a; apply Fin.ext
  match a with
  | ⟨0, _⟩ => show win0_0.index t 0 * 512 + 1 * b.val = b.val; rw [e0]; omega
  | ⟨1, _⟩ => show win0_0.index t 1 * 640 + 1 * l.val = t.val * 640 + l.val; rw [e1]; omega

/-- The W block at point t: columns 640 t, …, 640 t + 639 of W. -/
private theorem wb0_apply (c : Dev nD) (t : Fin cfg0.N) (j : Fin 3072) (l : Fin 640) :
    wb0 V c t (ix2 j l) = V c main_arg3 (ix2 j ⟨t.val * 640 + l.val, col_lt t l⟩) := by
  unfold wb0
  rw [fill_apply_of_clip_none win0_1 (grid0.coords t) (clip0_1 t)]
  unfold iblk0
  rw [View.read_apply]
  show V c main_arg3 _ = V c main_arg3 _
  congr 1
  obtain ⟨e0, e1⟩ := idx0_1 t
  funext a; apply Fin.ext
  match a with
  | ⟨0, _⟩ => show win0_1.index t 0 * 3072 + 1 * j.val = j.val; rw [e0]; omega
  | ⟨1, _⟩ => show win0_1.index t 1 * 640 + 1 * l.val = t.val * 640 + l.val; rw [e1]; omega

/-- The bias block at every point: the whole bias row. -/
private theorem bb0_apply (c : Dev nD) (t : Fin cfg0.N) (j : Fin 3072) :
    bb0 V c t (ix2 (0 : Fin 1) j) = V c main_v1 (ix2 (0 : Fin 1) j) := by
  unfold bb0 iblk0
  rw [View.read_apply]
  show V c main_v1 _ = V c main_v1 _
  congr 1
  obtain ⟨e0, e1⟩ := idx0_2 t
  funext a; apply Fin.ext
  match a with
  | ⟨0, _⟩ => show win0_2.index t 0 * 1 + 1 * 0 = 0; rw [e0]
  | ⟨1, _⟩ => show win0_2.index t 1 * 3072 + 1 * j.val = j.val; rw [e1]; omega

/-- the summand of column v of the product at (b, j): x[b, v] · W[j, v] (0 past the last column) -/
def colTerm (c : Dev nD) (b : Fin 512) (j : Fin 3072) : ℕ → EReal :=
  fun v => if h : v < 50000 then @HMul.hMul EReal EReal EReal _ (V c main_arg0 (ix2 b ⟨v, h⟩)) (V c main_arg3 (ix2 j ⟨v, h⟩)) else 0

/-- The 640 products of the two blocks at point t are block t of the column sum. -/
private theorem block_sum0 (c : Dev nD) (t : Fin cfg0.N) (b : Fin 512) (j : Fin 3072) :
    ∑ l : Fin 640, xb0 V c t (ix2 b l) * wb0 V c t (ix2 j l) = Spec.blockSum (colTerm V c b j) t.val := by
  unfold Spec.blockSum
  refine Finset.sum_congr rfl fun l _ => ?_
  rw [xb0_apply, wb0_apply]
  unfold colTerm
  rw [dif_pos (col_lt t l)]

/-- The value a half starts from at column j: the bias in the first half, zero in the second. -/
private def start0 (c : Dev nD) (n : ℕ) (j : Fin 3072) : EReal := if n = 0 then V c main_v1 (ix2 (0 : Fin 1) j) else 0

/-- The accumulator does not depend on how its point is written. -/
private theorem acc0_congr (c : Dev nD) {m m' : ℕ} (e : m = m') (h : m < cfg0.N) (h' : m' < cfg0.N) :
    acc0 V c m h = acc0 V c m' h' := by subst e; rfl

/-- THE INVARIANT: after block k of half n the output buffer holds the half's running sum. -/
private theorem acc0_apply (c : Dev nD) (b : Fin 512) (j : Fin 3072) (n : ℕ) (hn : n < 2) :
    ∀ (k : ℕ) (hk : k < 39) (h : 39 * n + k < cfg0.N),
      acc0 V c (39 * n + k) h (ix3 (0 : Fin 1) b j) = Spec.runSum (colTerm V c b j) (start0 V c n j) n k
  | 0, _, h => by
    have hm : (⟨39 * n + 0, h⟩ : Fin cfg0.N).val % 39 = 0 := by show (39 * n + 0) % 39 = 0; omega
    refine (congrFun (acc0_first V c ⟨39 * n + 0, h⟩ hm) _).trans ?_
    rw [k0_pay2_apply, k0_pay1_apply, bb0_apply, block_sum0]
    have hc : (grid0.coords ⟨39 * n + 0, h⟩ 0).val = n := by
      rw [coord0_0]; show (39 * n + 0) / 39 = n; omega
    rw [hc]
    rfl
  | k + 1, hk, h => by
    have hm : ¬(⟨39 * n + (k + 1), h⟩ : Fin cfg0.N).val % 39 = 0 := by show ¬(39 * n + (k + 1)) % 39 = 0; omega
    refine (congrFun (acc0_later V c ⟨39 * n + (k + 1), h⟩ hm) _).trans ?_
    rw [k0_pay2_apply, block_sum0]
    rw [acc0_congr V c (show (⟨39 * n + (k + 1), h⟩ : Fin cfg0.N).val - 1 = 39 * n + k by show 39 * n + (k + 1) - 1 = 39 * n + k; omega) _
      (Nat.lt_of_succ_lt h), acc0_apply c b j n hn k (Nat.lt_of_succ_lt hk) (Nat.lt_of_succ_lt h)]
    rfl

/-! ## The output array after the region -/

/-- What the output array ends holding: at (n, b, j) the running sum of half n after its last block. -/
private def G0 (c : Dev nD) : S2x512x3072.Idx → EReal :=
  fun i => Spec.runSum (colTerm V c (i 1) (i 2)) (start0 V c (i 0).val (i 2)) (i 0).val 38

private theorem G0_apply (c : Dev nD) (n : Fin 2) (b : Fin 512) (j : Fin 3072) :
    G0 V c (ix3 n b j) = Spec.runSum (colTerm V c b j) (start0 V c n.val j) n.val 38 := rfl

private theorem half_lt (t : Fin cfg0.N) : t.val / 39 < 2 := by
  have hN : cfg0.N = 78 := Gen.N_0
  have := t.isLt; omega

/-- What the last point of a half leaves in the output buffer is that half's final running sum. -/
private theorem acc0_last (c : Dev nD) (t : Fin cfg0.N) (h38 : t.val % 39 = 38) (u : Fin 1) (b : Fin 512) (j : Fin 3072) :
    acc0 V c t.val t.isLt (ix3 u b j) = G0 V c (ix3 (⟨t.val / 39, half_lt t⟩ : Fin 2) b j) := by
  obtain rfl : u = 0 := Fin.ext (by omega)
  have e : t.val = 39 * (t.val / 39) + 38 := by omega
  rw [acc0_congr V c e t.isLt (e ▸ t.isLt),
    acc0_apply V c b j (t.val / 39) (half_lt t) 38 (by omega) (e ▸ t.isLt), G0_apply]

/-- WHAT A HALF'S LAST POINT WRITES BACK is its block of that array. -/
private theorem flushed0_3_eq (c : Dev nD) (t : Fin cfg0.N) (hf : (cfg0.win 3).flush t = true) :
    (dat0 V c).flushed 3 t = ((cfg0.win 3).blk t).view.read (Elt Ideal) (G0 V c) := by
  have h38 : t.val % 39 = 38 := (Gen.flush0_3 t).mp hf
  show (cfg0.win 3).cut (grid0.coords t) ((dat0 V c).after 3 t) = _
  rw [after0_3]
  funext y
  obtain ⟨u, b, j, rfl⟩ : ∃ (u : Fin 1) (b : Fin 512) (j : Fin 3072), y = ix3 u b j :=
    ⟨y 0, y 1, y 2, @eq_ix3 1 512 3072 y⟩
  rw [View.read_apply]
  refine (acc0_last V c t h38 u b j).trans ?_
  show G0 V c _ = G0 V c _
  congr 1
  obtain ⟨e0, e1, e2⟩ := idx0_3 t
  funext a; apply Fin.ext
  match a with
  | ⟨0, _⟩ => show t.val / 39 = win0_3.index t 0 * 1 + 1 * u.val; rw [e0]; omega
  | ⟨1, _⟩ => show b.val = win0_3.index t 1 * 512 + 1 * b.val; rw [e1]; omega
  | ⟨2, _⟩ => show j.val = win0_3.index t 2 * 3072 + 1 * j.val; rw [e2]; omega

/-- An index of the output array lies in point t's block iff each coordinate lies in the block's range on its axis. -/
private theorem mem_blk0_3 (t : Fin cfg0.N) (i : S2x512x3072.Idx) :
    i ∈ ((cfg0.win 3).blk t).view.set
      ↔ ∀ a : Fin 3, win0_3.index t a * S1x512x3072.size a ≤ (i a).val
          ∧ (i a).val < win0_3.index t a * S1x512x3072.size a + S1x512x3072.size a := by
  show i ∈ ((View.whole main_v2).slice (win0_3.rect t)).set ↔ _
  rw [View.set_slice_whole, Rect.mem_set_unit]
  exact Iff.rfl

/-- THE ARRAY after the region: block n of the output is what the last point of half n wrote back, the half's start value
    plus its 39 blocks of the column sum. -/
theorem gi_half_apply (c : Dev nD) (n : Fin 2) (b : Fin 512) (j : Fin 3072) :
    (dat0 V c).arrAt 3 cfg0.N (ix3 n b j)
      = Spec.runSum (colTerm V c b j) (if n.val = 0 then V c main_v1 (ix2 (0 : Fin 1) j) else 0) n.val 38 := by
  have hN : cfg0.N = 78 := Gen.N_0
  have hn := n.isLt
  have ht : 39 * n.val + 38 < cfg0.N := by omega
  have hf : (cfg0.win 3).flush ⟨39 * n.val + 38, ht⟩ = true :=
    (Gen.flush0_3 _).mpr (by show (39 * n.val + 38) % 39 = 38; omega)
  refine ((dat0 V c).arrAt_apply_of_mem 3 (G0 V c) (flushed0_3_eq V c) cfg0.N ⟨39 * n.val + 38, ht⟩ (ix3 n b j) ht hf
    ?_).trans ?_
  · rw [mem_blk0_3]
    obtain ⟨e0, e1, e2⟩ := idx0_3 ⟨39 * n.val + 38, ht⟩
    have e0' : win0_3.index ⟨39 * n.val + 38, ht⟩ 0 = n.val := by
      rw [e0]; show (39 * n.val + 38) / 39 = n.val; omega
    have hb := b.isLt
    have hj := j.isLt
    intro a
    match a with
    | ⟨0, _⟩ =>
      show win0_3.index ⟨39 * n.val + 38, ht⟩ 0 * 1 ≤ n.val ∧ n.val < win0_3.index ⟨39 * n.val + 38, ht⟩ 0 * 1 + 1
      rw [e0']; omega
    | ⟨1, _⟩ =>
      show win0_3.index ⟨39 * n.val + 38, ht⟩ 1 * 512 ≤ b.val ∧ b.val < win0_3.index ⟨39 * n.val + 38, ht⟩ 1 * 512 + 512
      rw [e1]; omega
    | ⟨2, _⟩ =>
      show win0_3.index ⟨39 * n.val + 38, ht⟩ 2 * 3072 ≤ j.val ∧ j.val < win0_3.index ⟨39 * n.val + 38, ht⟩ 2 * 3072 + 3072
      rw [e2]; omega
  · rw [G0_apply]
    rfl

end Cert.KernelIdeal.Hand

end
-- ==== Proof.KIValue1Pay.lean ====
/-
  The second kernel region's body at the ideal values, read at one element: what the body computes for a block of 64
  batch rows, as extended reals, at row p and one column.

  From the blocks it loads — the two halves of the partial input product, the old state, the tail columns of x and
  of W, the hidden weights and bias — the body forms the input pre-activation (the two halves added, plus the product
  over the 80 tail columns) and the hidden pre-activation (the old state against the hidden weights, plus the bias),
  takes the reset, update and candidate gates from their three column blocks of width 1024, and blends the candidate
  with the old state; the projection is the new state against the gathered output weights, plus the gathered bias,
  through tanh. Format changes are the identity on extended reals, and each product into a zero accumulator is a
  plain sum over the contracted coordinate.
-/
import proofs.«418008_j22720376995892_3_alg».proof.Proof.KIRegion1
import proofs.«418008_j22720376995892_3_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

/-! ## The three products at an index -/

/-! The product of a 64 × 80 block with the transpose of a 3072 × 80 one (both contracted on their second axis):
    which element of each operand the dot reads at output index (p, q) and contraction coordinate k. -/
private theorem mmT_lhs_0 (i : S64x3072.Idx) (q : dot_S64x80_S3072x80_S64x3072_1_1_0_0_n_n.contr.Idx) :
    (dot_S64x80_S3072x80_S64x3072_1_1_0_0_n_n.lhsIdx i q 0).val = (i 0).val := by
  unfold DotDims.lhsIdx
  rw [dif_neg (show ¬(0 : Fin S64x80.rank) ∈ dot_S64x80_S3072x80_S64x3072_1_1_0_0_n_n.lhsBatch by decide), dif_pos (show (0 : Fin S64x80.rank) ∈ dot_S64x80_S3072x80_S64x3072_1_1_0_0_n_n.lhsNonContracting by decide)]
  rfl
private theorem mmT_lhs_1 (i : S64x3072.Idx) (q : dot_S64x80_S3072x80_S64x3072_1_1_0_0_n_n.contr.Idx) :
    (dot_S64x80_S3072x80_S64x3072_1_1_0_0_n_n.lhsIdx i q 1).val = (q ⟨0, by decide⟩).val :=
  dot_S64x80_S3072x80_S64x3072_1_1_0_0_n_n.lhsIdx_val_of_single rfl i q
private theorem mmT_rhs_0 (i : S64x3072.Idx) (q : dot_S64x80_S3072x80_S64x3072_1_1_0_0_n_n.contr.Idx) :
    (dot_S64x80_S3072x80_S64x3072_1_1_0_0_n_n.rhsIdx i q 0).val = (i 1).val := by
  unfold DotDims.rhsIdx
  rw [dif_neg (show ¬(0 : Fin S3072x80.rank) ∈ dot_S64x80_S3072x80_S64x3072_1_1_0_0_n_n.rhsBatch by decide), dif_pos (show (0 : Fin S3072x80.rank) ∈ dot_S64x80_S3072x80_S64x3072_1_1_0_0_n_n.rhsNonContracting by decide)]
  rfl
private theorem mmT_rhs_1 (i : S64x3072.Idx) (q : dot_S64x80_S3072x80_S64x3072_1_1_0_0_n_n.contr.Idx) :
    (dot_S64x80_S3072x80_S64x3072_1_1_0_0_n_n.rhsIdx i q 1).val = (q ⟨0, by decide⟩).val :=
  dot_S64x80_S3072x80_S64x3072_1_1_0_0_n_n.rhsIdx_val_of_single rfl i q

/-- Into a zero accumulator the product at (p, q) is the sum over k of the left operand at (p, k) times the right at (q, k). -/
private theorem mmT_apply {φ₁ φ₂ : FTy} (a : FVec Ideal S64x80 φ₁) (b : FVec Ideal S3072x80 φ₂) (p : Fin 64) (q : Fin 3072) :
    matmul dot_S64x80_S3072x80_S64x3072_1_1_0_0_n_n none a b (constant S64x3072 .f32 0x00000000#32) (ix2 p q)
      = ∑ k : Fin 80, a (ix2 p k) * b (ix2 q k) := by
  simp only [matmul]
  rw [Ideal.matmul_constant_zero_apply, ← Equiv.sum_comp (contrEquiv1 dot_S64x80_S3072x80_S64x3072_1_1_0_0_n_n 80 rfl rfl).symm]
  refine Finset.sum_congr rfl fun k _ => ?_
  have hk := contrEquiv1_symm_val dot_S64x80_S3072x80_S64x3072_1_1_0_0_n_n 80 rfl rfl k
  have el : dot_S64x80_S3072x80_S64x3072_1_1_0_0_n_n.lhsIdx (ix2 p q) ((contrEquiv1 dot_S64x80_S3072x80_S64x3072_1_1_0_0_n_n 80 rfl rfl).symm k) = ix2 p k := funext fun x => Fin.ext (by
    match x with
    | ⟨0, _⟩ => exact mmT_lhs_0 _ _
    | ⟨1, _⟩ => exact (mmT_lhs_1 _ _).trans hk)
  have er : dot_S64x80_S3072x80_S64x3072_1_1_0_0_n_n.rhsIdx (ix2 p q) ((contrEquiv1 dot_S64x80_S3072x80_S64x3072_1_1_0_0_n_n 80 rfl rfl).symm k) = ix2 q k := funext fun x => Fin.ext (by
    match x with
    | ⟨0, _⟩ => exact mmT_rhs_0 _ _
    | ⟨1, _⟩ => exact (mmT_rhs_1 _ _).trans hk)
  rw [el, er]

/-! The product of a 64 × 1024 block with the transpose of a 3072 × 1024 one (both contracted on their second axis):
    which element of each operand the dot reads at output index (p, q) and contraction coordinate k. -/
private theorem mmH_lhs_0 (i : S64x3072.Idx) (q : dot_S64x1024_S3072x1024_S64x3072_1_1_0_0_n_n.contr.Idx) :
    (dot_S64x1024_S3072x1024_S64x3072_1_1_0_0_n_n.lhsIdx i q 0).val = (i 0).val := by
  unfold DotDims.lhsIdx
  rw [dif_neg (show ¬(0 : Fin S64x1024.rank) ∈ dot_S64x1024_S3072x1024_S64x3072_1_1_0_0_n_n.lhsBatch by decide), dif_pos (show (0 : Fin S64x1024.rank) ∈ dot_S64x1024_S3072x1024_S64x3072_1_1_0_0_n_n.lhsNonContracting by decide)]
  rfl
private theorem mmH_lhs_1 (i : S64x3072.Idx) (q : dot_S64x1024_S3072x1024_S64x3072_1_1_0_0_n_n.contr.Idx) :
    (dot_S64x1024_S3072x1024_S64x3072_1_1_0_0_n_n.lhsIdx i q 1).val = (q ⟨0, by decide⟩).val :=
  dot_S64x1024_S3072x1024_S64x3072_1_1_0_0_n_n.lhsIdx_val_of_single rfl i q
private theorem mmH_rhs_0 (i : S64x3072.Idx) (q : dot_S64x1024_S3072x1024_S64x3072_1_1_0_0_n_n.contr.Idx) :
    (dot_S64x1024_S3072x1024_S64x3072_1_1_0_0_n_n.rhsIdx i q 0).val = (i 1).val := by
  unfold DotDims.rhsIdx
  rw [dif_neg (show ¬(0 : Fin S3072x1024.rank) ∈ dot_S64x1024_S3072x1024_S64x3072_1_1_0_0_n_n.rhsBatch by decide), dif_pos (show (0 : Fin S3072x1024.rank) ∈ dot_S64x1024_S3072x1024_S64x3072_1_1_0_0_n_n.rhsNonContracting by decide)]
  rfl
private theorem mmH_rhs_1 (i : S64x3072.Idx) (q : dot_S64x1024_S3072x1024_S64x3072_1_1_0_0_n_n.contr.Idx) :
    (dot_S64x1024_S3072x1024_S64x3072_1_1_0_0_n_n.rhsIdx i q 1).val = (q ⟨0, by decide⟩).val :=
  dot_S64x1024_S3072x1024_S64x3072_1_1_0_0_n_n.rhsIdx_val_of_single rfl i q

/-- Into a zero accumulator the product at (p, q) is the sum over k of the left operand at (p, k) times the right at (q, k). -/
private theorem mmH_apply {φ₁ φ₂ : FTy} (a : FVec Ideal S64x1024 φ₁) (b : FVec Ideal S3072x1024 φ₂) (p : Fin 64) (q : Fin 3072) :
    matmul dot_S64x1024_S3072x1024_S64x3072_1_1_0_0_n_n none a b (constant S64x3072 .f32 0x00000000#32) (ix2 p q)
      = ∑ k : Fin 1024, a (ix2 p k) * b (ix2 q k) := by
  simp only [matmul]
  rw [Ideal.matmul_constant_zero_apply, ← Equiv.sum_comp (contrEquiv1 dot_S64x1024_S3072x1024_S64x3072_1_1_0_0_n_n 1024 rfl rfl).symm]
  refine Finset.sum_congr rfl fun k _ => ?_
  have hk := contrEquiv1_symm_val dot_S64x1024_S3072x1024_S64x3072_1_1_0_0_n_n 1024 rfl rfl k
  have el : dot_S64x1024_S3072x1024_S64x3072_1_1_0_0_n_n.lhsIdx (ix2 p q) ((contrEquiv1 dot_S64x1024_S3072x1024_S64x3072_1_1_0_0_n_n 1024 rfl rfl).symm k) = ix2 p k := funext fun x => Fin.ext (by
    match x with
    | ⟨0, _⟩ => exact mmH_lhs_0 _ _
    | ⟨1, _⟩ => exact (mmH_lhs_1 _ _).trans hk)
  have er : dot_S64x1024_S3072x1024_S64x3072_1_1_0_0_n_n.rhsIdx (ix2 p q) ((contrEquiv1 dot_S64x1024_S3072x1024_S64x3072_1_1_0_0_n_n 1024 rfl rfl).symm k) = ix2 q k := funext fun x => Fin.ext (by
    match x with
    | ⟨0, _⟩ => exact mmH_rhs_0 _ _
    | ⟨1, _⟩ => exact (mmH_rhs_1 _ _).trans hk)
  rw [el, er]

/-! The product of a 64 × 1024 block with the transpose of a 512 × 1024 one (both contracted on their second axis):
    which element of each operand the dot reads at output index (p, q) and contraction coordinate k. -/
private theorem mmO_lhs_0 (i : S64x512.Idx) (q : dot_S64x1024_S512x1024_S64x512_1_1_0_0_n_n.contr.Idx) :
    (dot_S64x1024_S512x1024_S64x512_1_1_0_0_n_n.lhsIdx i q 0).val = (i 0).val := by
  unfold DotDims.lhsIdx
  rw [dif_neg (show ¬(0 : Fin S64x1024.rank) ∈ dot_S64x1024_S512x1024_S64x512_1_1_0_0_n_n.lhsBatch by decide), dif_pos (show (0 : Fin S64x1024.rank) ∈ dot_S64x1024_S512x1024_S64x512_1_1_0_0_n_n.lhsNonContracting by decide)]
  rfl
private theorem mmO_lhs_1 (i : S64x512.Idx) (q : dot_S64x1024_S512x1024_S64x512_1_1_0_0_n_n.contr.Idx) :
    (dot_S64x1024_S512x1024_S64x512_1_1_0_0_n_n.lhsIdx i q 1).val = (q ⟨0, by decide⟩).val :=
  dot_S64x1024_S512x1024_S64x512_1_1_0_0_n_n.lhsIdx_val_of_single rfl i q
private theorem mmO_rhs_0 (i : S64x512.Idx) (q : dot_S64x1024_S512x1024_S64x512_1_1_0_0_n_n.contr.Idx) :
    (dot_S64x1024_S512x1024_S64x512_1_1_0_0_n_n.rhsIdx i q 0).val = (i 1).val := by
  unfold DotDims.rhsIdx
  rw [dif_neg (show ¬(0 : Fin S512x1024.rank) ∈ dot_S64x1024_S512x1024_S64x512_1_1_0_0_n_n.rhsBatch by decide), dif_pos (show (0 : Fin S512x1024.rank) ∈ dot_S64x1024_S512x1024_S64x512_1_1_0_0_n_n.rhsNonContracting by decide)]
  rfl
private theorem mmO_rhs_1 (i : S64x512.Idx) (q : dot_S64x1024_S512x1024_S64x512_1_1_0_0_n_n.contr.Idx) :
    (dot_S64x1024_S512x1024_S64x512_1_1_0_0_n_n.rhsIdx i q 1).val = (q ⟨0, by decide⟩).val :=
  dot_S64x1024_S512x1024_S64x512_1_1_0_0_n_n.rhsIdx_val_of_single rfl i q

/-- Into a zero accumulator the product at (p, q) is the sum over k of the left operand at (p, k) times the right at (q, k). -/
private theorem mmO_apply {φ₁ φ₂ : FTy} (a : FVec Ideal S64x1024 φ₁) (b : FVec Ideal S512x1024 φ₂) (p : Fin 64) (q : Fin 512) :
    matmul dot_S64x1024_S512x1024_S64x512_1_1_0_0_n_n none a b (constant S64x512 .f32 0x00000000#32) (ix2 p q)
      = ∑ k : Fin 1024, a (ix2 p k) * b (ix2 q k) := by
  simp only [matmul]
  rw [Ideal.matmul_constant_zero_apply, ← Equiv.sum_comp (contrEquiv1 dot_S64x1024_S512x1024_S64x512_1_1_0_0_n_n 1024 rfl rfl).symm]
  refine Finset.sum_congr rfl fun k _ => ?_
  have hk := contrEquiv1_symm_val dot_S64x1024_S512x1024_S64x512_1_1_0_0_n_n 1024 rfl rfl k
  have el : dot_S64x1024_S512x1024_S64x512_1_1_0_0_n_n.lhsIdx (ix2 p q) ((contrEquiv1 dot_S64x1024_S512x1024_S64x512_1_1_0_0_n_n 1024 rfl rfl).symm k) = ix2 p k := funext fun x => Fin.ext (by
    match x with
    | ⟨0, _⟩ => exact mmO_lhs_0 _ _
    | ⟨1, _⟩ => exact (mmO_lhs_1 _ _).trans hk)
  have er : dot_S64x1024_S512x1024_S64x512_1_1_0_0_n_n.rhsIdx (ix2 p q) ((contrEquiv1 dot_S64x1024_S512x1024_S64x512_1_1_0_0_n_n 1024 rfl rfl).symm k) = ix2 q k := funext fun x => Fin.ext (by
    match x with
    | ⟨0, _⟩ => exact mmO_rhs_0 _ _
    | ⟨1, _⟩ => exact (mmO_rhs_1 _ _).trans hk)
  rw [el, er]

/-! ## Elementwise operations at an index -/

/-- The two transcendental operations at an index: each is the extended reals' function of the element. -/
private theorem tanh_at {s : Shape} {φ : FTy} (x : FVec Ideal s φ) (i : s.Idx) : tanh x i = Ideal.tanh (x i) := rfl
private theorem logistic_at {s : Shape} {φ : FTy} (x : FVec Ideal s φ) (i : s.Idx) : logistic x i = Ideal.logistic (x i) := rfl
/-- The scalar constant 1.0 is the extended real one. -/
private theorem one_f32 : (Scalar.ofBits .f32 0x3F800000#32 : Ideal .f32) = 1 := Ideal.ofBits_one_f32

/-! ## The body's values at an index -/

/-- The input pre-activation of the 64 rows: the two halves of the partial product added, plus the product over the 80 tail columns. -/
private theorem pay3_apply (xt : Vec Ideal S64x80 .f32) (wt : Vec Ideal S3072x80 .f32) (g0 g1 : Vec Ideal S1x64x3072 .f32)
    (p : Fin 64) (q : Fin 3072) :
    k1_pay3 (F := Ideal) xt wt g0 g1 (ix2 p q)
      = (g0 (ix3 (0 : Fin 1) p q) + g1 (ix3 (0 : Fin 1) p q)) + ∑ l : Fin 80, xt (ix2 p l) * wt (ix2 q l) := by
  unfold k1_pay3
  simp only [shapeCast_self]
  rw [addf_apply, addf_apply, mmT_apply, shapeCast_1ab_ab_apply, shapeCast_1ab_ab_apply]
  simp only [truncf_apply]

/-- The hidden pre-activation of the 64 rows: the old state against the hidden weights, plus the hidden bias. -/
private theorem pay5_apply (h : Vec Ideal S64x1024 .f32) (u : Vec Ideal S3072x1024 .f32) (bh : Vec Ideal S1x3072 .f32)
    (p : Fin 64) (q : Fin 3072) :
    k1_pay5 (F := Ideal) h u bh (ix2 p q)
      = (∑ k : Fin 1024, h (ix2 p k) * u (ix2 q k)) + bh (ix2 (0 : Fin 1) q) := by
  unfold k1_pay5 k1_pay4
  simp only [shapeCast_self]
  rw [addf_apply, mmH_apply, broadcastTo_1b_ab_apply]
  simp only [truncf_apply]

/-- The two halves of the staged partial product, read at (0, p, q): the vector at (0, p, q) and at (1, p, q). -/
private theorem half0_apply (g : Vec Ideal S2x64x3072 .f32) (p : Fin 64) (q : Fin 3072) :
    (View.ld g r1_half0 : Vec Ideal S1x64x3072 .f32) (ix3 (0 : Fin 1) p q) = g (ix3 (0 : Fin 2) p q) := by
  show g _ = g _
  congr 1
  funext a
  apply Fin.ext
  match a with
  | ⟨0, _⟩ => show 0 + 1 * 0 = 0; rfl
  | ⟨1, _⟩ => show 0 + 1 * p.val = p.val; omega
  | ⟨2, _⟩ => show 0 + 1 * q.val = q.val; omega
private theorem half1_apply (g : Vec Ideal S2x64x3072 .f32) (p : Fin 64) (q : Fin 3072) :
    (View.ld g r1_half1 : Vec Ideal S1x64x3072 .f32) (ix3 (0 : Fin 1) p q) = g (ix3 (1 : Fin 2) p q) := by
  show g _ = g _
  congr 1
  funext a
  apply Fin.ext
  match a with
  | ⟨0, _⟩ => show 1 + 1 * 0 = 1; rfl
  | ⟨1, _⟩ => show 0 + 1 * p.val = p.val; omega
  | ⟨2, _⟩ => show 0 + 1 * q.val = q.val; omega

/-- The update gate of the 64 rows: the logistic function of the two pre-activations' second column block. -/
private theorem pay6_apply (xt : Vec Ideal S64x80 .f32) (wt : Vec Ideal S3072x80 .f32) (g0 g1 : Vec Ideal S1x64x3072 .f32)
    (h : Vec Ideal S64x1024 .f32) (u : Vec Ideal S3072x1024 .f32) (bh : Vec Ideal S1x3072 .f32) (p : Fin 64) (k : Fin 1024) :
    k1_pay6 (F := Ideal) xt wt g0 g1 h u bh (ix2 p k)
      = Ideal.logistic (k1_pay3 (F := Ideal) xt wt g0 g1 (ix2 p (Spec.col1 k)) + k1_pay5 (F := Ideal) h u bh (ix2 p (Spec.col1 k))) := by
  unfold k1_pay6
  rw [logistic_at, addf_apply,
    slice2_axis1_apply 1024 (k1_pay3 (F := Ideal) xt wt g0 g1) _ p k (Spec.col1 k) (Nat.add_comm _ _),
    slice2_axis1_apply 1024 (k1_pay5 (F := Ideal) h u bh) _ p k (Spec.col1 k) (Nat.add_comm _ _)]

/-- The candidate's share: one minus the update gate, times tanh of the third column block with the hidden part scaled by the
    reset gate (the logistic function of the first column block). -/
private theorem pay7_apply (xt : Vec Ideal S64x80 .f32) (wt : Vec Ideal S3072x80 .f32) (g0 g1 : Vec Ideal S1x64x3072 .f32)
    (h : Vec Ideal S64x1024 .f32) (u : Vec Ideal S3072x1024 .f32) (bh : Vec Ideal S1x3072 .f32) (p : Fin 64) (k : Fin 1024) :
    k1_pay7 (F := Ideal) xt wt g0 g1 h u bh (ix2 p k)
      = (1 - k1_pay6 (F := Ideal) xt wt g0 g1 h u bh (ix2 p k))
          * Ideal.tanh (k1_pay3 (F := Ideal) xt wt g0 g1 (ix2 p (Spec.col2 k))
              + Ideal.logistic (k1_pay3 (F := Ideal) xt wt g0 g1 (ix2 p (Spec.col0 k)) + k1_pay5 (F := Ideal) h u bh (ix2 p (Spec.col0 k)))
                * k1_pay5 (F := Ideal) h u bh (ix2 p (Spec.col2 k))) := by
  unfold k1_pay7
  rw [mulf_apply, subf_apply, broadcast_apply, one_f32, tanh_at, addf_apply, mulf_apply, logistic_at, addf_apply,
    slice2_axis1_apply 0 (k1_pay3 (F := Ideal) xt wt g0 g1) _ p k (Spec.col0 k) (Nat.zero_add _).symm,
    slice2_axis1_apply 0 (k1_pay5 (F := Ideal) h u bh) _ p k (Spec.col0 k) (Nat.zero_add _).symm,
    slice2_axis1_apply 2048 (k1_pay3 (F := Ideal) xt wt g0 g1) _ p k (Spec.col2 k) (Nat.add_comm _ _),
    slice2_axis1_apply 2048 (k1_pay5 (F := Ideal) h u bh) _ p k (Spec.col2 k) (Nat.add_comm _ _)]

/-- The old state's share: the update gate times the old state. -/
private theorem pay8_apply (xt : Vec Ideal S64x80 .f32) (wt : Vec Ideal S3072x80 .f32) (g0 g1 : Vec Ideal S1x64x3072 .f32)
    (h : Vec Ideal S64x1024 .f32) (u : Vec Ideal S3072x1024 .f32) (bh : Vec Ideal S1x3072 .f32) (p : Fin 64) (k : Fin 1024) :
    k1_pay8 (F := Ideal) xt wt g0 g1 h u bh (ix2 p k)
      = k1_pay6 (F := Ideal) xt wt g0 g1 h u bh (ix2 p k) * h (ix2 p k) := by
  unfold k1_pay8 k1_pay4
  rw [mulf_apply, shapeCast_self]

/-! ## The block's values as functions of the row and the column -/

/-- The input pre-activation of row p of the block at column j: the two halves of the partial product added, plus the
    product over the 80 tail columns. -/
def GIrow (g : Vec Ideal S2x64x3072 .f32) (xt : Vec Ideal S64x80 .f32) (wt : Vec Ideal S3072x80 .f32)
    (p : Fin 64) (j : Fin 3072) : EReal :=
  (g (ix3 (0 : Fin 2) p j) + g (ix3 (1 : Fin 2) p j)) + ∑ l : Fin 80, xt (ix2 p l) * wt (ix2 j l)

/-- The hidden pre-activation of row p at column j: the old state against row j of the hidden weights, plus the bias. -/
def GHrow (h : Vec Ideal S64x1024 .f32) (u : Vec Ideal S3072x1024 .f32) (bh : Vec Ideal S1x3072 .f32)
    (p : Fin 64) (j : Fin 3072) : EReal :=
  (∑ k : Fin 1024, h (ix2 p k) * u (ix2 j k)) + bh (ix2 (0 : Fin 1) j)

/-- The new state of row p at column k: the candidate and the old state blended by the update gate. -/
def Hrow (g : Vec Ideal S2x64x3072 .f32) (h : Vec Ideal S64x1024 .f32) (xt : Vec Ideal S64x80 .f32)
    (wt : Vec Ideal S3072x80 .f32) (u : Vec Ideal S3072x1024 .f32) (bh : Vec Ideal S1x3072 .f32)
    (p : Fin 64) (k : Fin 1024) : EReal :=
  (1 - Ideal.logistic (GIrow g xt wt p (Spec.col1 k) + GHrow h u bh p (Spec.col1 k)))
      * Ideal.tanh (GIrow g xt wt p (Spec.col2 k) + Ideal.logistic (GIrow g xt wt p (Spec.col0 k) + GHrow h u bh p (Spec.col0 k)) * GHrow h u bh p (Spec.col2 k))
    + Ideal.logistic (GIrow g xt wt p (Spec.col1 k) + GHrow h u bh p (Spec.col1 k)) * h (ix2 p k)

/-! ## The two stored values at an index -/

/-- The 64 rows of the new state the body stores, at (p, k). -/
theorem hrows_pay (g : Vec Ideal S2x64x3072 .f32) (h : Vec Ideal S64x1024 .f32) (xt : Vec Ideal S64x80 .f32)
    (wt : Vec Ideal S3072x80 .f32) (u : Vec Ideal S3072x1024 .f32) (bh : Vec Ideal S1x3072 .f32)
    (p : Fin 64) (k : Fin 1024) :
    k1_pay1 (F := Ideal) (gate1 g h xt wt u bh) (keep1 g h xt wt u bh) (ix2 p k) = Hrow g h xt wt u bh p k := by
  unfold k1_pay1 gate1 keep1
  rw [addf_apply, pay7_apply, pay8_apply, pay6_apply]
  simp only [pay3_apply, pay5_apply]
  rw [half0_apply, half0_apply, half0_apply, half1_apply, half1_apply, half1_apply]
  unfold Hrow GIrow GHrow
  rfl

/-- The 64 rows of the projection the body stores, at (p, j). -/
theorem lrows_pay (g : Vec Ideal S2x64x3072 .f32) (h : Vec Ideal S64x1024 .f32) (xt : Vec Ideal S64x80 .f32)
    (wt : Vec Ideal S3072x80 .f32) (u : Vec Ideal S3072x1024 .f32) (bh : Vec Ideal S1x3072 .f32)
    (wo : Vec Ideal S512x1024 .f32) (bo : Vec Ideal S1x512 .f32) (p : Fin 64) (j : Fin 512) :
    k1_pay2 (F := Ideal) (gate1 g h xt wt u bh) (keep1 g h xt wt u bh) wo bo (ix2 p j)
      = Ideal.tanh ((∑ k : Fin 1024, Hrow g h xt wt u bh p k * wo (ix2 j k)) + bo (ix2 (0 : Fin 1) j)) := by
  unfold k1_pay2
  simp only [shapeCast_self]
  rw [tanh_at, addf_apply, mmO_apply, broadcastTo_1b_ab_apply]
  simp only [truncf_apply, hrows_pay]

end Cert.KernelIdeal.Hand

end
-- ==== Proof.KIValue1.lean ====
/-
  What the second kernel region leaves in its two output arrays, in closed form at the ideal values.

  The region's grid has 8 points; point t handles the batch rows 64 t … 64 t + 63. A block's element sits in its array, on
  each axis, at block index × block size + its own coordinate. For the three row-blocked inputs (the two halves of the
  partial input product, the old state, the tail columns of x) the block index on the row axis is t and 0 elsewhere, so
  row p of the block is row 64 t + p of the array; the five whole-array inputs have block index 0 throughout, so their
  block is the array. Hence the body's row functions at a point's blocks are the same functions of the arrays at row
  64 t + p: the input pre-activation `gI1` (the two halves added, plus the product over the 80 tail columns), the hidden
  pre-activation `gH1`, and the blend `Spec.hnew` of the gates.

  Each point writes its 64 rows back to rows 64 t … 64 t + 63 of both outputs, and row r of an output lies in the block
  of point r / 64; so the 8 blocks cover each output array, every element is written with the value of one function of
  the arrays (a point that wrote an element again would have written the same value), and the arrays end as those
  functions: the new state, and tanh of the new state against the output rows plus the output bias.
-/
import proofs.«418008_j22720376995892_3_alg».proof.Proof.KIValue1Pay
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx
open scoped BigOperators

variable (V : (c : Dev nD) → (b : Ref sig .tc) → Buf (Elt Ideal) ((c : Thread nD τ).loc b))

/-- Sum and product of extended reals, with the type named. -/
local notation:65 x:65 " +ₑ " y:66 => HAdd.hAdd (α := EReal) (β := EReal) (γ := EReal) x y
local notation:70 x:70 " *ₑ " y:71 => HMul.hMul (α := EReal) (β := EReal) (γ := EReal) x y

/-! ## The block indices over the grid

Window 0 (the two halves, [2, 512, 3072] in blocks [2, 64, 3072]) moves along its middle axis with the point; windows 1, 2
and the two outputs 8, 9 move along their rows; windows 3 … 7 stay at block 0. -/

private theorem idx1_0 : ∀ t : Fin cfg1.N, win1_0.index t 0 = 0 ∧ win1_0.index t 1 = t.val ∧ win1_0.index t 2 = 0 :=
  (by decide +kernel : ∀ t : Fin grid1.N, win1_0.index t 0 = 0 ∧ win1_0.index t 1 = t.val ∧ win1_0.index t 2 = 0)
private theorem idx1_1 : ∀ t : Fin cfg1.N, win1_1.index t 0 = t.val ∧ win1_1.index t 1 = 0 :=
  (by decide +kernel : ∀ t : Fin grid1.N, win1_1.index t 0 = t.val ∧ win1_1.index t 1 = 0)
private theorem idx1_2 : ∀ t : Fin cfg1.N, win1_2.index t 0 = t.val ∧ win1_2.index t 1 = 0 :=
  (by decide +kernel : ∀ t : Fin grid1.N, win1_2.index t 0 = t.val ∧ win1_2.index t 1 = 0)
private theorem idx1_3 : ∀ t : Fin cfg1.N, win1_3.index t 0 = 0 ∧ win1_3.index t 1 = 0 :=
  (by decide +kernel : ∀ t : Fin grid1.N, win1_3.index t 0 = 0 ∧ win1_3.index t 1 = 0)
private theorem idx1_4 : ∀ t : Fin cfg1.N, win1_4.index t 0 = 0 ∧ win1_4.index t 1 = 0 :=
  (by decide +kernel : ∀ t : Fin grid1.N, win1_4.index t 0 = 0 ∧ win1_4.index t 1 = 0)
private theorem idx1_5 : ∀ t : Fin cfg1.N, win1_5.index t 0 = 0 ∧ win1_5.index t 1 = 0 :=
  (by decide +kernel : ∀ t : Fin grid1.N, win1_5.index t 0 = 0 ∧ win1_5.index t 1 = 0)
private theorem idx1_6 : ∀ t : Fin cfg1.N, win1_6.index t 0 = 0 ∧ win1_6.index t 1 = 0 :=
  (by decide +kernel : ∀ t : Fin grid1.N, win1_6.index t 0 = 0 ∧ win1_6.index t 1 = 0)
private theorem idx1_7 : ∀ t : Fin cfg1.N, win1_7.index t 0 = 0 ∧ win1_7.index t 1 = 0 :=
  (by decide +kernel : ∀ t : Fin grid1.N, win1_7.index t 0 = 0 ∧ win1_7.index t 1 = 0)
private theorem idx1_8 : ∀ t : Fin cfg1.N, win1_8.index t 0 = t.val ∧ win1_8.index t 1 = 0 :=
  (by decide +kernel : ∀ t : Fin grid1.N, win1_8.index t 0 = t.val ∧ win1_8.index t 1 = 0)
private theorem idx1_9 : ∀ t : Fin cfg1.N, win1_9.index t 0 = t.val ∧ win1_9.index t 1 = 0 :=
  (by decide +kernel : ∀ t : Fin grid1.N, win1_9.index t 0 = t.val ∧ win1_9.index t 1 = 0)

/-! ## The input blocks at an index

An element of a block is the array's element at block index × block size + the element's coordinate, axis by axis. -/

/-- The two halves: element (n, p, j) of point t's block is the array's (n, 64 t + p, j). -/
private theorem iblk1_0_apply (c : Dev nD) (t : Fin cfg1.N) (x : S2x64x3072.Idx) (k : S2x512x3072.Idx)
    (hk0 : (k 0).val = (x 0).val) (hk1 : (k 1).val = 64 * t.val + (x 1).val) (hk2 : (k 2).val = (x 2).val) :
    (iblk1 V c 0 t : Vec Ideal S2x64x3072 .f32) x = (V c main_v2 : S2x512x3072.Idx → EReal) k := by
  obtain ⟨e0, e1, e2⟩ := idx1_0 t
  unfold iblk1
  rw [View.read_apply]
  show V c main_v2 _ = V c main_v2 _
  congr 1
  funext a; apply Fin.ext
  match a with
  | ⟨0, _⟩ => show win1_0.index t 0 * 2 + 1 * (x 0).val = (k 0).val; rw [e0, hk0]; omega
  | ⟨1, _⟩ => show win1_0.index t 1 * 64 + 1 * (x 1).val = (k 1).val; rw [e1, hk1]; omega
  | ⟨2, _⟩ => show win1_0.index t 2 * 3072 + 1 * (x 2).val = (k 2).val; rw [e2, hk2]; omega

/-- The old state: element (p, k) of point t's block is the array's (64 t + p, k). -/
private theorem iblk1_1_apply (c : Dev nD) (t : Fin cfg1.N) (x : S64x1024.Idx) (k : S512x1024.Idx)
    (hk0 : (k 0).val = 64 * t.val + (x 0).val) (hk1 : (k 1).val = (x 1).val) :
    (iblk1 V c 1 t : Vec Ideal S64x1024 .f32) x = (V c main_v0 : S512x1024.Idx → EReal) k := by
  obtain ⟨e0, e1⟩ := idx1_1 t
  unfold iblk1
  rw [View.read_apply]
  show V c main_v0 _ = V c main_v0 _
  congr 1
  funext a; apply Fin.ext
  match a with
  | ⟨0, _⟩ => show win1_1.index t 0 * 64 + 1 * (x 0).val = (k 0).val; rw [e0, hk0]; omega
  | ⟨1, _⟩ => show win1_1.index t 1 * 1024 + 1 * (x 1).val = (k 1).val; rw [e1, hk1]; omega

/-- The tail columns of x: element (p, l) of point t's block is the array's (64 t + p, l). -/
private theorem iblk1_2_apply (c : Dev nD) (t : Fin cfg1.N) (x : S64x80.Idx) (k : S512x80.Idx)
    (hk0 : (k 0).val = 64 * t.val + (x 0).val) (hk1 : (k 1).val = (x 1).val) :
    (iblk1 V c 2 t : Vec Ideal S64x80 .f32) x = (V c main_v3 : S512x80.Idx → EReal) k := by
  obtain ⟨e0, e1⟩ := idx1_2 t
  unfold iblk1
  rw [View.read_apply]
  show V c main_v3 _ = V c main_v3 _
  congr 1
  funext a; apply Fin.ext
  match a with
  | ⟨0, _⟩ => show win1_2.index t 0 * 64 + 1 * (x 0).val = (k 0).val; rw [e0, hk0]; omega
  | ⟨1, _⟩ => show win1_2.index t 1 * 80 + 1 * (x 1).val = (k 1).val; rw [e1, hk1]; omega

/-- The tail columns of W, whole at every point. -/
private theorem iblk1_3_apply (c : Dev nD) (t : Fin cfg1.N) (x : S3072x80.Idx) :
    (iblk1 V c 3 t : Vec Ideal S3072x80 .f32) x = (V c main_v4 : S3072x80.Idx → EReal) x := by
  obtain ⟨e0, e1⟩ := idx1_3 t
  unfold iblk1
  rw [View.read_apply]
  show V c main_v4 _ = V c main_v4 _
  congr 1
  funext a; apply Fin.ext
  match a with
  | ⟨0, _⟩ => show win1_3.index t 0 * 3072 + 1 * (x 0).val = (x 0).val; rw [e0]; omega
  | ⟨1, _⟩ => show win1_3.index t 1 * 80 + 1 * (x 1).val = (x 1).val; rw [e1]; omega

/-- The hidden weights, whole at every point. -/
private theorem iblk1_4_apply (c : Dev nD) (t : Fin cfg1.N) (x : S3072x1024.Idx) :
    (iblk1 V c 4 t : Vec Ideal S3072x1024 .f32) x = (V c main_arg4 : S3072x1024.Idx → EReal) x := by
  obtain ⟨e0, e1⟩ := idx1_4 t
  unfold iblk1
  rw [View.read_apply]
  show V c main_arg4 _ = V c main_arg4 _
  congr 1
  funext a; apply Fin.ext
  match a with
  | ⟨0, _⟩ => show win1_4.index t 0 * 3072 + 1 * (x 0).val = (x 0).val; rw [e0]; omega
  | ⟨1, _⟩ => show win1_4.index t 1 * 1024 + 1 * (x 1).val = (x 1).val; rw [e1]; omega

/-- The hidden bias, whole at every point. -/
private theorem iblk1_5_apply (c : Dev nD) (t : Fin cfg1.N) (x : S1x3072.Idx) :
    (iblk1 V c 5 t : Vec Ideal S1x3072 .f32) x = (V c main_v7 : S1x3072.Idx → EReal) x := by
  obtain ⟨e0, e1⟩ := idx1_5 t
  unfold iblk1
  rw [View.read_apply]
  show V c main_v7 _ = V c main_v7 _
  congr 1
  funext a; apply Fin.ext
  match a with
  | ⟨0, _⟩ => show win1_5.index t 0 * 1 + 1 * (x 0).val = (x 0).val; rw [e0]; omega
  | ⟨1, _⟩ => show win1_5.index t 1 * 3072 + 1 * (x 1).val = (x 1).val; rw [e1]; omega

/-- The gathered output rows, whole at every point. -/
private theorem iblk1_6_apply (c : Dev nD) (t : Fin cfg1.N) (x : S512x1024.Idx) :
    (iblk1 V c 6 t : Vec Ideal S512x1024 .f32) x = (V c main_v5 : S512x1024.Idx → EReal) x := by
  obtain ⟨e0, e1⟩ := idx1_6 t
  unfold iblk1
  rw [View.read_apply]
  show V c main_v5 _ = V c main_v5 _
  congr 1
  funext a; apply Fin.ext
  match a with
  | ⟨0, _⟩ => show win1_6.index t 0 * 512 + 1 * (x 0).val = (x 0).val; rw [e0]; omega
  | ⟨1, _⟩ => show win1_6.index t 1 * 1024 + 1 * (x 1).val = (x 1).val; rw [e1]; omega

/-- The gathered output bias, whole at every point. -/
private theorem iblk1_7_apply (c : Dev nD) (t : Fin cfg1.N) (x : S1x512.Idx) :
    (iblk1 V c 7 t : Vec Ideal S1x512 .f32) x = (V c main_v8 : S1x512.Idx → EReal) x := by
  obtain ⟨e0, e1⟩ := idx1_7 t
  unfold iblk1
  rw [View.read_apply]
  show V c main_v8 _ = V c main_v8 _
  congr 1
  funext a; apply Fin.ext
  match a with
  | ⟨0, _⟩ => show win1_7.index t 0 * 1 + 1 * (x 0).val = (x 0).val; rw [e0]; omega
  | ⟨1, _⟩ => show win1_7.index t 1 * 512 + 1 * (x 1).val = (x 1).val; rw [e1]; omega

/-! ## The arrays' functions -/

/-- The input pre-activation at batch row b, column j, from the arrays as the region finds them: the two halves of the
    partial product added, plus the product over the 80 tail columns. -/
def gI1 (c : Dev nD) (b : Fin 512) (j : Fin 3072) : EReal :=
  ((V c main_v2 : S2x512x3072.Idx → EReal) (ix3 (0 : Fin 2) b j) +ₑ (V c main_v2 : S2x512x3072.Idx → EReal) (ix3 (1 : Fin 2) b j))
    +ₑ ∑ l : Fin 80, ((V c main_v3 : S512x80.Idx → EReal) (ix2 b l) *ₑ (V c main_v4 : S3072x80.Idx → EReal) (ix2 j l))

/-- The hidden pre-activation at batch row b, column j: the old state against row j of the hidden weights, plus the bias. -/
def gH1 (c : Dev nD) (b : Fin 512) (j : Fin 3072) : EReal :=
  (∑ k : Fin 1024, ((V c main_v0 : S512x1024.Idx → EReal) (ix2 b k) *ₑ (V c main_arg4 : S3072x1024.Idx → EReal) (ix2 j k)))
    +ₑ (V c main_v7 : S1x3072.Idx → EReal) (ix2 (0 : Fin 1) j)

/-- The old state at batch row b, column k. -/
def h1 (c : Dev nD) (b : Fin 512) (k : Fin 1024) : EReal := (V c main_v0 : S512x1024.Idx → EReal) (ix2 b k)

/-! ## A block's row functions, when the block's row p is an array's row b -/

private theorem GIrow_of (g : Vec Ideal S2x64x3072 .f32) (xt : Vec Ideal S64x80 .f32) (wt : Vec Ideal S3072x80 .f32)
    (A2 : S2x512x3072.Idx → EReal) (A3 : S512x80.Idx → EReal) (A4 : S3072x80.Idx → EReal) (p : Fin 64) (b : Fin 512)
    (hg : ∀ (n : Fin 2) (j : Fin 3072), g (ix3 n p j) = A2 (ix3 n b j))
    (hx : ∀ l : Fin 80, xt (ix2 p l) = A3 (ix2 b l))
    (hw : ∀ (j : Fin 3072) (l : Fin 80), wt (ix2 j l) = A4 (ix2 j l)) (j : Fin 3072) :
    GIrow g xt wt p j = (A2 (ix3 (0 : Fin 2) b j) + A2 (ix3 (1 : Fin 2) b j)) + ∑ l : Fin 80, A3 (ix2 b l) * A4 (ix2 j l) := by
  unfold GIrow
  rw [hg, hg]
  simp only [hx, hw]

private theorem GHrow_of (h : Vec Ideal S64x1024 .f32) (u : Vec Ideal S3072x1024 .f32) (bh : Vec Ideal S1x3072 .f32)
    (A0 : S512x1024.Idx → EReal) (A4 : S3072x1024.Idx → EReal) (A7 : S1x3072.Idx → EReal) (p : Fin 64) (b : Fin 512)
    (hh : ∀ k : Fin 1024, h (ix2 p k) = A0 (ix2 b k))
    (hu : ∀ (j : Fin 3072) (k : Fin 1024), u (ix2 j k) = A4 (ix2 j k))
    (hb : ∀ j : Fin 3072, bh (ix2 (0 : Fin 1) j) = A7 (ix2 (0 : Fin 1) j)) (j : Fin 3072) :
    GHrow h u bh p j = (∑ k : Fin 1024, A0 (ix2 b k) * A4 (ix2 j k)) + A7 (ix2 (0 : Fin 1) j) := by
  unfold GHrow
  rw [hb]
  simp only [hh, hu]

/-- The blend of the gates is the same expression of the two pre-activations and the old state on both sides. -/
private theorem Hrow_of (g : Vec Ideal S2x64x3072 .f32) (h : Vec Ideal S64x1024 .f32) (xt : Vec Ideal S64x80 .f32)
    (wt : Vec Ideal S3072x80 .f32) (u : Vec Ideal S3072x1024 .f32) (bh : Vec Ideal S1x3072 .f32)
    (gI gH : Fin 512 → Fin 3072 → EReal) (hs : Fin 512 → Fin 1024 → EReal) (p : Fin 64) (b : Fin 512)
    (hGI : ∀ j : Fin 3072, GIrow g xt wt p j = gI b j) (hGH : ∀ j : Fin 3072, GHrow h u bh p j = gH b j)
    (hh : ∀ k : Fin 1024, h (ix2 p k) = hs b k) (k : Fin 1024) :
    Hrow g h xt wt u bh p k = Spec.hnew gI gH hs b k := by
  unfold Hrow Spec.hnew
  rw [hGI, hGI, hGI, hGH, hGH, hGH, hh]

private theorem logit_of (Hr Hn : Fin 1024 → EReal) (wo : Vec Ideal S512x1024 .f32) (bo : Vec Ideal S1x512 .f32)
    (A5 : S512x1024.Idx → EReal) (A8 : S1x512.Idx → EReal) (j : Fin 512)
    (hH : ∀ k : Fin 1024, Hr k = Hn k) (hw : ∀ k : Fin 1024, wo (ix2 j k) = A5 (ix2 j k))
    (hbo : bo (ix2 (0 : Fin 1) j) = A8 (ix2 (0 : Fin 1) j)) :
    Ideal.tanh ((∑ k : Fin 1024, Hr k * wo (ix2 j k)) + bo (ix2 (0 : Fin 1) j))
      = Ideal.tanh ((∑ k : Fin 1024, Hn k * A5 (ix2 j k)) + A8 (ix2 (0 : Fin 1) j)) := by
  rw [hbo]
  simp only [hH, hw]

/-! ## Row p of point t's blocks is row 64 t + p of the arrays -/

private theorem GIrow_blk (c : Dev nD) (t : Fin cfg1.N) (p : Fin 64) (b : Fin 512) (hb : b.val = 64 * t.val + p.val)
    (j : Fin 3072) : GIrow (iblk1 V c 0 t) (iblk1 V c 2 t) (iblk1 V c 3 t) p j = gI1 V c b j := by
  unfold gI1
  exact GIrow_of _ _ _ (V c main_v2) (V c main_v3) (V c main_v4) p b
    (fun n j => iblk1_0_apply V c t _ _ rfl hb rfl)
    (fun l => iblk1_2_apply V c t _ _ hb rfl)
    (fun j l => iblk1_3_apply V c t _) j

private theorem GHrow_blk (c : Dev nD) (t : Fin cfg1.N) (p : Fin 64) (b : Fin 512) (hb : b.val = 64 * t.val + p.val)
    (j : Fin 3072) : GHrow (iblk1 V c 1 t) (iblk1 V c 4 t) (iblk1 V c 5 t) p j = gH1 V c b j := by
  unfold gH1
  exact GHrow_of _ _ _ (V c main_v0) (V c main_arg4) (V c main_v7) p b
    (fun k => iblk1_1_apply V c t _ _ hb rfl)
    (fun j k => iblk1_4_apply V c t _)
    (fun j => iblk1_5_apply V c t _) j

private theorem Hrow_blk (c : Dev nD) (t : Fin cfg1.N) (p : Fin 64) (b : Fin 512) (hb : b.val = 64 * t.val + p.val)
    (k : Fin 1024) :
    Hrow (iblk1 V c 0 t) (iblk1 V c 1 t) (iblk1 V c 2 t) (iblk1 V c 3 t) (iblk1 V c 4 t) (iblk1 V c 5 t) p k
      = Spec.hnew (gI1 V c) (gH1 V c) (h1 V c) b k :=
  Hrow_of _ _ _ _ _ _ (gI1 V c) (gH1 V c) (h1 V c) p b (GIrow_blk V c t p b hb) (GHrow_blk V c t p b hb)
    (fun k => iblk1_1_apply V c t _ _ hb rfl) k

/-- The 64 rows of the new state point t stores, at (p, k): the new state of batch row 64 t + p. -/
private theorem hrows1_apply (c : Dev nD) (t : Fin cfg1.N) (p : Fin 64) (b : Fin 512) (hb : b.val = 64 * t.val + p.val)
    (k : Fin 1024) :
    (hrows1 V c t : Vec Ideal S64x1024 .f32) (ix2 p k) = Spec.hnew (gI1 V c) (gH1 V c) (h1 V c) b k := by
  unfold hrows1
  exact (hrows_pay _ _ _ _ _ _ p k).trans (Hrow_blk V c t p b hb k)

/-- The 64 rows of the projection point t stores, at (p, j). -/
private theorem lrows1_apply (c : Dev nD) (t : Fin cfg1.N) (p : Fin 64) (b : Fin 512) (hb : b.val = 64 * t.val + p.val)
    (j : Fin 512) :
    (lrows1 V c t : Vec Ideal S64x512 .f32) (ix2 p j)
      = Ideal.tanh ((∑ k : Fin 1024, (Spec.hnew (gI1 V c) (gH1 V c) (h1 V c) b k *ₑ (V c main_v5 : S512x1024.Idx → EReal) (ix2 j k)))
          +ₑ (V c main_v8 : S1x512.Idx → EReal) (ix2 (0 : Fin 1) j)) := by
  unfold lrows1
  refine (lrows_pay _ _ _ _ _ _ _ _ p j).trans ?_
  exact logit_of _ _ _ _ (V c main_v5) (V c main_v8) j (Hrow_blk V c t p b hb)
    (fun k => iblk1_6_apply V c t _) (iblk1_7_apply V c t _)

/-! ## From blocks to the arrays -/

/-- The new state as one function of the arrays, index by index. -/
abbrev hnewArr1 (c : Dev nD) : S512x1024.Idx → EReal := fun i => Spec.hnew (gI1 V c) (gH1 V c) (h1 V c) (i 0) (i 1)

/-- The projection as one function of the arrays, index by index. -/
abbrev logitArr1 (c : Dev nD) : S512x512.Idx → EReal := fun i =>
  Ideal.tanh ((∑ k : Fin 1024, (Spec.hnew (gI1 V c) (gH1 V c) (h1 V c) (i 0) k *ₑ (V c main_v5 : S512x1024.Idx → EReal) (ix2 (i 1) k)))
    +ₑ (V c main_v8 : S1x512.Idx → EReal) (ix2 (0 : Fin 1) (i 1)))

/-- What point t writes back to the first output is block t of `hnewArr1`: element (p, k) of the block lies at
    (64 t + p, k) of the array. -/
private theorem flushed1_8_eq (c : Dev nD) (t : Fin cfg1.N) :
    (dat1 V c).flushed 8 t = ((cfg1.win 8).blk t).view.read (Elt Ideal) (hnewArr1 V c) := by
  obtain ⟨e0, e1⟩ := idx1_8 t
  have hN : grid1.N = 8 := N_1
  have ht : t.val < 8 := hN ▸ t.isLt
  show (cfg1.win 8).cut (grid1.coords t) ((dat1 V c).after 8 t) = _
  rw [after1_8]
  funext y
  have hy0 : (y 0).val < 64 := (y 0).isLt
  have hy1 : (y 1).val < 1024 := (y 1).isLt
  have hx : (cfg1.win 8).xinj (grid1.coords t) y = ix2 (⟨(y 0).val, hy0⟩ : Fin 64) (⟨(y 1).val, hy1⟩ : Fin 1024) :=
    funext fun a => match a with | ⟨0, _⟩ => rfl | ⟨1, _⟩ => rfl
  have hemb : ((cfg1.win 8).blk t).view.emb y
      = ix2 (⟨64 * t.val + (y 0).val, by omega⟩ : Fin 512) (⟨(y 1).val, hy1⟩ : Fin 1024) := by
    funext a; apply Fin.ext
    match a with
    | ⟨0, _⟩ => show win1_8.index t 0 * 64 + 1 * (y 0).val = 64 * t.val + (y 0).val; rw [e0]; omega
    | ⟨1, _⟩ => show win1_8.index t 1 * 1024 + 1 * (y 1).val = (y 1).val; rw [e1]; omega
  rw [View.read_apply]
  show (hrows1 V c t : Vec Ideal S64x1024 .f32) ((cfg1.win 8).xinj (grid1.coords t) y)
    = hnewArr1 V c (((cfg1.win 8).blk t).view.emb y)
  rw [hx, hemb]
  exact hrows1_apply V c t _ _ rfl _

/-- What point t writes back to the second output is block t of `logitArr1`. -/
private theorem flushed1_9_eq (c : Dev nD) (t : Fin cfg1.N) :
    (dat1 V c).flushed 9 t = ((cfg1.win 9).blk t).view.read (Elt Ideal) (logitArr1 V c) := by
  obtain ⟨e0, e1⟩ := idx1_9 t
  have hN : grid1.N = 8 := N_1
  have ht : t.val < 8 := hN ▸ t.isLt
  show (cfg1.win 9).cut (grid1.coords t) ((dat1 V c).after 9 t) = _
  rw [after1_9]
  funext y
  have hy0 : (y 0).val < 64 := (y 0).isLt
  have hy1 : (y 1).val < 512 := (y 1).isLt
  have hx : (cfg1.win 9).xinj (grid1.coords t) y = ix2 (⟨(y 0).val, hy0⟩ : Fin 64) (⟨(y 1).val, hy1⟩ : Fin 512) :=
    funext fun a => match a with | ⟨0, _⟩ => rfl | ⟨1, _⟩ => rfl
  have hemb : ((cfg1.win 9).blk t).view.emb y
      = ix2 (⟨64 * t.val + (y 0).val, by omega⟩ : Fin 512) (⟨(y 1).val, hy1⟩ : Fin 512) := by
    funext a; apply Fin.ext
    match a with
    | ⟨0, _⟩ => show win1_9.index t 0 * 64 + 1 * (y 0).val = 64 * t.val + (y 0).val; rw [e0]; omega
    | ⟨1, _⟩ => show win1_9.index t 1 * 512 + 1 * (y 1).val = (y 1).val; rw [e1]; omega
  rw [View.read_apply]
  show (lrows1 V c t : Vec Ideal S64x512 .f32) ((cfg1.win 9).xinj (grid1.coords t) y)
    = logitArr1 V c (((cfg1.win 9).blk t).view.emb y)
  rw [hx, hemb]
  exact lrows1_apply V c t _ _ rfl _

/-- Every index of the first output is in the block of the point r / 64, r its row: 64 (r / 64) ≤ r < 64 (r / 64) + 64. -/
private theorem cover1_8 (i : S512x1024.Idx) :
    ∃ t : Fin cfg1.N, (cfg1.win 8).flush t = true ∧ i ∈ ((cfg1.win 8).blk t).view.set := by
  have hN : grid1.N = 8 := N_1
  have hi0 : (i 0).val < 512 := (i 0).isLt
  have hi1 : (i 1).val < 1024 := (i 1).isLt
  have hq : (i 0).val / 64 < grid1.N := by rw [hN]; omega
  obtain ⟨e0, e1⟩ := idx1_8 ⟨(i 0).val / 64, hq⟩
  refine ⟨⟨(i 0).val / 64, hq⟩, flush1_8 _, ?_⟩
  show i ∈ ((View.whole main_v9_0).slice (win1_8.rect ⟨(i 0).val / 64, hq⟩)).set
  rw [View.set_slice_whole, Rect.mem_set_unit]
  intro a
  match a with
  | ⟨0, _⟩ =>
    show win1_8.index ⟨(i 0).val / 64, hq⟩ 0 * 64 ≤ (i 0).val ∧ (i 0).val < win1_8.index ⟨(i 0).val / 64, hq⟩ 0 * 64 + 64
    rw [e0]; show (i 0).val / 64 * 64 ≤ (i 0).val ∧ (i 0).val < (i 0).val / 64 * 64 + 64; omega
  | ⟨1, _⟩ =>
    show win1_8.index ⟨(i 0).val / 64, hq⟩ 1 * 1024 ≤ (i 1).val ∧ (i 1).val < win1_8.index ⟨(i 0).val / 64, hq⟩ 1 * 1024 + 1024
    rw [e1]; omega

/-- The same for the second output. -/
private theorem cover1_9 (i : S512x512.Idx) :
    ∃ t : Fin cfg1.N, (cfg1.win 9).flush t = true ∧ i ∈ ((cfg1.win 9).blk t).view.set := by
  have hN : grid1.N = 8 := N_1
  have hi0 : (i 0).val < 512 := (i 0).isLt
  have hi1 : (i 1).val < 512 := (i 1).isLt
  have hq : (i 0).val / 64 < grid1.N := by rw [hN]; omega
  obtain ⟨e0, e1⟩ := idx1_9 ⟨(i 0).val / 64, hq⟩
  refine ⟨⟨(i 0).val / 64, hq⟩, flush1_9 _, ?_⟩
  show i ∈ ((View.whole main_v9_1).slice (win1_9.rect ⟨(i 0).val / 64, hq⟩)).set
  rw [View.set_slice_whole, Rect.mem_set_unit]
  intro a
  match a with
  | ⟨0, _⟩ =>
    show win1_9.index ⟨(i 0).val / 64, hq⟩ 0 * 64 ≤ (i 0).val ∧ (i 0).val < win1_9.index ⟨(i 0).val / 64, hq⟩ 0 * 64 + 64
    rw [e0]; show (i 0).val / 64 * 64 ≤ (i 0).val ∧ (i 0).val < (i 0).val / 64 * 64 + 64; omega
  | ⟨1, _⟩ =>
    show win1_9.index ⟨(i 0).val / 64, hq⟩ 1 * 512 ≤ (i 1).val ∧ (i 1).val < win1_9.index ⟨(i 0).val / 64, hq⟩ 1 * 512 + 512
    rw [e1]; omega

/-- The first output array after the region: the new state, everywhere. -/
theorem final1_8 (c : Dev nD) : (dat1 V c).arrAt 8 cfg1.N = hnewArr1 V c :=
  (dat1 V c).arrAt_eq_of_cover 8 (hnewArr1 V c) (fun t _ => flushed1_8_eq V c t) cover1_8

/-- The second output array after the region: the projection, everywhere. -/
theorem final1_9 (c : Dev nD) : (dat1 V c).arrAt 9 cfg1.N = logitArr1 V c :=
  (dat1 V c).arrAt_eq_of_cover 9 (logitArr1 V c) (fun t _ => flushed1_9_eq V c t) cover1_9

/-- The first output at batch row b, column k: the gates' blend of the two pre-activations and the old state. -/
theorem hnew_apply (c : Dev nD) (b : Fin 512) (k : Fin 1024) :
    ((dat1 V c).arrAt 8 cfg1.N : S512x1024.Idx → EReal) (ix2 b k) = Spec.hnew (gI1 V c) (gH1 V c) (h1 V c) b k :=
  congrFun (final1_8 V c) (ix2 b k)

/-- The second output at batch row b, selected row j: tanh of the new state's row b against output row j, plus that
    row's bias. -/
theorem logit_apply (c : Dev nD) (b j : Fin 512) :
    ((dat1 V c).arrAt 9 cfg1.N : S512x512.Idx → EReal) (ix2 b j)
      = Ideal.tanh ((∑ k : Fin 1024, (Spec.hnew (gI1 V c) (gH1 V c) (h1 V c) b k *ₑ (V c main_v5 : S512x1024.Idx → EReal) (ix2 j k)))
          +ₑ (V c main_v8 : S1x512.Idx → EReal) (ix2 (0 : Fin 1) j)) :=
  congrFun (final1_9 V c) (ix2 b j)

end Cert.KernelIdeal.Hand

end
-- ==== Proof.KIIsSpec.lean ====
/-
  The idealized kernel program's two results are the specification's arrays of the launch arrays (at the ideal instance).

  The second region's arrays are known in terms of what it reads (`hnew_apply`, `logit_apply`), what it reads in terms of
  the launch arrays (the reads at an index) and of the first region's output (`gi_half_apply`: each half's running sum over
  its 39 blocks). The input pre-activation is then the two halves plus the tail — by `gi_of_pieces` the whole column sum
  plus the bias —, the hidden pre-activation and the old state are read off directly, and the projection's weights and
  bias are the rows and entries the index words select, every index word being a row number.
-/
import proofs.«418008_j22720376995892_3_alg».proof.Proof.KIReads
import proofs.«418008_j22720376995892_3_alg».proof.Proof.KIValue0
import proofs.«418008_j22720376995892_3_alg».proof.Proof.KIValue1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (ρ : Dev nD → PrngReg)

local infixl:70 " *ₑ " => HMul.hMul (α := EReal) (β := EReal) (γ := EReal)

/-- The column summand over the buffers as the first region finds them is the product of the launch arrays' entries. -/
theorem colTerm_launch (c : Dev nD) (b : Fin 512) (j : Fin 3072) (v : Fin 50000) :
    colTerm (V1 m ρ) c b j v.val
      = Spec.mat (m ((c : Thread nD τ).loc main_arg0)) b v * Spec.mat (m ((c : Thread nD τ).loc main_arg3)) j v := by
  unfold colTerm Spec.mat
  rw [dif_pos v.isLt]
  rw [show V1 m ρ c main_arg0 = m ((c : Thread nD τ).loc main_arg0) from W1_arg0 m ρ c,
    show V1 m ρ c main_arg3 = m ((c : Thread nD τ).loc main_arg3) from W1_arg3 m ρ c]

/-- The input pre-activation the second region forms — the two halves the first region left and the tail — is the
    specification's. -/
theorem gI1_eq (c : Dev nD) (b : Fin 512) (j : Fin 3072) :
    gI1 (V6 m ρ) c b j
      = Spec.gi (Spec.mat (m ((c : Thread nD τ).loc main_arg0))) (Spec.mat (m ((c : Thread nD τ).loc main_arg3)))
          (Spec.vec (m ((c : Thread nD τ).loc main_arg5))) b j := by
  have h0 : V6 m ρ c main_v2 (ix3 (0 : Fin 2) b j) = Spec.runSum (colTerm (V1 m ρ) c b j) (Spec.vec (m ((c : Thread nD τ).loc main_arg5)) j) 0 38 :=
    (congrFun (V6_v2 m ρ c) (ix3 (0 : Fin 2) b j)).trans ((gi_half_apply (V1 m ρ) c 0 b j).trans (by
      rw [if_pos (show ((0 : Fin 2) : ℕ) = 0 from rfl)]; exact congrArg (fun β => Spec.runSum (colTerm (V1 m ρ) c b j) β 0 38) (V1_v1_at m ρ c j)))
  have h1 : V6 m ρ c main_v2 (ix3 (1 : Fin 2) b j) = Spec.runSum (colTerm (V1 m ρ) c b j) 0 1 38 :=
    (congrFun (V6_v2 m ρ c) (ix3 (1 : Fin 2) b j)).trans ((gi_half_apply (V1 m ρ) c 1 b j).trans (by
      rw [if_neg (show ¬((1 : Fin 2) : ℕ) = 0 by decide)]; rfl))
  have ht : (∑ l : Fin 80, V6 m ρ c main_v3 (ix2 b l) *ₑ V6 m ρ c main_v4 (ix2 j l)) = Spec.tailSum (colTerm (V1 m ρ) c b j) := by
    unfold Spec.tailSum
    refine Finset.sum_congr rfl fun l _ => ?_
    rw [V6_v3_at m ρ c b l, V6_v4_at m ρ c j l]
    exact (colTerm_launch m ρ c b j ⟨49920 + l.val, by omega⟩).symm
  unfold gI1
  rw [h0, h1, ht]
  exact Spec.gi_of_pieces _ _ _ b j _ (colTerm_launch m ρ c b j)

/-- The hidden pre-activation likewise. -/
theorem gH1_eq (c : Dev nD) (b : Fin 512) (j : Fin 3072) :
    gH1 (V6 m ρ) c b j
      = Spec.gh (Spec.hid (m ((c : Thread nD τ).loc main_arg2))) (Spec.mat (m ((c : Thread nD τ).loc main_arg4)))
          (Spec.vec (m ((c : Thread nD τ).loc main_arg6))) b j := by
  unfold gH1 Spec.gh
  rw [V6_v7_at m ρ c j, show V6 m ρ c main_arg4 = m ((c : Thread nD τ).loc main_arg4) from V6_arg4 m ρ c]
  refine congrArg₂ (· + ·) (Finset.sum_congr rfl fun k _ => ?_) rfl
  rw [V6_v0_at m ρ c b k]
  rfl

/-- The old state. -/
theorem h1_eq (c : Dev nD) (b : Fin 512) (k : Fin 1024) :
    h1 (V6 m ρ) c b k = Spec.hid (m ((c : Thread nD τ).loc main_arg2)) b k := by
  unfold h1
  exact V6_v0_at m ρ c b k

/-- The new state the second region computes is the specification's. -/
theorem hnew1_eq (c : Dev nD) (b : Fin 512) (k : Fin 1024) :
    Spec.hnew (gI1 (V6 m ρ) c) (gH1 (V6 m ρ) c) (h1 (V6 m ρ) c) b k
      = Spec.hOut (m ((c : Thread nD τ).loc main_arg0)) (m ((c : Thread nD τ).loc main_arg2)) (m ((c : Thread nD τ).loc main_arg3))
          (m ((c : Thread nD τ).loc main_arg4)) (m ((c : Thread nD τ).loc main_arg5)) (m ((c : Thread nD τ).loc main_arg6)) b k := by
  have e1 : gI1 (V6 m ρ) c = _ := funext fun b => funext fun j => gI1_eq m ρ c b j
  have e2 : gH1 (V6 m ρ) c = _ := funext fun b => funext fun j => gH1_eq m ρ c b j
  have e3 : h1 (V6 m ρ) c = _ := funext fun b => funext fun k => h1_eq m ρ c b k
  rw [e1, e2, e3]
  rfl

/-- THE NEW STATE: the program's second result is the specification's array. -/
theorem hnew_kernel (c : Dev nD) :
    (W8 m ρ c (Proc.devRef .tc main_v10) : S1x512x1024.Idx → EReal)
      = Spec.hnewArr (m ((c : Thread nD τ).loc main_arg0)) (m ((c : Thread nD τ).loc main_arg2)) (m ((c : Thread nD τ).loc main_arg3))
          (m ((c : Thread nD τ).loc main_arg4)) (m ((c : Thread nD τ).loc main_arg5)) (m ((c : Thread nD τ).loc main_arg6)) :=
  Spec.eq_hnewArr _ fun b k => (W8_v10_at m ρ c b k).trans ((hnew_apply (V6 m ρ) c b k).trans (hnew1_eq m ρ c b k))

/-- THE PROJECTION: the program's first result is the specification's array, every index word being a row number. -/
theorem logit_kernel (c : Dev nD) (hr : InRange (m ((c : Thread nD τ).loc main_arg1))) :
    (W8 m ρ c (Proc.devRef .tc main_v9_1) : S512x512.Idx → EReal)
      = Spec.logitArr (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) := by
  refine Spec.eq_logitArr _ fun b j => ?_
  rw [show (W8 m ρ c (Proc.devRef .tc main_v9_1) : S512x512.Idx → EReal) = _ from W8_v9_1 m ρ c]
  refine (logit_apply (V6 m ρ) c b j).trans ?_
  unfold Spec.lOut Spec.logit
  rw [V6_v8_at m ρ c hr j]
  refine congrArg Ideal.tanh (congrArg₂ (· + ·) (Finset.sum_congr rfl fun k _ => ?_) rfl)
  rw [V6_v5_at m ρ c hr j k, hnew1_eq m ρ c b k]
  rfl

end Cert.KernelIdeal.Hand

end
-- ==== Proof.KISide.lean ====
/-
  The idealized kernel program's run with its two results named by the specification: for finite float inputs and index
  words that are row numbers, every weakly fair execution ends with the projection array and the new-state array of the
  launch arrays, and the arguments unchanged.
-/
import proofs.«418008_j22720376995892_3_alg».proof.Proof.KIIsSpec
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (ρ : Dev nD → PrngReg)

set_option maxHeartbeats 1000000 in
theorem run_spec (hr : ∀ c : Dev nD, InRange (m ((c : Thread nD τ).loc main_arg1))) :
    θ_run defs (onTc (τ := τ) (main (F := Ideal))) ⟨m, fun _ => 0, ρ⟩ (fun r => ∀ c : Dev nD,
      r.2.mem ((c.tc : Thread nD τ).loc main_v9_1)
          = Spec.logitArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v10)
          = Spec.hnewArr (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v9_1 (by decide))).trans (logit_kernel m ρ c (hr c)),
      (h c _ (mem_uc main_v10 (by decide))).trans (hnew_kernel m ρ c),
      (h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c),
      (h c _ (mem_uc main_arg5 (by decide))).trans (W8_main_arg5 m ρ c),
      (h c _ (mem_uc main_arg6 (by decide))).trans (W8_main_arg6 m ρ c),
      (h c _ (mem_uc main_arg7 (by decide))).trans (W8_main_arg7 m ρ c),
      (h c _ (mem_uc main_arg8 (by decide))).trans (W8_main_arg8 m ρ c)⟩)
    (run_all (F := Ideal) m ρ)

end Cert.KernelIdeal.Hand

end
-- ==== Proof.RefRun.lean ====
/-
  The reference's run, read back. The reference program is host operations only; its run and the
  read-at-an-index lemmas over that run are imported here, and the hand lemmas of this directory that
  speak about the reference's two results are stated over them.
-/
import proofs.«418008_j22720376995892_3_alg».proof.Proof.Gen.ReferenceIdeal.Run
import proofs.«418008_j22720376995892_3_alg».proof.Proof.Gen.ReferenceIdeal.Read
-- ==== Proof.RefIsSpec.lean ====
/-
  The reference program's new hidden state, read at an index at the ideal instance, is the specification's.

  The reference forms the two pre-activations as matrix products against transposed weights plus a bias broadcast along
  the rows: `gi = x Wᵀ + bᵢ` (a sum over 50000 columns) and `gh = h Uᵀ + bₕ` (a sum over 1024 columns, the state first
  flattened from [1, 512, 1024] to [512, 1024]). It then slices each 3072-wide row into three blocks of width 1024,
  so that column `k` of a block is column `k`, `k + 1024` or `k + 2048` of the row; spells the logistic function as the
  quotient `1 / (1 + exp (-u))` with the literal one; and combines the blocks as
  `(1 - z) · n + z · h` with `r = σ(gi₀ + gh₀)`, `z = σ(gi₁ + gh₁)`, `n = tanh(gi₂ + r · gh₂)`.

  Each lemma below reads one of these arrays at an index built from literal coordinates and identifies it with the
  matching function of `Cert.Spec`: the index arithmetic of the layout operations (transpose, broadcast, slice, the
  row-major flattening) is settled once per operation, the literal one is the extended real 1, and the quotient is the
  logistic function by its definition. The last two lemmas carry the result to the program's second returned value.
-/
import proofs.«418008_j22720376995892_3_alg».proof.Proof.RefRun
import proofs.«418008_j22720376995892_3_alg».proof.Proof.Spec
import Idealize.ShloMosaic.Lib.IdealHost

noncomputable section

namespace Cert.ReferenceIdeal.RefValue

open Cert.ReferenceIdeal Cert.ReferenceIdeal.Read Idealize.ShloMosaic Idealize.ShloMosaic.ValueIdx
open Idealize.ShloMosaic.TcCoe Idealize.SL.Sem
open scoped BigOperators

/-! ## The input product: `x Wᵀ + bᵢ` -/

/-- The left operand of the product at `(b, j)`, summand `k`, is read at `(b, k)`. -/
private theorem lidx_gi (b : Fin 512) (j : Fin 3072) (k : Fin 50000) : lidx_main_v2 (ix2 b j) k = ix2 b k :=
  funext fun a => match a with | ⟨0, _⟩ => rfl | ⟨1, _⟩ => rfl
/-- The right operand is the transposed weight matrix: its entry `(k, j)` is the weights' `(j, k)`. -/
private theorem ridx_gi (b : Fin 512) (j : Fin 3072) (k : Fin 50000) :
    idx_main_v1 (ridx_main_v2 (ix2 b j) k) = ix2 j k :=
  funext fun a => match a with | ⟨0, _⟩ => rfl | ⟨1, _⟩ => rfl
/-- The bias, broadcast to a row and then to every row, is read at its column. -/
private theorem bidx_gi (b : Fin 512) (j : Fin 3072) : idx_main_v3 (idx_main_v4 (ix2 b j)) = ix1 j :=
  funext fun a => match a with | ⟨0, _⟩ => rfl

/-- The input pre-activation at `(b, j)`: the sum over the 50000 columns plus the bias. -/
theorem gi_ref (a0 : FVec Ideal S512x50000 .f32) (a3 : FVec Ideal S3072x50000 .f32) (a5 : FVec Ideal S3072 .f32)
    (b : Fin 512) (j : Fin 3072) :
    Read.val_main_v5 (F := Ideal) a0 a3 a5 (ix2 b j) = Spec.gi (Spec.mat a0) (Spec.mat a3) (Spec.vec a5) b j := by
  rw [val_main_v5_apply, val_main_v2_apply, val_main_v4_apply, val_main_v3_apply]
  simp only [val_main_v1_apply, lidx_gi, ridx_gi, bidx_gi, Ideal.addf_def]
  rfl

/-! ## The hidden product: `h Uᵀ + bₕ` -/

/-- Flattening [1, 512, 1024] to [512, 1024] keeps row-major order: `(b, k)` comes from `(0, b, k)`, since
    `(1024 b + k) / 1024 = b` and `(1024 b + k) mod 1024 = k` for `k < 1024`. -/
private theorem idx_flat (b : Fin 512) (k : Fin 1024) : idx_main_v0 (ix2 b k) = ix3 (0 : Fin 1) b k :=
  funext fun a => match a with
    | ⟨0, _⟩ => rfl
    | ⟨1, _⟩ => Fin.ext (by
        have hb := b.isLt; have hk := k.isLt
        show (b.val * 1024 + k.val) / 1024 % 512 = b.val; omega)
    | ⟨2, _⟩ => Fin.ext (by
        have hb := b.isLt; have hk := k.isLt
        show (b.val * 1024 + k.val) % 1024 = k.val; omega)
private theorem lidx_gh (b : Fin 512) (j : Fin 3072) (k : Fin 1024) : lidx_main_v7 (ix2 b j) k = ix2 b k :=
  funext fun a => match a with | ⟨0, _⟩ => rfl | ⟨1, _⟩ => rfl
private theorem ridx_gh (b : Fin 512) (j : Fin 3072) (k : Fin 1024) :
    idx_main_v6 (ridx_main_v7 (ix2 b j) k) = ix2 j k :=
  funext fun a => match a with | ⟨0, _⟩ => rfl | ⟨1, _⟩ => rfl
private theorem bidx_gh (b : Fin 512) (j : Fin 3072) : idx_main_v8 (idx_main_v9 (ix2 b j)) = ix1 j :=
  funext fun a => match a with | ⟨0, _⟩ => rfl

/-- The hidden pre-activation at `(b, j)`: the sum over the 1024 state columns plus the bias. -/
theorem gh_ref (a2 : FVec Ideal S1x512x1024 .f32) (a4 : FVec Ideal S3072x1024 .f32) (a6 : FVec Ideal S3072 .f32)
    (b : Fin 512) (j : Fin 3072) :
    Read.val_main_v10 (F := Ideal) a2 a4 a6 (ix2 b j) = Spec.gh (Spec.hid a2) (Spec.mat a4) (Spec.vec a6) b j := by
  rw [val_main_v10_apply, val_main_v7_apply, val_main_v9_apply, val_main_v8_apply]
  simp only [val_main_v0_apply, val_main_v6_apply, lidx_gh, ridx_gh, bidx_gh, idx_flat, Ideal.addf_def]
  rfl

/-! ## The three column blocks -/

/-- Column `k` of the first, second and third slice of an input row is column `k`, `k + 1024`, `k + 2048` of the row
    (the slice offset is written on the left in the program and on the right in the specification). -/
private theorem sl_gi0 (b : Fin 512) (k : Fin 1024) : idx_main_v11 (ix2 b k) = ix2 b (Spec.col0 k) :=
  funext fun a => match a with | ⟨0, _⟩ => rfl | ⟨1, _⟩ => rfl
private theorem sl_gi1 (b : Fin 512) (k : Fin 1024) : idx_main_v12 (ix2 b k) = ix2 b (Spec.col1 k) :=
  funext fun a => match a with | ⟨0, _⟩ => rfl | ⟨1, _⟩ => Fin.ext (Nat.add_comm 1024 k.val)
private theorem sl_gi2 (b : Fin 512) (k : Fin 1024) : idx_main_v13 (ix2 b k) = ix2 b (Spec.col2 k) :=
  funext fun a => match a with | ⟨0, _⟩ => rfl | ⟨1, _⟩ => Fin.ext (Nat.add_comm 2048 k.val)
/-- The same for a hidden row. -/
private theorem sl_gh0 (b : Fin 512) (k : Fin 1024) : idx_main_v14 (ix2 b k) = ix2 b (Spec.col0 k) :=
  funext fun a => match a with | ⟨0, _⟩ => rfl | ⟨1, _⟩ => rfl
private theorem sl_gh1 (b : Fin 512) (k : Fin 1024) : idx_main_v15 (ix2 b k) = ix2 b (Spec.col1 k) :=
  funext fun a => match a with | ⟨0, _⟩ => rfl | ⟨1, _⟩ => Fin.ext (Nat.add_comm 1024 k.val)
private theorem sl_gh2 (b : Fin 512) (k : Fin 1024) : idx_main_v16 (ix2 b k) = ix2 b (Spec.col2 k) :=
  funext fun a => match a with | ⟨0, _⟩ => rfl | ⟨1, _⟩ => Fin.ext (Nat.add_comm 2048 k.val)

/-! ## The gates -/

/-- The reset gate: the quotient `1 / (1 + exp (-u))` at `u = gi₀ + gh₀` is the logistic function of `u`. -/
theorem reset_ref (a0 : FVec Ideal S512x50000 .f32) (a2 : FVec Ideal S1x512x1024 .f32)
    (a3 : FVec Ideal S3072x50000 .f32) (a4 : FVec Ideal S3072x1024 .f32) (a5 a6 : FVec Ideal S3072 .f32)
    (b : Fin 512) (k : Fin 1024) :
    Read.val_main_v23 (F := Ideal) a0 a2 a3 a4 a5 a6 (ix2 b k)
      = Ideal.logistic (Spec.gi (Spec.mat a0) (Spec.mat a3) (Spec.vec a5) b (Spec.col0 k)
          + Spec.gh (Spec.hid a2) (Spec.mat a4) (Spec.vec a6) b (Spec.col0 k)) := by
  rw [val_main_v23_apply, val_main_v22_apply, val_main_cst_0_apply, val_main_v21_apply, val_main_v20_apply,
    val_main_cst_apply, val_main_v19_apply, val_main_v18_apply, val_main_v17_apply, val_main_v11_apply,
    val_main_v14_apply, sl_gi0, sl_gh0, gi_ref, gh_ref]
  simp only [Ideal.hostDivf_def, Ideal.ofBits_def, Ideal.ofBits_one_f32, Ideal.addf_def, Ideal.hostUnary_exp_def,
    Ideal.hostNegf_def, Ideal.negf_def]
  rfl

/-- The update gate: the same quotient at `u = gi₁ + gh₁`. -/
theorem update_ref (a0 : FVec Ideal S512x50000 .f32) (a2 : FVec Ideal S1x512x1024 .f32)
    (a3 : FVec Ideal S3072x50000 .f32) (a4 : FVec Ideal S3072x1024 .f32) (a5 a6 : FVec Ideal S3072 .f32)
    (b : Fin 512) (k : Fin 1024) :
    Read.val_main_v30 (F := Ideal) a0 a2 a3 a4 a5 a6 (ix2 b k)
      = Ideal.logistic (Spec.gi (Spec.mat a0) (Spec.mat a3) (Spec.vec a5) b (Spec.col1 k)
          + Spec.gh (Spec.hid a2) (Spec.mat a4) (Spec.vec a6) b (Spec.col1 k)) := by
  rw [val_main_v30_apply, val_main_v29_apply, val_main_cst_2_apply, val_main_v28_apply, val_main_v27_apply,
    val_main_cst_1_apply, val_main_v26_apply, val_main_v25_apply, val_main_v24_apply, val_main_v12_apply,
    val_main_v15_apply, sl_gi1, sl_gh1, gi_ref, gh_ref]
  simp only [Ideal.hostDivf_def, Ideal.ofBits_def, Ideal.ofBits_one_f32, Ideal.addf_def, Ideal.hostUnary_exp_def,
    Ideal.hostNegf_def, Ideal.negf_def]
  rfl

/-- The candidate: `tanh (gi₂ + r · gh₂)`. -/
theorem cand_ref (a0 : FVec Ideal S512x50000 .f32) (a2 : FVec Ideal S1x512x1024 .f32)
    (a3 : FVec Ideal S3072x50000 .f32) (a4 : FVec Ideal S3072x1024 .f32) (a5 a6 : FVec Ideal S3072 .f32)
    (b : Fin 512) (k : Fin 1024) :
    Read.val_main_v33 (F := Ideal) a0 a2 a3 a4 a5 a6 (ix2 b k)
      = Ideal.tanh (Spec.gi (Spec.mat a0) (Spec.mat a3) (Spec.vec a5) b (Spec.col2 k)
          + Ideal.logistic (Spec.gi (Spec.mat a0) (Spec.mat a3) (Spec.vec a5) b (Spec.col0 k)
              + Spec.gh (Spec.hid a2) (Spec.mat a4) (Spec.vec a6) b (Spec.col0 k))
            * Spec.gh (Spec.hid a2) (Spec.mat a4) (Spec.vec a6) b (Spec.col2 k)) := by
  rw [val_main_v33_apply, val_main_v32_apply, val_main_v13_apply, val_main_v31_apply, val_main_v16_apply,
    reset_ref, sl_gi2, sl_gh2, gi_ref, gh_ref]
  simp only [Ideal.hostUnary_tanh_def, Ideal.addf_def, Ideal.mulf_def]

/-! ## The new state -/

/-- The new state at row `b`, column `k` of the 512 × 1024 array: `(1 - z) · n + z · h`. -/
theorem hstate_ref (a0 : FVec Ideal S512x50000 .f32) (a2 : FVec Ideal S1x512x1024 .f32)
    (a3 : FVec Ideal S3072x50000 .f32) (a4 : FVec Ideal S3072x1024 .f32) (a5 a6 : FVec Ideal S3072 .f32)
    (b : Fin 512) (k : Fin 1024) :
    Read.val_main_v38 (F := Ideal) a0 a2 a3 a4 a5 a6 (ix2 b k) = Spec.hOut a0 a2 a3 a4 a5 a6 b k := by
  rw [val_main_v38_apply, val_main_v36_apply, val_main_v35_apply, val_main_v34_apply, val_main_cst_3_apply,
    val_main_v37_apply, val_main_v0_apply, idx_flat, update_ref, cand_ref]
  simp only [Ideal.ofBits_def, Ideal.ofBits_one_f32, Ideal.addf_def, Ideal.mulf_def, Ideal.subf_def]
  rfl

/-- Giving the state back its leading axis of size one: `(0, b, k)` is read at `(b, k)`. -/
private theorem idx_unflat (b : Fin 512) (k : Fin 1024) : idx_main_v52 (ix3 (0 : Fin 1) b k) = ix2 b k :=
  funext fun a => match a with | ⟨0, _⟩ => rfl | ⟨1, _⟩ => rfl

/-- The new state as the [1, 512, 1024] array the program returns, read at `(0, b, k)`. -/
theorem hnew_ref (a0 : FVec Ideal S512x50000 .f32) (a2 : FVec Ideal S1x512x1024 .f32)
    (a3 : FVec Ideal S3072x50000 .f32) (a4 : FVec Ideal S3072x1024 .f32) (a5 a6 : FVec Ideal S3072 .f32)
    (b : Fin 512) (k : Fin 1024) :
    Read.val_main_v52 (F := Ideal) a0 a2 a3 a4 a5 a6 (ix3 (0 : Fin 1) b k) = Spec.hOut a0 a2 a3 a4 a5 a6 b k := by
  rw [val_main_v52_apply, idx_unflat, hstate_ref]

/-- The program's second returned value, as a function of the launch memory's argument arrays, read at `(0, b, k)`. -/
theorem res_out1_eq (m : (ℓ : Loc nD τ sig) → Buf (Elt Ideal) ℓ) (c : Dev nD) (b : Fin 512) (k : Fin 1024) :
    Value.res_out1 (F := Ideal) m c (ix3 (0 : Fin 1) b k)
      = Spec.hOut (m ((c.tc : Thread nD τ).loc main_arg0)) (m ((c.tc : Thread nD τ).loc main_arg2))
          (m ((c.tc : Thread nD τ).loc main_arg3)) (m ((c.tc : Thread nD τ).loc main_arg4))
          (m ((c.tc : Thread nD τ).loc main_arg5)) (m ((c.tc : Thread nD τ).loc main_arg6)) b k :=
  (congrFun (Read.val_main_v52_eq (F := Ideal) m c) (ix3 (0 : Fin 1) b k)).trans (hnew_ref _ _ _ _ _ _ b k)

end Cert.ReferenceIdeal.RefValue

end
-- ==== Proof.LibGatherCol.lean ====
/-
  A gather that picks columns of a matrix, read at one element.

  The operand is an `R × N` array, the start indices a column of `M` words, the result `R × M`: result column `p` is the
  operand's column named by word `p`. The result's axis 0 is the one offset axis (a slice is a whole column, `R` long and
  one wide), the operand's axis 1 is collapsed and start-indexed, there are no batching axes, and the index vector lies
  on axis 1 of the column of words. StableHLO reads a start index signed and clamps it so that the slice fits: here into
  `[0, N - 1]`.

  `gather_cols_apply`: element `(r, p)` of the result is the operand at row `r`, column "word `p`, read signed and clamped
  into `[0, N - 1]`".
-/
import Idealize.ShloMosaic.Lib.ValueIdx

noncomputable section

namespace Cert.LibGatherCol

open Idealize.ShloMosaic Idealize.ShloMosaic.ValueIdx

/-- The column gather's dimension numbers: the result's axis 0 the offset axis, the operand's axis 1 collapsed and
    start-indexed, no batching axes, the index vector on axis 1 of the column of words, slices one column wide. -/
abbrev colGatherDims (R N M : Nat)
    (wf : GatherDims.WF ⟨2, ![R, N]⟩ ⟨2, ![M, 1]⟩ ⟨2, ![R, M]⟩ [0] [1] [] [1] [] 1 ![R, 1]) :
    GatherDims ⟨2, ![R, N]⟩ ⟨2, ![M, 1]⟩ ⟨2, ![R, M]⟩ where
  offsetDims := [0]
  collapsedSliceDims := [1]
  operandBatchingDims := []
  startIndicesBatchingDims := []
  startIndexMap := [1]
  indexVectorDim := 1
  sliceSizes := ![R, 1]
  wf := wf

/-- On the offset axis the operand index is the result's row: the start is 0 (the axis is not start-indexed), there is
    no batching coordinate, and the offset coordinate is the result's coordinate on its one offset axis. -/
theorem colGather_axis0 {R N M w : Nat}
    (wf : GatherDims.WF ⟨2, ![R, N]⟩ ⟨2, ![M, 1]⟩ ⟨2, ![R, M]⟩ [0] [1] [] [1] [] 1 ![R, 1])
    (idx : IVec ⟨2, ![M, 1]⟩ w) (r : Fin R) (p : Fin M) :
    ((colGatherDims R N M wf).operandIdx (ix2 r p) idx 0).val = r.val := by
  show (colGatherDims R N M wf).start (ix2 r p) idx 0 + (colGatherDims R N M wf).batchCoord (ix2 r p) 0
    + (colGatherDims R N M wf).offCoord (ix2 r p) 0 = _
  rw [GatherDims.batchCoord_eq_zero _ _ _ List.not_mem_nil, Nat.add_zero]
  unfold GatherDims.start
  rw [dif_neg (show (0 : Fin 2) ∉ (colGatherDims R N M wf).startIndexMap by
    show (0 : Fin 2) ∉ [(1 : Fin 2)]; decide), Nat.zero_add]
  unfold GatherDims.offCoord
  rw [dif_pos (show (0 : Fin 2) ∈ (colGatherDims R N M wf).sKept by
    show (0 : Fin 2) ∈ (List.finRange 2).filter (· ∉ [(1 : Fin 2)] ++ []); decide)]
  rfl

/-- On the collapsed axis the operand index is the clamped start: the word at row `p` of the column of words (the
    result's axis 1 is its one batch axis and reads the words' axis 0), read signed and cut into `[0, N - 1]`; no batching
    or offset coordinate. -/
theorem colGather_axis1 {R N M w : Nat}
    (wf : GatherDims.WF ⟨2, ![R, N]⟩ ⟨2, ![M, 1]⟩ ⟨2, ![R, M]⟩ [0] [1] [] [1] [] 1 ![R, 1])
    (idx : IVec ⟨2, ![M, 1]⟩ w) (r : Fin R) (p : Fin M) :
    ((colGatherDims R N M wf).operandIdx (ix2 r p) idx 1).val = min (idx (ix2 p (0 : Fin 1))).toInt.toNat (N - 1) := by
  show (colGatherDims R N M wf).start (ix2 r p) idx 1 + (colGatherDims R N M wf).batchCoord (ix2 r p) 1
    + (colGatherDims R N M wf).offCoord (ix2 r p) 1 = _
  rw [GatherDims.batchCoord_eq_zero _ _ _ List.not_mem_nil, Nat.add_zero,
    GatherDims.offCoord_eq_zero _ _ _ (fun h => ((GatherDims.mem_sKept _ _).mp h).1 (List.mem_singleton.mpr rfl)),
    Nat.add_zero]
  unfold GatherDims.start
  rw [dif_pos (show (1 : Fin 2) ∈ (colGatherDims R N M wf).startIndexMap from List.mem_singleton.mpr rfl)]
  have hsi : (colGatherDims R N M wf).siIdx (ix2 r p) ⟨List.idxOf (1 : Fin 2) (colGatherDims R N M wf).startIndexMap,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]
  rfl

/-- THE COLUMN GATHER READ AT `(r, p)`: the array at row `r`, column "word `p`, read signed and clamped into
    `[0, N - 1]`". -/
theorem gather_cols_apply {α : Type} {R N M w : Nat} (d : GatherDims ⟨2, ![R, N]⟩ ⟨2, ![M, 1]⟩ ⟨2, ![R, M]⟩)
    (hoff : d.offsetDims = [0]) (hcoll : d.collapsedSliceDims = [1]) (hob : d.operandBatchingDims = [])
    (hsb : d.startIndicesBatchingDims = []) (hsim : d.startIndexMap = [1]) (hivd : d.indexVectorDim = 1)
    (hss : d.sliceSizes = ![R, 1])
    (x : (⟨2, ![R, N]⟩ : Shape).Idx → α) (idx : IVec ⟨2, ![M, 1]⟩ w) (r : Fin R) (p : Fin M) (hN : 0 < N) :
    Host.gather d x idx (ix2 r p)
      = x (ix2 r (⟨min (idx (ix2 p (0 : Fin 1))).toInt.toNat (N - 1), by omega⟩ : Fin N)) := by
  obtain ⟨od, cd, ob, sb, sm, ivd, ss, wf⟩ := d
  simp only at hoff hcoll hob hsb hsim hivd hss
  subst hoff hcoll hob hsb hsim hivd hss
  show x ((colGatherDims R N M wf).operandIdx (ix2 r p) idx) = _
  congr 1
  funext a
  refine Fin.ext ?_
  match a with
  | ⟨0, _⟩ => exact colGather_axis0 wf idx r p
  | ⟨1, _⟩ => exact colGather_axis1 wf idx r p

end Cert.LibGatherCol

end
-- ==== Proof.RefLogit.lean ====
/-
  The reference program's projection is the specification's.

  After the new state (stage 38) the reference program transposes the output weights, multiplies the state by them (a sum
  over the 1024 state columns), adds the output bias laid along every row, and takes `tanh`: a `512 × 50000` array whose
  entry `(b, v)` is `tanh (∑ₖ h'(b, k) · Wo(v, k) + bo(v))`. Beside it the index words are wrapped (50000 added to a negative
  word) and laid in a column, and a gather picks, for result column `j`, the projection's column named by word `j` read
  signed and clamped into `[0, 49999]`. So entry `(b, j)` of the first result is the specification's `lOut` at `(b, j)`.
-/
import proofs.«418008_j22720376995892_3_alg».proof.Proof.RefRun
import proofs.«418008_j22720376995892_3_alg».proof.Proof.RefIsSpec
import proofs.«418008_j22720376995892_3_alg».proof.Proof.Spec
import proofs.«418008_j22720376995892_3_alg».proof.Proof.LibGatherCol

noncomputable section

namespace Cert.ReferenceIdeal.RefValue

open Cert.ReferenceIdeal Cert.ReferenceIdeal.Gen Idealize.ShloMosaic Idealize.ShloMosaic.ValueIdx Idealize.ShloMosaic.TcCoe
  Idealize.SL.Sem Idealize.ShloMosaic.StableHlo

/-- THE PROJECTION BEFORE THE GATHER, at row `b` and output row `v`: the new state's row `b` against row `v` of the output
    weights (the transposed weights read at `(k, v)` are the weights at `(v, k)`), plus the bias at `v` (broadcast along the
    rows), through `tanh`. -/
theorem proj_ref (a0 : FVec Ideal S512x50000 .f32) (a2 : FVec Ideal S1x512x1024 .f32) (a3 : FVec Ideal S3072x50000 .f32)
    (a4 : FVec Ideal S3072x1024 .f32) (a5 a6 : FVec Ideal S3072 .f32) (a7 : FVec Ideal S50000x1024 .f32)
    (a8 : FVec Ideal S50000 .f32) (b : Fin 512) (v : Fin 50000) :
    Read.val_main_v44 (F := Ideal) a0 a2 a3 a4 a5 a6 a7 a8 (ix2 b v)
      = Ideal.tanh ((∑ k : Fin 1024, Spec.hOut a0 a2 a3 a4 a5 a6 b k * a7 (ix2 v k)) + a8 (ix1 v)) := by
  rw [Read.val_main_v44_apply, Read.val_main_v43_apply, Read.val_main_v40_apply, Read.val_main_v42_apply,
    Read.val_main_v41_apply, Ideal.hostUnary_tanh_def, Ideal.addf_def]
  refine congrArg Ideal.tanh (congrArg₂ (· + ·) (Finset.sum_congr rfl fun k _ => ?_) (congrArg a8 ?_))
  · have hl : Read.lidx_main_v40 (ix2 b v) k = ix2 b k :=
      funext fun a => Fin.ext (by match a with | ⟨0, _⟩ => rfl | ⟨1, _⟩ => rfl)
    have hr : Read.idx_main_v39 (Read.ridx_main_v40 (ix2 b v) k) = ix2 v k :=
      funext fun a => Fin.ext (by match a with | ⟨0, _⟩ => rfl | ⟨1, _⟩ => rfl)
    rw [Read.val_main_v39_apply, hl, hr, hstate_ref]
  · exact funext fun a => Fin.ext (by match a with | ⟨0, _⟩ => rfl)

/-- THE COLUMN OF WORDS the gather reads, at row `j`: word `j` with 50000 added when it is negative (the signed
    comparison with 0 as a bit selects between the sum and the word itself). -/
theorem words_ref (a1 : IVec S512 32) (j : Fin 512) :
    Read.val_main_v50 (F := Ideal) a1 (ix2 j (0 : Fin 1)) = Spec.wrapWord (a1 (ix1 j)) := by
  have hi : Read.idx_main_v50 (ix2 j (0 : Fin 1)) = ix1 j :=
    funext fun a => Fin.ext (by match a with | ⟨0, _⟩ => rfl)
  rw [Read.val_main_v50_apply, Read.val_main_v49_apply, Read.val_main_v46_apply, Read.val_main_v48_apply,
    Read.val_main_v45_apply, Read.val_main_v47_apply, Read.val_main_c_apply, Read.val_main_c_4_apply, hi]
  unfold Spec.wrapWord IntOp.cmpi IntOp.addi
  cases (a1 (ix1 j)).slt 0#32
  · exact select_zero _ _
  · exact select_one _ _

/-- The projection at output row `v` is the specification's entry `(b, j)` as soon as `v` is the row word `j` selects. -/
theorem logit_at (a0 : FVec Ideal S512x50000 .f32) (a1 : IVec S512 32) (a2 : FVec Ideal S1x512x1024 .f32)
    (a3 : FVec Ideal S3072x50000 .f32) (a4 : FVec Ideal S3072x1024 .f32) (a5 a6 : FVec Ideal S3072 .f32)
    (a7 : FVec Ideal S50000x1024 .f32) (a8 : FVec Ideal S50000 .f32) (b j : Fin 512) (v : Fin 50000)
    (hv : v = Spec.tgt a1 j) :
    Read.val_main_v44 (F := Ideal) a0 a2 a3 a4 a5 a6 a7 a8 (ix2 b v) = Spec.lOut a0 a1 a2 a3 a4 a5 a6 a7 a8 b j := by
  subst hv
  rw [proj_ref]
  rfl

/-- THE FIRST RESULT'S STAGE at `(b, j)`: the gather reads the projection's column at word `j` of the wrapped column, read
    signed and clamped into `[0, 49999]`, which is the output row the specification's `tgt` names. -/
theorem logit_ref (a0 : FVec Ideal S512x50000 .f32) (a1 : IVec S512 32) (a2 : FVec Ideal S1x512x1024 .f32)
    (a3 : FVec Ideal S3072x50000 .f32) (a4 : FVec Ideal S3072x1024 .f32) (a5 a6 : FVec Ideal S3072 .f32)
    (a7 : FVec Ideal S50000x1024 .f32) (a8 : FVec Ideal S50000 .f32) (b j : Fin 512) :
    Read.val_main_v51 (F := Ideal) a0 a1 a2 a3 a4 a5 a6 a7 a8 (ix2 b j) = Spec.lOut a0 a1 a2 a3 a4 a5 a6 a7 a8 b j := by
  unfold Read.val_main_v51
  refine (LibGatherCol.gather_cols_apply (R := 512) (N := 50000) (M := 512)
    gather_S512x50000_S512x1_S512x512_0_1_n_n_1_1_5121 rfl rfl rfl rfl rfl rfl rfl _ _ b j (by decide)).trans ?_
  refine logit_at a0 a1 a2 a3 a4 a5 a6 a7 a8 b j _ (Fin.ext ?_)
  show min (Read.val_main_v50 (F := Ideal) a1 (ix2 j (0 : Fin 1))).toInt.toNat (50000 - 1) = _
  rw [words_ref]
  rfl

/-- THE FIRST RESULT at `(b, j)` is the specification's projection of the nine arguments' launch contents. -/
theorem res_out0_eq (m : (ℓ : Loc nD τ sig) → Buf (Elt Ideal) ℓ) (c : Dev nD) (b j : Fin 512) :
    Value.res_out0 (F := Ideal) m c (ix2 b j)
      = Spec.lOut (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) b j :=
  (congrFun (Read.val_main_v51_eq m c) (ix2 b j)).trans (logit_ref _ _ _ _ _ _ _ _ _ b j)

end Cert.ReferenceIdeal.RefValue

end
-- ==== Proof.RefSide.lean ====
/-
  The reference program's run with its two results named by the specification: every weakly fair execution ends with the
  projection array and the new-state array of the launch arrays, and the arguments unchanged.
-/
import proofs.«418008_j22720376995892_3_alg».proof.Proof.RefIsSpec
import proofs.«418008_j22720376995892_3_alg».proof.Proof.RefLogit
import proofs.«418008_j22720376995892_3_alg».proof.Proof.SpecArr

noncomputable section

namespace Cert.ReferenceIdeal.RefValue

open Cert.ReferenceIdeal Cert.ReferenceIdeal.Gen Idealize.ShloMosaic Idealize.ShloMosaic.TcCoe Idealize.SL.Sem Idealize.ShloMosaic.ValueIdx

variable (m : (ℓ : Loc nD τ sig) → Buf (Elt Ideal) ℓ)

/-- The projection, as the reference computes it, is the specification's array of the launch arrays. -/
theorem res_out0_arr (c : Dev nD) :
    Value.res_out0 (F := Ideal) m c
      = Spec.logitArr (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) :=
  Spec.eq_logitArr _ (res_out0_eq m c)

/-- The new state likewise. -/
theorem res_out1_arr (c : Dev nD) :
    Value.res_out1 (F := Ideal) m c
      = Spec.hnewArr (m ((c.tc : Thread nD τ).loc main_arg0)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) :=
  Spec.eq_hnewArr _ (res_out1_eq m c)

/-- The reference's run with the two results named by the specification. -/
theorem ref_spec (ρ : Dev nD → PrngReg) :
    θ_run defs (onTc (τ := τ) (main (F := Ideal))) ⟨m, fun _ => 0, ρ⟩ (fun r => ∀ c : Dev nD,
      r.2.mem ((c.tc : Thread nD τ).loc main_v51)
          = Spec.logitArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v52)
          = Spec.hnewArr (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (res_out0_arr m c), (h c).2.1.trans (res_out1_arr m c), (h c).2.2⟩)
    (Value.run (F := Ideal) m ρ)

end Cert.ReferenceIdeal.RefValue

end
-- ==== Proof.lean ====
/-
  `Cert.Claim`: the kernel program (one GRU step with the input product blocked over the 50000 columns, and the projection
  onto the 512 output rows the index words select, in two kernel regions) against the plain reference, over the extended
  reals, for finite float inputs and index words that are row numbers.

  The three frames. The word-level program and the idealized one run to the end and leave their arguments alone: the
  eight-item run of @main (host stretches and the two regions) through the several-regions launch, with each region's
  proof data and body obligation — the same text at the two programs. The reference is host operations only: its
  frame is its run with the results dropped.

  The ideal pass rewrote nothing, so the idealization claim is trivial.

  The equivalence. Both programs end with the specification's two arrays of the launch arrays (`Cert.Spec.logitArr`,
  `Cert.Spec.hnewArr`): the reference by reading its 60 operations at an index; the kernel program by reading the two
  regions' output arrays at an index — the first region's two halves of 39 blocks of 640 columns and the second region's
  tail of 80 columns add up to the whole sum over the 50000 columns (no finiteness needed: a regrouping of a sum) — and,
  for the projection, by the index words being row numbers (the precondition), so that the rows the kernel program gathers
  beforehand are the rows at which the reference reads its full projection afterwards. The memories agree on the arguments.
-/
import proofs.«418008_j22720376995892_3_alg».proof.Defs
import proofs.«418008_j22720376995892_3_alg».proof.Proof.Gen.Kernel
import proofs.«418008_j22720376995892_3_alg».proof.Proof.Gen.KernelIdeal
import proofs.«418008_j22720376995892_3_alg».proof.Proof.Gen.ReferenceIdeal
import proofs.«418008_j22720376995892_3_alg».proof.Proof.Gen.Pre_finite_inputs
import proofs.«418008_j22720376995892_3_alg».proof.Proof.KRun
import proofs.«418008_j22720376995892_3_alg».proof.Proof.KISide
import proofs.«418008_j22720376995892_3_alg».proof.Proof.RefSide
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Hand.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

theorem preserves : Cert.preserves_Kernel_KernelIdeal := trivial

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  haveI := Cert.Pre_finite_inputs.Gen.facts
  -- the precondition's last two conjuncts: every index word is a row number
  have hr : ∀ c : Dev Cert.KernelIdeal.nD, Cert.KernelIdeal.Hand.InRange (m ((c.tc : Thread Cert.KernelIdeal.nD Cert.KernelIdeal.τ).loc Cert.KernelIdeal.main_arg1)) := fun c =>
    Cert.KernelIdeal.Hand.inRange_of_pre (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (hpre c)
  refine ⟨fun c => Cert.Spec.logitArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Cert.Spec.hnewArr (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.Hand.run_spec m ρ hr, ?_⟩
  -- the reference ends with the same two arrays of ITS launch arrays, which are the kernel program's
  refine (θ_run Cert.ReferenceIdeal.defs _ _).mono (fun r h c => ?_) (Cert.ReferenceIdeal.RefValue.ref_spec m' ρ')
  obtain ⟨h0, h1, h2, h3, h4, h5, h6, h7, h8⟩ := hagree c
  beta_reduce
  rw [← h0, ← h1, ← h2, ← h3, ← h4, ← h5, ← h6, ← h7, ← h8]
  exact h c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
